-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8x2048x2048 : Shape := ⟨3, ![8, 2048, 2048]⟩
abbrev S16384 : Shape := ⟨1, ![16384]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S16384 : S_.BroadcastsInDim S16384 (![] : Fin 0 → Fin S16384.rank)
  reducesTo_S16384_S_d0 : S16384.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16384x2048 .f32) (main_arg1 : FVec F S8x2048x2048 .f32) (main_arg2 : IVec S16384 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 1 := constantI S_ 1 1#1
  let main_v11 : IVec S_ 1 := (fun x v => Host.reduce IntOp.andi x v reducesTo_S16384_S_d0 h_S_) main_v10 main_c_3
  let main_v12 : IVec S_ 1 := andi main_v8 main_v11
  let main_c_4 : IVec S_ 32 := constantI S_ 32 8#32
  let main_v13 : IVec S16384 32 := broadcastInDim S16384 ![] bcast_S_S16384 main_c_4
  let main_v14 : IVec S16384 1 := cmpi .slt main_arg2 main_v13
  let main_c_5 : IVec S_ 1 := constantI S_ 1 1#1
  let main_v15 : IVec S_ 1 := (fun x v => Host.reduce IntOp.andi x v reducesTo_S16384_S_d0 h_S_) main_v14 main_c_5
  fn_part1 (F := F) main_v12 main_v15
-- ==== Kernel.lean ====
abbrev S16384x2048 : Shape := ⟨2, ![16384, 2048]⟩
abbrev S8x2048x2048 : Shape := ⟨3, ![8, 2048, 2048]⟩
abbrev S16384 : Shape := ⟨1, ![16384]⟩
abbrev S8 : Shape := ⟨1, ![8]⟩
abbrev S16384x1 : Shape := ⟨2, ![16384, 1]⟩
abbrev S1x8 : Shape := ⟨2, ![1, 8]⟩
abbrev S16384x8 : Shape := ⟨2, ![16384, 8]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S9 : Shape := ⟨1, ![9]⟩
abbrev S20480 : Shape := ⟨1, ![20480]⟩
abbrev S20480x1 : Shape := ⟨2, ![20480, 1]⟩
abbrev S20480x2048 : Shape := ⟨2, ![20480, 2048]⟩
abbrev S40 : Shape := ⟨1, ![40]⟩
abbrev S40x1 : Shape := ⟨2, ![40, 1]⟩
abbrev S40x8 : Shape := ⟨2, ![40, 8]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 161
  | .vmem => 6
  | .smem => 2
  | _ => 0

abbrev hbmTy0_0 (i : Nat) : BufTy := match i % 128 with
  | 0 => ⟨S16384x2048, .f32⟩
  | 1 => ⟨S8x2048x2048, .f32⟩
  | 2 => ⟨S16384, .i32⟩
  | 3 => ⟨S8, .i32⟩
  | 4 => ⟨S16384x1, .i32⟩
  | 5 => ⟨S1x8, .i32⟩
  | 6 => ⟨S16384x8, .i32⟩
  | 7 => ⟨S16384x8, .i32⟩
  | 8 => ⟨S16384x8, .i1⟩
  | 9 => ⟨S16384x8, .i32⟩
  | 10 => ⟨S_, .i32⟩
  | 11 => ⟨S_, .i32⟩
  | 12 => ⟨S16384x8, .i32⟩
  | 13 => ⟨S1x8, .i32⟩
  | 14 => ⟨S8, .i32⟩
  | 15 => ⟨S_, .i32⟩
  | 16 => ⟨S16384x8, .i32⟩
  | 17 => ⟨S16384x8, .i32⟩
  | 18 => ⟨S16384x1, .i32⟩
  | 19 => ⟨S_, .i32⟩
  | 20 => ⟨S16384x1, .i32⟩
  | 21 => ⟨S16384x1, .i1⟩
  | 22 => ⟨S_, .i32⟩
  | 23 => ⟨S16384x1, .i32⟩
  | 24 => ⟨S16384x1, .i32⟩
  | 25 => ⟨S16384x1, .i32⟩
  | 26 => ⟨S16384x1x1, .i32⟩
  | 27 => ⟨S1, .i32⟩
  | 28 => ⟨S_, .i32⟩
  | 29 => ⟨S16384x1x1, .i32⟩
  | 30 => ⟨S16384x1x1, .i1⟩
  | 31 => ⟨S1x1x1, .i32⟩
  | 32 => ⟨S16384x1x1, .i32⟩
  | 33 => ⟨S16384x1x1, .i1⟩
  | 34 => ⟨S16384x1x1, .i1⟩
  | 35 => ⟨S_, .i1⟩
  | 36 => ⟨S16384x1, .i1⟩
  | 37 => ⟨S16384x1, .i32⟩
  | 38 => ⟨S_, .i32⟩
  | 39 => ⟨S16384x1, .i32⟩
  | 40 => ⟨S16384x1, .i32⟩
  | 41 => ⟨S16384, .i32⟩
  | 42 => ⟨S_, .i32⟩
  | 43 => ⟨S8, .i32⟩
  | 44 => ⟨S8, .i32⟩
  | 45 => ⟨S_, .i32⟩
  | 46 => ⟨S8, .i32⟩
  | 47 => ⟨S8, .i32⟩
  | 48 => ⟨S_, .i32⟩
  | 49 => ⟨S_, .i32⟩
  | 50 => ⟨S8, .i32⟩
  | 51 => ⟨S8, .i32⟩
  | 52 => ⟨S8, .i32⟩
  | 53 => ⟨S_, .i32⟩
  | 54 => ⟨S8, .i32⟩
  | 55 => ⟨S8, .i1⟩
  | 56 => ⟨S8, .i32⟩
  | 57 => ⟨S8, .i32⟩
  | 58 => ⟨S_, .i32⟩
  | 59 => ⟨S8, .i32⟩
  | 60 => ⟨S8, .i1⟩
  | 61 => ⟨S8, .i1⟩
  | 62 => ⟨S_, .i32⟩
  | 63 => ⟨S8, .i32⟩
  | 64 => ⟨S8, .i32⟩
  | 65 => ⟨S8, .i32⟩
  | 66 => ⟨S_, .i32⟩
  | 67 => ⟨S8, .i32⟩
  | 68 => ⟨S8, .i32⟩
  | 69 => ⟨S_, .i32⟩
  | 70 => ⟨S1, .i32⟩
  | 71 => ⟨S_, .i32⟩
  | 72 => ⟨S_, .i32⟩
  | 73 => ⟨S8, .i32⟩
  | 74 => ⟨S9, .i32⟩
  | 75 => ⟨S8, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S_, .i1⟩
  | 87 => ⟨S_, .i1⟩
  | 88 => ⟨S_, .i32⟩
  | 89 => ⟨S_, .i32⟩
  | 90 => ⟨S_, .i32⟩
  | 91 => ⟨S_, .i32⟩
  | 92 => ⟨S16384, .i32⟩
  | 93 => ⟨S16384, .i1⟩
  | 94 => ⟨S_, .i32⟩
  | 95 => ⟨S16384, .i32⟩
  | 96 => ⟨S16384, .i32⟩
  | 97 => ⟨S16384, .i32⟩
  | 98 => ⟨S16384x1, .i32⟩
  | 99 => ⟨S16384, .i32⟩
  | 100 => ⟨S16384, .i32⟩
  | 101 => ⟨S_, .i32⟩
  | 102 => ⟨S20480, .i32⟩
  | 103 => ⟨S16384, .i32⟩
  | 104 => ⟨S_, .i32⟩
  | 105 => ⟨S16384, .i32⟩
  | 106 => ⟨S16384, .i1⟩
  | 107 => ⟨S_, .i32⟩
  | 108 => ⟨S16384, .i32⟩
  | 109 => ⟨S16384, .i32⟩
  | 110 => ⟨S16384, .i32⟩
  | 111 => ⟨S16384x1, .i32⟩
  | 112 => ⟨S20480, .i32⟩
  | 113 => ⟨S_, .i32⟩
  | 114 => ⟨S20480, .i32⟩
  | 115 => ⟨S20480, .i1⟩
  | 116 => ⟨S_, .i32⟩
  | 117 => ⟨S_, .i32⟩
  | 118 => ⟨S20480, .i32⟩
  | 119 => ⟨S20480, .i32⟩
  | 120 => ⟨S_, .i32⟩
  | 121 => ⟨S20480, .i32⟩
  | 122 => ⟨S20480, .i1⟩
  | 123 => ⟨S_, .i32⟩
  | 124 => ⟨S20480, .i32⟩
  | 125 => ⟨S20480, .i32⟩
  | 126 => ⟨S20480, .i32⟩
  | 127 => ⟨S20480x1, .i32⟩
  | _ => ⟨S16384x2048, .f32⟩

abbrev hbmTy0_1 (i : Nat) : BufTy := match i % 128 with
  | 0 => ⟨S20480x2048, .f32⟩
  | 1 => ⟨S40, .i32⟩
  | 2 => ⟨S_, .i32⟩
  | 3 => ⟨S40, .i32⟩
  | 4 => ⟨S40, .i32⟩
  | 5 => ⟨S40x1, .i32⟩
  | 6 => ⟨S1x8, .i32⟩
  | 7 => ⟨S40x8, .i32⟩
  | 8 => ⟨S40x8, .i32⟩
  | 9 => ⟨S40x8, .i1⟩
  | 10 => ⟨S40x8, .i32⟩
  | 11 => ⟨S_, .i32⟩
  | 12 => ⟨S40, .i32⟩
  | 13 => ⟨S_, .i32⟩
  | 14 => ⟨S40, .i32⟩
  | 15 => ⟨S40, .i32⟩
  | 16 => ⟨S_, .i32⟩
  | 17 => ⟨S_, .i32⟩
  | 18 => ⟨S_, .i32⟩
  | 19 => ⟨S40, .i32⟩
  | 20 => ⟨S40, .i32⟩
  | 21 => ⟨S_, .i32⟩
  | 22 => ⟨S40, .i32⟩
  | 23 => ⟨S20480x2048, .f32⟩
  | 24 => ⟨S_, .i32⟩
  | 25 => ⟨S16384, .i32⟩
  | 26 => ⟨S16384, .i1⟩
  | 27 => ⟨S_, .i32⟩
  | 28 => ⟨S16384, .i32⟩
  | 29 => ⟨S16384, .i32⟩
  | 30 => ⟨S16384, .i32⟩
  | 31 => ⟨S16384x1, .i32⟩
  | 32 => ⟨S16384x2048, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | .local _ .vmem, ⟨0, _⟩ => ⟨S512x2048, .f32⟩
  | .local _ .vmem, ⟨1, _⟩ => ⟨S512x2048, .f32⟩
  | .local _ .vmem, ⟨2, _⟩ => ⟨S1x2048x2048, .f32⟩
  | .local _ .vmem, ⟨3, _⟩ => ⟨S1x2048x2048, .f32⟩
  | .local _ .vmem, ⟨4, _⟩ => ⟨S512x2048, .f32⟩
  | .local _ .vmem, ⟨5, _⟩ => ⟨S512x2048, .f32⟩
  | .local _ .smem, ⟨0, _⟩ => ⟨S40, .i32⟩
  | .local _ .smem, ⟨1, _⟩ => ⟨S1, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_call0_c : Ref sig .tc := ⟨.hbm, 10, rfl⟩
abbrev main_call0_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_c_4 : Ref sig .tc := ⟨.hbm, 38, rfl⟩
abbrev main_call1_v14 : Ref sig .tc := ⟨.hbm, 39, rfl⟩
abbrev main_v13 : Ref sig .tc := ⟨.hbm, 40, rfl⟩
abbrev main_v14 : Ref sig .tc := ⟨.hbm, 41, rfl⟩
abbrev main_c_0 : Ref sig .tc := ⟨.hbm, 42, rfl⟩
abbrev main_v15 : Ref sig .tc := ⟨.hbm, 43, rfl⟩
abbrev main_v16 : Ref sig .tc := ⟨.hbm, 44, rfl⟩
abbrev main_c_1 : Ref sig .tc := ⟨.hbm, 45, rfl⟩
abbrev main_v17 : Ref sig .tc := ⟨.hbm, 46, rfl⟩
abbrev main_v18 : Ref sig .tc := ⟨.hbm, 47, rfl⟩
abbrev main_c_2 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_c : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_0 : Ref sig .tc := ⟨.hbm, 62, rfl⟩
abbrev main_call2_v12 : Ref sig .tc := ⟨.hbm, 63, rfl⟩
abbrev main_call2_v13 : Ref sig .tc := ⟨.hbm, 64, rfl⟩
abbrev main_v19 : Ref sig .tc := ⟨.hbm, 65, rfl⟩
abbrev main_c_3 : Ref sig .tc := ⟨.hbm, 66, rfl⟩
abbrev main_v20 : Ref sig .tc := ⟨.hbm, 67, rfl⟩
abbrev main_v21 : Ref sig .tc := ⟨.hbm, 68, rfl⟩
abbrev main_c_4 : Ref sig .tc := ⟨.hbm, 69, rfl⟩
abbrev main_v22 : Ref sig .tc := ⟨.hbm, 70, rfl⟩
abbrev main_call3_call0_c : Ref sig .tc := ⟨.hbm, 71, rfl⟩
abbrev main_call3_call0_v0 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_c_5 : Ref sig .tc := ⟨.hbm, 76, rfl⟩
abbrev main_v26 : Ref sig .tc := ⟨.hbm, 77, rfl⟩
abbrev main_c_6 : Ref sig .tc := ⟨.hbm, 78, rfl⟩
abbrev main_call4_v0 : Ref sig .tc := ⟨.hbm, 79, rfl⟩
abbrev main_call4_v1 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_call4_v5 : Ref sig .tc := ⟨.hbm, 84, rfl⟩
abbrev main_call4_c : Ref sig .tc := ⟨.hbm, 85, rfl⟩
abbrev main_call4_v6 : Ref sig .tc := ⟨.hbm, 86, rfl⟩
abbrev main_call4_v7 : Ref sig .tc := ⟨.hbm, 87, rfl⟩
abbrev main_call4_c_0 : Ref sig .tc := ⟨.hbm, 88, rfl⟩
abbrev main_call4_v8 : Ref sig .tc := ⟨.hbm, 89, rfl⟩
abbrev main_v27 : Ref sig .tc := ⟨.hbm, 90, rfl⟩
abbrev main_c_7 : Ref sig .tc := ⟨.hbm, 91, rfl⟩
abbrev main_v29 : Ref sig .tc := ⟨.hbm, 92, rfl⟩
abbrev main_v30 : Ref sig .tc := ⟨.hbm, 93, rfl⟩
abbrev main_c_8 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_c_9 : Ref sig .tc := ⟨.hbm, 101, rfl⟩
abbrev main_v37 : Ref sig .tc := ⟨.hbm, 102, rfl⟩
abbrev main_v38 : Ref sig .tc := ⟨.hbm, 103, rfl⟩
abbrev main_c_10 : Ref sig .tc := ⟨.hbm, 104, rfl⟩
abbrev main_v39 : Ref sig .tc := ⟨.hbm, 105, rfl⟩
abbrev main_v40 : Ref sig .tc := ⟨.hbm, 106, rfl⟩
abbrev main_c_11 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_c_12 : Ref sig .tc := ⟨.hbm, 113, rfl⟩
abbrev main_v46 : Ref sig .tc := ⟨.hbm, 114, rfl⟩
abbrev main_v47 : Ref sig .tc := ⟨.hbm, 115, rfl⟩
abbrev main_c_13 : Ref sig .tc := ⟨.hbm, 116, rfl⟩
abbrev main_call5_v0 : Ref sig .tc := ⟨.hbm, 117, rfl⟩
abbrev main_call5_v1 : Ref sig .tc := ⟨.hbm, 118, rfl⟩
abbrev main_v48 : Ref sig .tc := ⟨.hbm, 119, rfl⟩
abbrev main_c_14 : Ref sig .tc := ⟨.hbm, 120, rfl⟩
abbrev main_v49 : Ref sig .tc := ⟨.hbm, 121, rfl⟩
abbrev main_v50 : Ref sig .tc := ⟨.hbm, 122, rfl⟩
abbrev main_c_15 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_c_16 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_c_17 : Ref sig .tc := ⟨.hbm, 139, rfl⟩
abbrev main_v65 : Ref sig .tc := ⟨.hbm, 140, rfl⟩
abbrev main_c_18 : Ref sig .tc := ⟨.hbm, 141, rfl⟩
abbrev main_v66 : Ref sig .tc := ⟨.hbm, 142, rfl⟩
abbrev main_v67 : Ref sig .tc := ⟨.hbm, 143, rfl⟩
abbrev main_c_19 : Ref sig .tc := ⟨.hbm, 144, rfl⟩
abbrev main_c_20 : Ref sig .tc := ⟨.hbm, 145, rfl⟩
abbrev main_call6_v0 : Ref sig .tc := ⟨.hbm, 146, rfl⟩
abbrev main_call6_v1 : Ref sig .tc := ⟨.hbm, 147, rfl⟩
abbrev main_call6_v2 : Ref sig .tc := ⟨.hbm, 148, rfl⟩
abbrev main_call6_v3 : Ref sig .tc := ⟨.hbm, 149, rfl⟩
abbrev main_call6_v4 : Ref sig .tc := ⟨.hbm, 150, rfl⟩
abbrev main_v69 : Ref sig .tc := ⟨.hbm, 151, rfl⟩
abbrev main_c_21 : Ref sig .tc := ⟨.hbm, 152, rfl⟩
abbrev main_v70 : Ref sig .tc := ⟨.hbm, 153, rfl⟩
abbrev main_v71 : Ref sig .tc := ⟨.hbm, 154, rfl⟩
abbrev main_c_22 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v68 : Ref sig .tc := ⟨.smem, 0, rfl⟩
abbrev main_v28 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![40], ![false]⟩

abbrev pre0 : Pipeline.Prefetch sig := ⟨2, ![main_v68.idx, main_v28.idx], fun | 0 => main_v68.names | 1 => main_v28.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S16384_S16384x1_0 : S16384.BroadcastsInDim S16384x1 (![0] : Fin 1 → Fin S16384x1.rank)
  bcast_S8_S1x8_1 : S8.BroadcastsInDim S1x8 (![1] : Fin 1 → Fin S1x8.rank)
  bcast_S16384x1_S16384x8_0_1 : S16384x1.BroadcastsInDim S16384x8 (![0, 1] : Fin 2 → Fin S16384x8.rank)
  bcast_S1x8_S16384x8_0_1 : S1x8.BroadcastsInDim S16384x8 (![0, 1] : Fin 2 → Fin S16384x8.rank)
  natLt_1_32 : 1 < 32
  bcast_S_S_ : S_.BroadcastsInDim S_ (![] : Fin 0 → Fin S_.rank)
  reduceWindows_S16384x8_S16384x8_w16384s1p16383_0_w1s1p0_0 : S16384x8.ReduceWindows (![16384, 1] : Fin 2 → Nat) ![1, 1] ![16383, 0] ![0, 0] S16384x8
  h_S_ : 0 < S_.numel
  slices_S16384x8_S1x8_16383_0 : S16384x8.Slices ![16383, 0] S1x8
  shapeCasts_S1x8_S8 : S1x8.ShapeCasts S8
  bcast_S_S16384x8 : S_.BroadcastsInDim S16384x8 (![] : Fin 0 → Fin S16384x8.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  bcast_S_S8 : S_.BroadcastsInDim S8 (![] : Fin 0 → Fin S8.rank)
  bcast_S_S1 : S_.BroadcastsInDim S1 (![] : Fin 0 → Fin S1.rank)
  reduceWindows_S8_S8_w8s1p7_0 : S8.ReduceWindows (![8] : Fin 1 → Nat) ![1] ![7] ![0] S8
  concatenates_S1_S8_S9_d0 : Shape.Concatenates [S1, S8] S9 0
  slices_S9_S8_0 : S9.Slices ![0] S8
  reducesTo_S8_S_d0 : S8.ReducesTo [0] S_
  shapeCasts_S_S1 : S_.ShapeCasts S1
  bcast_S_S16384 : S_.BroadcastsInDim S16384 (![] : Fin 0 → Fin S16384.rank)
  bcast_S_S20480 : S_.BroadcastsInDim S20480 (![] : Fin 0 → Fin S20480.rank)
  bcast_S20480_S20480x1_0 : S20480.BroadcastsInDim S20480x1 (![0] : Fin 1 → Fin S20480x1.rank)
  bcast_S_S40 : S_.BroadcastsInDim S40 (![] : Fin 0 → Fin S40.rank)
  bcast_S40_S40x1_0 : S40.BroadcastsInDim S40x1 (![0] : Fin 1 → Fin S40x1.rank)
  bcast_S40x1_S40x8_0_1 : S40x1.BroadcastsInDim S40x8 (![0, 1] : Fin 2 → Fin S40x8.rank)
  bcast_S1x8_S40x8_0_1 : S1x8.BroadcastsInDim S40x8 (![0, 1] : Fin 2 → Fin S40x8.rank)
  reducesTo_S40x8_S40_d1 : S40x8.ReducesTo [1] S40
  numel1_S1 : S1.numel = 1
  inb_S1_S1_0 : ∀ a, (![0] : Fin 1 → Nat) a + S1.size a ≤ S1.size a
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  gather_S16384x8_S16384x1x1_S16384x1_n_1_0_0_1_2_11_wf : GatherDims.WF S16384x8 S16384x1x1 S16384x1 [] [1] [0] [1] [0] 2 ![1, 1]
  gather_S8_S16384x1_S16384_n_0_n_n_0_1_1_wf : GatherDims.WF S8 S16384x1 S16384 [] [0] [] [0] [] 1 ![1]
  scatter_S20480_S16384x1_S16384_n_0_0_1_wf : ScatterDims.WF S20480 S16384x1 S16384 [] [0] [0] 1
  gather_S16384x2048_S20480x1_S20480x2048_1_0_n_n_0_1_12048_wf : GatherDims.WF S16384x2048 S20480x1 S20480x2048 [1] [0] [] [0] [] 1 ![1, 2048]
  dot_S512x2048_S2048x2048_S512x2048_1_1_0_0_n_n_wf : DotDims.WF S512x2048 S2048x2048 S512x2048 [1] [1] [0] [0] [] []
  gather_S20480x2048_S16384x1_S16384x2048_1_0_n_n_0_1_12048_wf : GatherDims.WF S20480x2048 S16384x1 S16384x2048 [1] [0] [] [0] [] 1 ![1, 2048]
  hrank0 : 0 < grid0.rank
  k0_off1_inb : ∀ i : grid0.Coords, ∀ a, (k0_off1 i) a + S1.size a ≤ S40.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S20480x2048.size a
  hwx0_0 : ∀ i : grid0.Coords, EltTy.bits .f32 = 32 ∨ (Rect.block (s := S20480x2048) S512x2048.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S20480x2048.size a
  hwx0_2 : ∀ i : grid0.Coords, EltTy.bits .f32 = 32 ∨ (Rect.block (s := S20480x2048) S512x2048.size (cc0_transform_2 i) (hinb0_2 i)).WholeWords (EltTy.packing .f32)

variable [Facts₀]

def gather_S16384x8_S16384x1x1_S16384x1_n_1_0_0_1_2_11 : GatherDims S16384x8 S16384x1x1 S16384x1 where
  offsetDims := []
  collapsedSliceDims := [1]
  operandBatchingDims := [0]
  startIndicesBatchingDims := [0]
  startIndexMap := [1]
  indexVectorDim := 2
  sliceSizes := ![1, 1]
  wf := gather_S16384x8_S16384x1x1_S16384x1_n_1_0_0_1_2_11_wf
def gather_S8_S16384x1_S16384_n_0_n_n_0_1_1 : GatherDims S8 S16384x1 S16384 where
  offsetDims := []
  collapsedSliceDims := [0]
  operandBatchingDims := []
  startIndicesBatchingDims := []
  startIndexMap := [0]
  indexVectorDim := 1
  sliceSizes := ![1]
  wf := gather_S8_S16384x1_S16384_n_0_n_n_0_1_1_wf
def scatter_S20480_S16384x1_S16384_n_0_0_1 : ScatterDims S20480 S16384x1 S16384 where
  updateWindowDims := []
  insertedWindowDims := [0]
  scatterDimsToOperandDims := [0]
  indexVectorDim := 1
  wf := scatter_S20480_S16384x1_S16384_n_0_0_1_wf
def gather_S16384x2048_S20480x1_S20480x2048_1_0_n_n_0_1_12048 : GatherDims S16384x2048 S20480x1 S20480x2048 where
  offsetDims := [1]
  collapsedSliceDims := [0]
  operandBatchingDims := []
  startIndicesBatchingDims := []
  startIndexMap := [0]
  indexVectorDim := 1
  sliceSizes := ![1, 2048]
  wf := gather_S16384x2048_S20480x1_S20480x2048_1_0_n_n_0_1_12048_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def gather_S20480x2048_S16384x1_S16384x2048_1_0_n_n_0_1_12048 : GatherDims S20480x2048 S16384x1 S16384x2048 where
  offsetDims := [1]
  collapsedSliceDims := [0]
  operandBatchingDims := []
  startIndicesBatchingDims := []
  startIndexMap := [0]
  indexVectorDim := 1
  sliceSizes := ![1, 2048]
  wf := gather_S20480x2048_S16384x1_S16384x2048_1_0_n_n_0_1_12048_wf

abbrev spec0_0 : Pipeline.WinSpec sig grid0.rank :=
  Pipeline.WinSpec.ofSpec (Memref.whole main_v55) S512x2048.size reads0_0 false false 2 stage0_0 sem0_0 nbuf0_0 hstage0_0

abbrev spec0_1 : Pipeline.WinSpec sig grid0.rank :=
  Pipeline.WinSpec.ofSpec (Memref.whole main_arg1) S1x2048x2048.size reads0_1 false false 2 stage0_1 sem0_1 nbuf0_1 hstage0_1

abbrev spec0_2 : Pipeline.WinSpec sig grid0.rank :=
  Pipeline.WinSpec.ofSpec (Memref.whole main_v69) S512x2048.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x2048x2048.size a ≤ S8x2048x2048.size a), EltTy.bits .f32 = 32 ∨ (Rect.block (s := S8x2048x2048) S1x2048x2048.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))
abbrev idle0 (pf : pre0.Contents (Elt F)) : Fin 3 → grid0.Coords → Bool := fun | 0 => fun _ => false | 1 => fun _ => false | 2 => fun i => !(k0_cond1 i (pf.atD 1 ![0]) == 1#1) && !(k0_cond2 i (pf.atD 1 ![0]) == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S16384x2048 : Shape := ⟨2, ![16384, 2048]⟩
abbrev S8x2048x2048 : Shape := ⟨3, ![8, 2048, 2048]⟩
abbrev S16384 : Shape := ⟨1, ![16384]⟩
abbrev S_ : Shape := ⟨0, ![]⟩
abbrev S16384x1 : Shape := ⟨2, ![16384, 1]⟩
abbrev S1x2048x2048 : Shape := ⟨3, ![1, 2048, 2048]⟩
abbrev S2048x2048 : Shape := ⟨2, ![2048, 2048]⟩

abbrev nBuf : Space → Nat
  | .hbm => 117
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x2048x2048, .f32⟩
  | .hbm, ⟨2, _⟩ => ⟨S16384, .i32⟩
  | .hbm, ⟨3, _⟩ => ⟨S_, .f32⟩
  | .hbm, ⟨4, _⟩ => ⟨S16384x2048, .f32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S16384x1, .i1⟩
  | .hbm, ⟨9, _⟩ => ⟨S_, .i32⟩
  | .hbm, ⟨10, _⟩ => ⟨S_, .f32⟩
  | .hbm, ⟨11, _⟩ => ⟨S16384x2048, .i1⟩
  | .hbm, ⟨12, _⟩ => ⟨S16384x2048, .f32⟩
  | .hbm, ⟨13, _⟩ => ⟨S16384x2048, .f32⟩
  | .hbm, ⟨14, _⟩ => ⟨S1x2048x2048, .f32⟩
  | .hbm, ⟨15, _⟩ => ⟨S2048x2048, .f32⟩
  | .hbm, ⟨16, _⟩ => ⟨S2048x2048, .f32⟩
  | .hbm, ⟨17, _⟩ => ⟨S16384x2048, .f32⟩
  | .hbm, ⟨18, _⟩ => ⟨S16384x2048, .f32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S16384x1, .i1⟩
  | .hbm, ⟨23, _⟩ => ⟨S_, .i32⟩
  | .hbm, ⟨24, _⟩ => ⟨S_, .f32⟩
  | .hbm, ⟨25, _⟩ => ⟨S16384x2048, .i1⟩
  | .hbm, ⟨26, _⟩ => ⟨S16384x2048, .f32⟩
  | .hbm, ⟨27, _⟩ => ⟨S16384x2048, .f32⟩
  | .hbm, ⟨28, _⟩ => ⟨S1x2048x2048, .f32⟩
  | .hbm, ⟨29, _⟩ => ⟨S2048x2048, .f32⟩
  | .hbm, ⟨30, _⟩ => ⟨S2048x2048, .f32⟩
  | .hbm, ⟨31, _⟩ => ⟨S16384x2048, .f32⟩
  | .hbm, ⟨32, _⟩ => ⟨S16384x2048, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S16384x1, .i1⟩
  | .hbm, ⟨37, _⟩ => ⟨S_, .i32⟩
  | .hbm, ⟨38, _⟩ => ⟨S_, .f32⟩
  | .hbm, ⟨39, _⟩ => ⟨S16384x2048, .i1⟩
  | .hbm, ⟨40, _⟩ => ⟨S16384x2048, .f32⟩
  | .hbm, ⟨41, _⟩ => ⟨S16384x2048, .f32⟩
  | .hbm, ⟨42, _⟩ => ⟨S1x2048x2048, .f32⟩
  | .hbm, ⟨43, _⟩ => ⟨S2048x2048, .f32⟩
  | .hbm, ⟨44, _⟩ => ⟨S2048x2048, .f32⟩
  | .hbm, ⟨45, _⟩ => ⟨S16384x2048, .f32⟩
  | .hbm, ⟨46, _⟩ => ⟨S16384x2048, .f32⟩
  | .hbm, ⟨47, _⟩ => ⟨S_, .i32⟩
  | .hbm, ⟨48, _⟩ => ⟨S16384, .i32⟩
  | .hbm, ⟨49, _⟩ => ⟨S16384, .i1⟩
  | .hbm, ⟨50, _⟩ => ⟨S16384x1, .i1⟩
  | .hbm, ⟨51, _⟩ => ⟨S_, .i32⟩
  | .hbm, ⟨52, _⟩ => ⟨S_, .f32⟩
  | .hbm, ⟨53, _⟩ => ⟨S16384x2048, .i1⟩
  | .hbm, ⟨54, _⟩ => ⟨S16384x2048, .f32⟩
  | .hbm, ⟨55, _⟩ => ⟨S16384x2048, .f32⟩
  | .hbm, ⟨56, _⟩ => ⟨S1x2048x2048, .f32⟩
  | .hbm, ⟨57, _⟩ => ⟨S2048x2048, .f32⟩
  | .hbm, ⟨58, _⟩ => ⟨S2048x2048, .f32⟩
  | .hbm, ⟨59, _⟩ => ⟨S16384x2048, .f32⟩
  | .hbm, ⟨60, _⟩ => ⟨S16384x2048, .f32⟩
  | .hbm, ⟨61, _⟩ => ⟨S_, .i32⟩
  | .hbm, ⟨62, _⟩ => ⟨S16384, .i32⟩
  | .hbm, ⟨63, _⟩ => ⟨S16384, .i1⟩
  | .hbm, ⟨64, _⟩ => ⟨S16384x1, .i1⟩
  | .hbm, ⟨65, _⟩ => ⟨S_, .i32⟩
  | .hbm, ⟨66, _⟩ => ⟨S_, .f32⟩
  | .hbm, ⟨67, _⟩ => ⟨S16384x2048, .i1⟩
  | .hbm, ⟨68, _⟩ => ⟨S16384x2048, .f32⟩
  | .hbm, ⟨69, _⟩ => ⟨S16384x2048, .f32⟩
  | .hbm, ⟨70, _⟩ => ⟨S1x2048x2048, .f32⟩
  | .hbm, ⟨71, _⟩ => ⟨S2048x2048, .f32⟩
  | .hbm, ⟨72, _⟩ => ⟨S2048x2048, .f32⟩
  | .hbm, ⟨73, _⟩ => ⟨S16384x2048, .f32⟩
  | .hbm, ⟨74, _⟩ => ⟨S16384x2048, .f32⟩
  | .hbm, ⟨75, _⟩ => ⟨S_, .i32⟩
  | .hbm, ⟨76, _⟩ => ⟨S16384, .i32⟩
  | .hbm, ⟨77, _⟩ => ⟨S16384, .i1⟩
  | .hbm, ⟨78, _⟩ => ⟨S16384x1, .i1⟩
  | .hbm, ⟨79, _⟩ => ⟨S_, .i32⟩
  | .hbm, ⟨80, _⟩ => ⟨S_, .f32⟩
  | .hbm, ⟨81, _⟩ => ⟨S16384x2048, .i1⟩
  | .hbm, ⟨82, _⟩ => ⟨S16384x2048, .f32⟩
  | .hbm, ⟨83, _⟩ => ⟨S16384x2048, .f32⟩
  | .hbm, ⟨84, _⟩ => ⟨S1x2048x2048, .f32⟩
  | .hbm, ⟨85, _⟩ => ⟨S2048x2048, .f32⟩
  | .hbm, ⟨86, _⟩ => ⟨S2048x2048, .f32⟩
  | .hbm, ⟨87, _⟩ => ⟨S16384x2048, .f32⟩
  | .hbm, ⟨88, _⟩ => ⟨S16384x2048, .f32⟩
  | .hbm, ⟨89, _⟩ => ⟨S_, .i32⟩
  | .hbm, ⟨90, _⟩ => ⟨S16384, .i32⟩
  | .hbm, ⟨91, _⟩ => ⟨S16384, .i1⟩
  | .hbm, ⟨92, _⟩ => ⟨S16384x1, .i1⟩
  | .hbm, ⟨93, _⟩ => ⟨S_, .i32⟩
  | .hbm, ⟨94, _⟩ => ⟨S_, .f32⟩
  | .hbm, ⟨95, _⟩ => ⟨S16384x2048, .i1⟩
  | .hbm, ⟨96, _⟩ => ⟨S16384x2048, .f32⟩
  | .hbm, ⟨97, _⟩ => ⟨S16384x2048, .f32⟩
  | .hbm, ⟨98, _⟩ => ⟨S1x2048x2048, .f32⟩
  | .hbm, ⟨99, _⟩ => ⟨S2048x2048, .f32⟩
  | .hbm, ⟨100, _⟩ => ⟨S2048x2048, .f32⟩
  | .hbm, ⟨101, _⟩ => ⟨S16384x2048, .f32⟩
  | .hbm, ⟨102, _⟩ => ⟨S16384x2048, .f32⟩
  | .hbm, ⟨103, _⟩ => ⟨S_, .i32⟩
  | .hbm, ⟨104, _⟩ => ⟨S16384, .i32⟩
  | .hbm, ⟨105, _⟩ => ⟨S16384, .i1⟩
  | .hbm, ⟨106, _⟩ => ⟨S16384x1, .i1⟩
  | .hbm, ⟨107, _⟩ => ⟨S_, .i32⟩
  | .hbm, ⟨108, _⟩ => ⟨S_, .f32⟩
  | .hbm, ⟨109, _⟩ => ⟨S16384x2048, .i1⟩
  | .hbm, ⟨110, _⟩ => ⟨S16384x2048, .f32⟩
  | .hbm, ⟨111, _⟩ => ⟨S16384x2048, .f32⟩
  | .hbm, ⟨112, _⟩ => ⟨S1x2048x2048, .f32⟩
  | .hbm, ⟨113, _⟩ => ⟨S2048x2048, .f32⟩
  | .hbm, ⟨114, _⟩ => ⟨S2048x2048, .f32⟩
  | .hbm, ⟨115, _⟩ => ⟨S16384x2048, .f32⟩
  | .hbm, ⟨116, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_10 : Ref sig .tc := ⟨.hbm, 79, rfl⟩
abbrev main_call5_v0 : Ref sig .tc := ⟨.hbm, 80, rfl⟩
abbrev main_call5_v1 : Ref sig .tc := ⟨.hbm, 81, rfl⟩
abbrev main_call5_v2 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_11 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_12 : Ref sig .tc := ⟨.hbm, 93, rfl⟩
abbrev main_call6_v0 : Ref sig .tc := ⟨.hbm, 94, rfl⟩
abbrev main_call6_v1 : Ref sig .tc := ⟨.hbm, 95, rfl⟩
abbrev main_call6_v2 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_c_13 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_c_14 : Ref sig .tc := ⟨.hbm, 107, rfl⟩
abbrev main_call7_v0 : Ref sig .tc := ⟨.hbm, 108, rfl⟩
abbrev main_call7_v1 : Ref sig .tc := ⟨.hbm, 109, rfl⟩
abbrev main_call7_v2 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩

abbrev nD : Nat := 1
abbrev τ : Topo := Topo.v7x

variable {F : FTy → Type} [FloatOps F]

class Facts₀ : Prop where
  bcast_S_S16384x2048 : S_.BroadcastsInDim S16384x2048 (![] : Fin 0 → Fin S16384x2048.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x2048_0_1 : S16384x1.BroadcastsInDim S16384x2048 (![0, 1] : Fin 2 → Fin S16384x2048.rank)
  slices_S8x2048x2048_S1x2048x2048_0_0_0 : S8x2048x2048.Slices ![0, 0, 0] S1x2048x2048
  shapeCasts_S1x2048x2048_S2048x2048 : S1x2048x2048.ShapeCasts S2048x2048
  transposes_S2048x2048_S2048x2048_1_0 : S2048x2048.Transposes [1, 0] S2048x2048
  slices_S8x2048x2048_S1x2048x2048_1_0_0 : S8x2048x2048.Slices ![1, 0, 0] S1x2048x2048
  slices_S8x2048x2048_S1x2048x2048_2_0_0 : S8x2048x2048.Slices ![2, 0, 0] S1x2048x2048
  slices_S8x2048x2048_S1x2048x2048_3_0_0 : S8x2048x2048.Slices ![3, 0, 0] S1x2048x2048
  slices_S8x2048x2048_S1x2048x2048_4_0_0 : S8x2048x2048.Slices ![4, 0, 0] S1x2048x2048
  slices_S8x2048x2048_S1x2048x2048_5_0_0 : S8x2048x2048.Slices ![5, 0, 0] S1x2048x2048
  slices_S8x2048x2048_S1x2048x2048_6_0_0 : S8x2048x2048.Slices ![6, 0, 0] S1x2048x2048
  slices_S8x2048x2048_S1x2048x2048_7_0_0 : S8x2048x2048.Slices ![7, 0, 0] S1x2048x2048
  dot_S16384x2048_S2048x2048_S16384x2048_1_0_0_1_n_n_wf : DotDims.WF S16384x2048 S2048x2048 S16384x2048 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.WFrKit.lean ====
/-
  The kernel program around its one pallas_call: the host operations before it (which compute, among others, the two
  tables the pipeline prefetches: each tile's expert and the number of tiles in use), the region, and the gather after
  it.  Here: the buffer contents when the region is entered, the tables read off them, the pipeline at those tables,
  each window's block at a grid point, and the frame claim's post from a frame run's.
-/
import proofs.«412671_j9363028706406_3_alg».proof.Proof.Gen.Kernel.Launch
import proofs.«412671_j9363028706406_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations before the region, in order. -/
abbrev preOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13]

/-- Core `c`'s buffer contents when the region is entered: after the host operations before it. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later ones, at the contents the earlier ones leave. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main preOps [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh⟩) main_chain

/-- The operations after the region touch the pipeline's arrays and the buffers that bypass it only: none is a
    prefetched table. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the contents at the region's entry -/

/-- The tables' contents when the region is entered (one device: device 0's). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
theorem tbl_eq (j : Fin 2) : tbl m j = V m (0 : Dev nD) (pre0.ref j) := rfl
-- the tables' contents are a fold over the whole host program: named, never computed
attribute [irreducible] tbl
/-- The pipeline's side condition of the tables: every tile's expert names a block inside the weight array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Each table as the body is handed it. -/
abbrev tbM0_0 : Memref sig .tc .smem S40 .i32 := Memref.whole main_v68
abbrev htbM0_0 : tbM0_0.IsWhole := Memref.isWhole_whole _
abbrev tbM0_1 : Memref sig .tc .smem S1 .i32 := Memref.whole main_v28
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's current staging buffer holds its block at every point, fetched there or not. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it, and its wholeness. -/
abbrev ms0_0 (hO : Ok m) (t : Fin (cfgM m hO).N) : Memref sig .tc .vmem S512x2048 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S512x2048 .f32 := spec0_2.stage ((cfgM m hO).slots t 2)
abbrev hs0_2 (hO : Ok m) (t : Fin (cfgM m hO).N) : (ms0_2 m hO t).IsWhole := hstage0_2 (((cfgM m hO).slots t 2).cast nbuf0_2)

/-- The kernel body at point `t`, on what the pipeline calls it with. -/
abbrev bodyAt0 (hO : Ok m) (t : Fin (cfgM m hO).N) : Prog (TpuEff nD τ sig (Elt F) Λ₀ .tc) PUnit :=
  cc0__grouped_matmul_kernel (grid0.coords t) tbM0_0 htbM0_0 tbM0_1 htbM0_1 (ms0_0 m hO t) (hs0_0 m hO t) (ms0_1 m hO t) (hs0_1 m hO t) (ms0_2 m hO t) (hs0_2 m hO t)

/-- A widened truth value compared against zero is the truth value. -/
theorem bit_ne_zero (b : Bool) : (BitVec.ofBool (((BitVec.ofBool b).setWidth 32) != 0#32)) = BitVec.ofBool b := by
  cases b <;> decide

/-- At every grid point one of the body's two branches is taken: the point is below the number of tiles in use, or
    it is not. -/
theorem cond_total (i : grid0.Coords) (v : BitVec 32) : k0_cond1 i v = 1#1 ∨ k0_cond2 i v = 1#1 := by
  unfold k0_cond1 k0_cond2
  simp only [Scalar.cmpi, Scalar.extui, IntOp.cmpi, bit_ne_zero]
  generalize BitVec.ofNat 32 (i 0).val = a
  by_cases h : a.slt v = true
  · left; rw [h]; rfl
  · right
    have h' : v.sle a = true := by
      simp only [BitVec.slt, BitVec.sle, decide_eq_true_eq, not_lt] at h ⊢
      exact h
    rw [h']; rfl

/-- And never both. -/
theorem cond_excl (i : grid0.Coords) (v : BitVec 32) (h1 : k0_cond1 i v = 1#1) : ¬ k0_cond2 i v = 1#1 := by
  unfold k0_cond1 at h1
  unfold k0_cond2
  simp only [Scalar.cmpi, Scalar.extui, IntOp.cmpi, bit_ne_zero] at h1 ⊢
  generalize BitVec.ofNat 32 (i 0).val = a at h1 ⊢
  have h : a.slt v = true := by
    cases hh : a.slt v
    · rw [hh] at h1; exact absurd h1 (by decide)
    · rfl
  have h' : v.sle a = false := by
    simp only [BitVec.slt, BitVec.sle, decide_eq_true_eq, decide_eq_false_iff_not, not_le] at h ⊢
    exact h
  rw [h']; decide

end Cert.Kernel.Fr

end
-- ==== Proof.WFrRun.lean ====
/-
  The kernel body on any staging buffers.  It reads the number of tiles in use from its second table and takes one of
  two branches: below that number it loads the token tile and the expert's weight block, multiplies them and stores
  the product over its whole output tile; at or above it, it stores zeros over the whole output tile.
-/
import proofs.«412671_j9363028706406_3_alg».proof.Proof.WFrKit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole-tile rectangles the body loads and stores through. -/
abbrev r2d : Rect S512x2048 := Rect.unit (s := S512x2048) ![0, 0] S512x2048.size inb_S512x2048_S512x2048_0_0
abbrev r3d : Rect S1x2048x2048 := Rect.unit (s := S1x2048x2048) ![0, 0, 0] S1x2048x2048.size inb_S1x2048x2048_S1x2048x2048_0_0_0

/-- What the multiplying branch leaves in the output tile. -/
def outA (x0 : Vec F S512x2048 .f32) (x1 : Vec F S1x2048x2048 .f32) : Vec F S512x2048 .f32 :=
  View.canon [⟨r2d, k0_pay1 (View.ld x0 r2d) (View.ld x1 r3d)⟩]
/-- What the zeroing branch leaves in the output tile. -/
def outB : Vec F S512x2048 .f32 :=
  View.canon [⟨r2d, k0_pay2 (F := F)⟩]

/-- One store over the whole tile covers it. -/
theorem cover2 (p0 : Vec F S512x2048 .f32) (y : S512x2048.Idx) :
    ∃ pc ∈ ([⟨r2d, p0⟩] : List (View.Piece (Elt F) S512x2048 .f32)), y ∈ pc.1.set :=
  View.cover_of_tiled [⟨r2d, p0⟩] S512x2048.size (by rfl) y

/-- The word the body reads for the number of tiles in use, off the table's contents. -/
abbrev nword (c : Dev nD) (xt1 : TbBuf0 (F := F) c tbM0_1) : BitVec 32 :=
  tbM0_1.view.readAt (Elt F) (Rect.unit (s := S1) ![0] S1.size inb_S1_S1_0).toLoadRect xt1 (Shape.Idx.first (numel1_S1.symm ▸ Nat.one_pos))

set_option maxHeartbeats 1000000 in
/-- Below the number of tiles in use: the product is stored. -/
theorem runA (c : Dev nD) (E : Set ℕ) (i : grid0.Coords)
    (arg3 : Memref sig .tc .vmem S512x2048 .f32) (harg3 : arg3.IsWhole) (arg4 : Memref sig .tc .vmem S1x2048x2048 .f32) (harg4 : arg4.IsWhole)
    (arg5 : Memref sig .tc .vmem S512x2048 .f32) (harg5 : arg5.IsWhole)
    (x0 : Vec F S512x2048 .f32) (x1 : Vec F S1x2048x2048 .f32) (xt0 : TbBuf0 (F := F) c tbM0_0) (xt1 : TbBuf0 (F := F) c tbM0_1)
    (h1 : k0_cond1 i (nword c xt1) = 1#1) (h2 : ¬ k0_cond2 i (nword c xt1) = 1#1) (K : PUnit → sProp 𝕄) :
    iprop(owns (c : Thread nD τ) arg3 fullShare x0 ∗ owns (c : Thread nD τ) arg4 fullShare x1 ∗ (∃ d, owns (c : Thread nD τ) arg5 fullShare d)
        ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare (outA x0 x1)
            ∗ tbPt0 c tbM0_0 xt0 ∗ tbPt0 c tbM0_1 xt1) -∗ K ⟨⟩))
      ⊢ wp frame (wpE (defs₀ (F := F)) Variants.none c none) E (cc0__grouped_matmul_kernel i tbM0_0 htbM0_0 tbM0_1 htbM0_1 arg3 harg3 arg4 harg4 arg5 harg5) K := by
  simp only [cc0__grouped_matmul_kernel_eq_skeleton]; unfold cc0__grouped_matmul_kernel_skel
  unfold owns
  iintro ⟨⟨%f0, %hf0, H0⟩, ⟨%f1, %hf1, H1⟩, ⟨%d2, %f2, -, H2⟩, HT0, HT1, Hk⟩
  subst hf0
  subst hf1
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2 _)
  isplitl [HT0]; · iexact HT0
  iexact HT1

set_option maxHeartbeats 1000000 in
/-- At or above the number of tiles in use: zeros are stored. -/
theorem runB (c : Dev nD) (E : Set ℕ) (i : grid0.Coords)
    (arg3 : Memref sig .tc .vmem S512x2048 .f32) (harg3 : arg3.IsWhole) (arg4 : Memref sig .tc .vmem S1x2048x2048 .f32) (harg4 : arg4.IsWhole)
    (arg5 : Memref sig .tc .vmem S512x2048 .f32) (harg5 : arg5.IsWhole)
    (x0 : Vec F S512x2048 .f32) (x1 : Vec F S1x2048x2048 .f32) (xt0 : TbBuf0 (F := F) c tbM0_0) (xt1 : TbBuf0 (F := F) c tbM0_1)
    (h1 : ¬ k0_cond1 i (nword c xt1) = 1#1) (h2 : k0_cond2 i (nword c xt1) = 1#1) (K : PUnit → sProp 𝕄) :
    iprop(owns (c : Thread nD τ) arg3 fullShare x0 ∗ owns (c : Thread nD τ) arg4 fullShare x1 ∗ (∃ d, owns (c : Thread nD τ) arg5 fullShare d)
        ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare (outB (F := F))
            ∗ tbPt0 c tbM0_0 xt0 ∗ tbPt0 c tbM0_1 xt1) -∗ K ⟨⟩))
      ⊢ wp frame (wpE (defs₀ (F := F)) Variants.none c none) E (cc0__grouped_matmul_kernel i tbM0_0 htbM0_0 tbM0_1 htbM0_1 arg3 harg3 arg4 harg4 arg5 harg5) K := by
  simp only [cc0__grouped_matmul_kernel_eq_skeleton]; unfold cc0__grouped_matmul_kernel_skel
  unfold owns
  iintro ⟨⟨%f0, %hf0, H0⟩, ⟨%f1, %hf1, H1⟩, ⟨%d2, %f2, -, H2⟩, HT0, HT1, Hk⟩
  subst hf0
  subst hf1
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2 _)
  isplitl [HT0]; · iexact HT0
  iexact HT1

end Cert.Kernel.Fr

end
-- ==== Proof.WFrBody.lean ====
/-
  The pipeline's proof data and the frame.  After the body at a grid point each input window's buffer holds its block
  and the output window's the product tile (below the number of tiles in use) or the zero tile (at or above it); the
  body's two runs give the obligation at every point; the launch theorem then runs @main — host operations, region,
  gather — and every argument array ends as it began.
-/
import proofs.«412671_j9363028706406_3_alg».proof.Proof.WFrRun

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word for the number of tiles in use, off the tables as the region finds them. -/
abbrev nw (c : Dev nD) : BitVec 32 := nword c (tbl m 1)

/-- What the output window's buffer holds after the body at point `t`. -/
def outAt (hO : Ok m) (c : Dev nD) (t : Fin (cfgM m hO).N) : Vec F S512x2048 .f32 :=
  if k0_cond1 (grid0.coords t) (nw m c) = 1#1 then outA (iblk m hO c 0 t) (iblk m hO c 1 t) else outB

/-- The proof data of the pipeline on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

theorem idle_eq (hO : Ok m) : (cfgM m hO).idle = idle0 (F := F) (tbl m) := rfl

theorem idle0_two (pf : pre0.Contents (Elt F)) (i : grid0.Coords) :
    idle0 (F := F) pf 2 i = (!(k0_cond1 i (pf.atD 1 ![0]) == 1#1) && !(k0_cond2 i (pf.atD 1 ![0]) == 1#1)) := rfl

/-- The output window is idle at no point. -/
theorem idle2 (hO : Ok m) (i : grid0.Coords) : (cfgM m hO).idle 2 i = false := by
  rw [idle_eq, idle0_two]
  rcases cond_total i ((tbl m).atD 1 ![0]) with h | h
  · rw [h]; rfl
  · rw [h]; simp

/-- The same with the window numbered as the obligation numbers it once its windows are listed. -/
theorem idle2' (hO : Ok m) (i : grid0.Coords) : (cfgM m hO).idle (2 : Fin 3) i = false := idle2 m hO i

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t))

/-- The body at any point: whichever branch the point takes, the matching run applies. -/
theorem sound_body (hO : Ok m) (c : Dev nD) (t : Fin (cfgM m hO).N) :
    bodyPre m hO c t ⊢ wp frame (wpE (defs₀ (F := F)) Variants.none c none) Set.univ (bodyAt0 m hO t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq]
  unfold outAt
  iintro ⟨⟨HΦ, ⟨HT0, HT1⟩⟩, Ho, ⟨%d0, H0⟩, ⟨%d1, H1⟩, ⟨%d2, H2⟩⟩
  by_cases h1 : k0_cond1 (grid0.coords t) (nw m c) = 1#1
  · rw [if_pos h1]
    iapply (runA c Set.univ (grid0.coords t) _ _ _ _ _ _ (iblk m hO c 0 t) (iblk m hO c 1 t) (tbl m 0) (tbl m 1) h1 (cond_excl _ _ h1) _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2
  · rw [if_neg h1]
    iapply (runB c Set.univ (grid0.coords t) _ _ _ _ _ _ (iblk m hO c 0 t) (iblk m hO c 1 t) (tbl m 0) (tbl m 1) h1 ((cond_total _ _).resolve_left h1) _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2

/-- The library's body obligation, at every point. -/
theorem body_obligation (hO : Ok m) (c : Dev nD) : BodyObligation (dats (F := F) m hO 0 c) (defs₀ (F := F)) Variants.none () Set.univ := fun t => by
  rw [bigSep_W0, bigSep_W0]
  rw [idle2' m hO ((cfgM m hO).grid.coords t)]
  exact sound_body m hO c t

/-! ## The arguments after the gather that follows the region -/

theorem arr_ne_arg0 : ∀ w, Pipeline.arrRef spec0 w ≠ main_arg0 := by decide
theorem arr_ne_arg2 : ∀ w, Pipeline.arrRef spec0 w ≠ main_arg2 := by decide

theorem W_main_arg0 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (arr_ne_arg0)]
  exact V_main_arg0 m c
theorem W_main_arg2 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (arr_ne_arg2)]
  exact V_main_arg2 m c

/-! ## The run and the frame -/

set_option backward.isDefEq.respectTransparency.types false in
/-- Every weakly fair execution of @main terminates; every array of the pipeline ends at what the library computes
    from the proof data, every other unscoped buffer at what the gather after the region leaves. -/
theorem run_main (hO : Ok m) : θ_run defs (onTc (τ := τ) (main (F := F))) (s₀ m ρ)
    (Pipeline.FramePost (Pipeline.pin pcfgs fun _ => adm m hO) (dats m hO) 0 (Pipeline.afterTail pcfgs (fun _ => adm m hO) (dats m hO) 0 (V0 m) [hostOps1])) :=
  Pipeline.θ_run_frameP_around pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

theorem arr_ne_v76 : ∀ w, Pipeline.arrRef spec0 w ≠ main_v76 := by decide

/-- What the run's final state says of the argument arrays: each ends as it began. -/
theorem post_args (hO : Ok m) (r : PUnit × MemSt nD τ sig (Elt F))
    (h : Pipeline.FramePost (Pipeline.pin pcfgs fun _ => adm m hO) (dats m hO) 0 (Pipeline.afterTail pcfgs (fun _ => adm m hO) (dats m hO) 0 (V0 m) [hostOps1]) r)
    (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) arr_ne_arg0)).trans (W_main_arg0 m hO (dats m hO) c),
    ((h c).1 1).trans ((((dats m hO) 0 c).arrAt_in 1 rfl _).trans ((A_eq m hO c 1).trans (V_main_arg1 m c))),
    ((h c).2 main_arg2 (Pipeline.mem_restRefs_of main_arg2 (by decide) arr_ne_arg2)).trans (W_main_arg2 m hO (dats m hO) c)⟩

/-- And of the result: it holds what the gather after the region leaves. -/
theorem post_result (hO : Ok m) (r : PUnit × MemSt nD τ sig (Elt F))
    (h : Pipeline.FramePost (Pipeline.pin pcfgs fun _ => adm m hO) (dats m hO) 0 (Pipeline.afterTail pcfgs (fun _ => adm m hO) (dats m hO) 0 (V0 m) [hostOps1]) r)
    (c : Dev nD) :
    r.2.mem ((c.tc : Thread nD τ).loc main_v76)
      = Pipeline.afterTail pcfgs (fun _ => adm m hO) (dats m hO) 0 (V0 m) [hostOps1] c main_v76 :=
  (h c).2 main_v76 (Pipeline.mem_restRefs_of main_v76 (by decide) arr_ne_v76)

/-- The frame: every argument array ends as it began, whenever every tile's expert is an expert. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => post_args m hO r h c) (run_main m ρ hO)

end Cert.Kernel.Fr

end
-- ==== Proof.WFrOk.lean ====
/-
  The tables' words as the pipeline and the body read them.  The word the body loads for the number of tiles in use is
  the one element of the second table; the block index of the weight window at a grid point is the first table's
  entry at that point; and the pipeline's side condition on the tables holds as soon as every entry of the first
  table is an expert.
-/
import proofs.«412671_j9363028706406_3_alg».proof.Proof.WFrRun
import Idealize.ShloMosaic.Lib.ValueIdx

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The unit rectangle at offset 0 of the one-element table sits on that element. -/
theorem unit1_idx (inb : ∀ a, (![0] : Fin 1 → ℕ) a + S1.size a ≤ S1.size a)
    (x : (Rect.unit (s := S1) ![0] S1.size inb).toLoadRect.shape.Idx) :
    (Rect.unit (s := S1) ![0] S1.size inb).toLoadRect.idx x = ix1 (0 : Fin 1) := by
  funext a
  apply Fin.ext
  match a with
  | ⟨0, _⟩ =>
    have hx : (x 0).val < 1 := (x 0).isLt
    show 0 + 1 * (x 0).val = 0
    omega

/-- The word read through the whole one-element table at the unit rectangle is the table's element. -/
theorem nword_gen (c : Dev nD) (xt1 : TbBuf0 (F := F) c tbM0_1) : nword c xt1 = xt1 (ix1 (0 : Fin 1)) :=
  congrArg xt1 (unit1_idx _ _)

/-- The unit rectangle at offset j of the forty-element table sits on element j. -/
theorem unit40_idx (off : Fin 1 → ℕ) (j : Fin 40) (hoff : off 0 = j.val) (inb : ∀ a, off a + S1.size a ≤ S40.size a)
    (x : (Rect.unit (s := S40) off S1.size inb).shape.Idx) :
    (Rect.unit (s := S40) off S1.size inb).emb x = ix1 j := by
  funext a
  apply Fin.ext
  match a with
  | ⟨0, _⟩ =>
    have hx : (x 0).val < 1 := (x 0).isLt
    show off 0 + 1 * (x 0).val = j.val
    omega

/-- The weight window's block index at grid point j, for any contents of the tables: the first table's entry j,
    then zeros. -/
theorem transform1_gen (pf : pre0.Contents (Elt F)) (i : grid0.Coords) (j : Fin 40) (hj : (i 0).val = j.val) :
    cc0_transform_1 k0_off1_inb numel1_S1 pf i = ![(pf 0 (ix1 j)).toNat, 0, 0] := by
  have hoff : (![(Scalar.indexCast (BitVec.ofNat 32 (i 0).val)).toNat] : Fin 1 → ℕ) 0 = j.val := by
    show (BitVec.ofNat 32 (i 0).val).toNat = j.val
    rw [BitVec.toNat_ofNat, hj]
    have := j.isLt
    omega
  have e := unit40_idx _ j hoff (k0_off1_inb i) (Shape.Idx.first (numel1_S1.symm ▸ Nat.one_pos))
  exact congrArg (fun z => (![(pf 0 z).toNat, 0, 0] : Fin 3 → ℕ)) e

/-- For any contents of the tables whose first table holds experts, every weight block lies inside the weight array. -/
theorem ok_gen (pf : pre0.Contents (Elt F)) (h : ∀ j : Fin 40, (pf 0 (ix1 j)).toNat < 8) : ok0 pf := by
  unfold ok0
  intro i
  have e := transform1_gen pf i ⟨(i 0).val, (i 0).isLt⟩ rfl
  have hw := h ⟨(i 0).val, (i 0).isLt⟩
  refine ⟨fun a => ?_, Or.inl rfl⟩
  rw [e]
  match a with
  | ⟨0, _⟩ =>
    show ((pf 0 (ix1 ⟨(i 0).val, (i 0).isLt⟩)).toNat + 1) * 1 ≤ 8
    omega
  | ⟨1, _⟩ =>
    show (0 + 1) * 2048 ≤ 2048
    omega
  | ⟨2, _⟩ =>
    show (0 + 1) * 2048 ≤ 2048
    omega

/-- The word the body reads for the number of tiles in use is the second table's one element. -/
theorem nword_eq (c : Dev nD) : nword c (tbl m 1) = tbl m 1 (ix1 (0 : Fin 1)) := by
  exact nword_gen c (tbl m 1)

/-- The weight window's block index at a grid point: the first table's entry there, then zeros. -/
theorem transform1_eq (i : grid0.Coords) (j : Fin 40) (hj : (i 0).val = j.val) :
    cc0_transform_1 k0_off1_inb numel1_S1 (tbl m) i = ![(tbl m 0 (ix1 j)).toNat, 0, 0] := by
  exact transform1_gen (tbl m) i j hj

/-- The pipeline's side condition on the tables holds when every tile's expert is below 8. -/
theorem ok_of_lt (h : ∀ j : Fin 40, (tbl m 0 (ix1 j)).toNat < 8) : Ok m := by
  exact ok_gen (tbl m) h

end Cert.Kernel.Fr

end
-- ==== Proof.WClipLt.lean ====
/-
  The last two stretches of host operations before the kernel keep each tile's expert within 0 … 7: the first of them
  writes the two bounds, the words 0 and 7, and the second takes a maximum with the one, then a minimum with the other,
  on signed words.  Whatever the two stretches start from, as a natural number every entry of the table is below 8.
-/
import proofs.«412671_j9363028706406_3_alg».proof.Proof.Gen.Kernel.Launch
import Idealize.ShloMosaic.Lib.StableHlo.Run
import Idealize.ShloMosaic.Lib.ValueIdx
import Idealize.ShloMosaic.Lib.StableHlo.Predicate
import Idealize.ShloMosaic.Lib.Pipeline.Frame

noncomputable section

namespace Cert.Kernel.ClipLt

open Idealize.ShloMosaic Idealize.ShloMosaic.TcCoe Idealize.ShloMosaic.ValueIdx Cert.Kernel Cert.Kernel.Gen

variable {F : FTy → Type} [FloatOps F]

/-- A signed word raised to at least 0 and then lowered to at most 7 is, as a natural number, below 8. -/
theorem clip_word_lt (x : BitVec 32) : (IntOp.minsi 7#32 (IntOp.maxsi 0#32 x)).toNat < 8 := by
  have h0 : (0#32 : BitVec 32).toInt = 0 := by decide
  have h7 : (7#32 : BitVec 32).toInt = 7 := by decide
  have hm : 0 ≤ (IntOp.maxsi 0#32 x).toInt := by
    unfold IntOp.maxsi
    split
    · omega
    · rename_i hc
      simp only [BitVec.slt, h0, decide_eq_true_eq, not_lt] at hc
      exact hc
  generalize IntOp.maxsi 0#32 x = m at hm ⊢
  unfold IntOp.minsi
  split
  · decide
  · rename_i hc
    simp only [BitVec.slt, h7, decide_eq_true_eq, not_lt] at hc
    have hc' := BitVec.toInt_eq_toNat_cond m
    have hlt : m.toNat < 2 ^ 32 := m.isLt
    by_cases h2 : 2 * m.toNat < 2 ^ 32
    · rw [if_pos h2] at hc'
      omega
    · rw [if_neg h2] at hc'
      omega

/-- Contents moved to a typed reference's buffer and back are the contents. -/
theorem ofBuf_toBuf {Val : EltTy → Type} {T : BufTy} (x : StableHlo.TRef sig T) (v : T.Contents Val) :
    x.ofBuf (x.toBuf v) = v := by
  obtain ⟨r, h, h2, h3⟩ := x
  subst h
  rfl

/-- The second stretch leaves, in the table, the minimum of the upper bound and the maximum of the lower bound and
    what the table's source held. -/
theorem v68_of (V : Valuation τ sig (Elt F)) :
    (StableHlo.after (hostOps0_13 (F := F)) V (Proc.devRef .tc main_v68) : S40.Idx → BitVec 32)
      = minsi (broadcastInDim S40 ![] bcast_S_S40 (V (Proc.devRef .tc main_c_20) : S_.Idx → BitVec 32))
          (maxsi (broadcastInDim S40 ![] bcast_S_S40 (V (Proc.devRef .tc main_c_19) : S_.Idx → BitVec 32))
            (V (Proc.devRef .tc main_v67) : S40.Idx → BitVec 32)) := by
  simp only [hostOps0_13]
  after_results
  simp only [ofBuf_toBuf]
  rfl

/-- The first stretch leaves the lower bound 0. -/
theorem c19_of (V : Valuation τ sig (Elt F)) :
    (StableHlo.after (hostOps0_12 (F := F)) V (Proc.devRef .tc main_c_19) : S_.Idx → BitVec 32) = constantI S_ 32 0#32 := by
  simp only [hostOps0_12]
  after_results

/-- The first stretch leaves the upper bound 7. -/
theorem c20_of (V : Valuation τ sig (Elt F)) :
    (StableHlo.after (hostOps0_12 (F := F)) V (Proc.devRef .tc main_c_20) : S_.Idx → BitVec 32) = constantI S_ 32 7#32 := by
  simp only [hostOps0_12]
  after_results

/-- Every entry of the tile-expert table is below 8, whatever the two stretches start from. -/
theorem clip_lt (V : Valuation τ sig (Elt F)) (j : Fin 40) :
    (StableHlo.after ((hostOps0_12 (F := F)) ++ (hostOps0_13 (F := F))) V (Proc.devRef .tc main_v68) (ix1 j)).toNat < 8 := by
  rw [StableHlo.after_append, v68_of, c19_of, c20_of]
  exact clip_word_lt _

end Cert.Kernel.ClipLt

end
-- ==== Proof.WFrOkAll.lean ====
/-
  The pipeline's side condition on the tables holds for every launch memory: the last host operations before the
  kernel keep every entry of the tile-expert table within 0 … 7.
-/
import proofs.«412671_j9363028706406_3_alg».proof.Proof.WFrOk
import proofs.«412671_j9363028706406_3_alg».proof.Proof.WClipLt
import Idealize.ShloMosaic.Lib.ValueIdx

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The fourteen stretches run in order from any contents are the first twelve, then the last two run from what those
    leave. -/
theorem after_split (W : Valuation τ sig (Elt F)) :
    StableHlo.after (List.flatten (preOps (F := F))) W
      = StableHlo.after ((hostOps0_12 (F := F)) ++ (hostOps0_13 (F := F)))
          (StableHlo.after (List.flatten [hostOps0 (F := F), hostOps0_1, hostOps0_2, hostOps0_3, hostOps0_4, hostOps0_5,
            hostOps0_6, hostOps0_7, hostOps0_8, hostOps0_9, hostOps0_10, hostOps0_11]) W) := by
  have hl : List.flatten (preOps (F := F))
      = List.flatten [hostOps0 (F := F), hostOps0_1, hostOps0_2, hostOps0_3, hostOps0_4, hostOps0_5,
          hostOps0_6, hostOps0_7, hostOps0_8, hostOps0_9, hostOps0_10, hostOps0_11]
        ++ ((hostOps0_12 (F := F)) ++ (hostOps0_13 (F := F))) := by
    unfold preOps
    simp only [List.flatten_cons, List.flatten_nil, List.append_nil, List.append_assoc]
  rw [hl, StableHlo.after_append]

/-- Every entry of the first table, as the region finds it, is an expert. -/
theorem tbl0_lt (j : Fin 40) : (tbl m 0 (ix1 j)).toNat < 8 := by
  rw [tbl_eq]
  show (StableHlo.after (List.flatten (preOps (F := F))) (fun b => m ((0 : Dev nD), b)) (Proc.devRef .tc main_v68)
    (ix1 j)).toNat < 8
  rw [after_split]
  exact ClipLt.clip_lt _ j

/-- The pipeline's side condition on the tables. -/
theorem ok : Ok m := ok_of_lt m (tbl0_lt m)

end Cert.Kernel.Fr

end
-- ==== Proof.FrKit.lean ====
/-
  The kernel program around its one pallas_call: the host operations before it (which compute, among others, the two
  tables the pipeline prefetches: each tile's expert and the number of tiles in use), the region, and the gather after
  it.  Here: the buffer contents when the region is entered, the tables read off them, the pipeline at those tables,
  each window's block at a grid point, and the frame claim's post from a frame run's.
-/
import proofs.«412671_j9363028706406_3_alg».proof.Proof.Gen.KernelIdeal.Launch
import proofs.«412671_j9363028706406_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations before the region, in order. -/
abbrev preOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13]

/-- Core `c`'s buffer contents when the region is entered: after the host operations before it. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later ones, at the contents the earlier ones leave. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main preOps [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh⟩) main_chain

/-- The operations after the region touch the pipeline's arrays and the buffers that bypass it only: none is a
    prefetched table. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the contents at the region's entry -/

/-- The tables' contents when the region is entered (one device: device 0's). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
theorem tbl_eq (j : Fin 2) : tbl m j = V m (0 : Dev nD) (pre0.ref j) := rfl
-- the tables' contents are a fold over the whole host program: named, never computed
attribute [irreducible] tbl
/-- The pipeline's side condition of the tables: every tile's expert names a block inside the weight array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Each table as the body is handed it. -/
abbrev tbM0_0 : Memref sig .tc .smem S40 .i32 := Memref.whole main_v68
abbrev htbM0_0 : tbM0_0.IsWhole := Memref.isWhole_whole _
abbrev tbM0_1 : Memref sig .tc .smem S1 .i32 := Memref.whole main_v28
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's current staging buffer holds its block at every point, fetched there or not. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it, and its wholeness. -/
abbrev ms0_0 (hO : Ok m) (t : Fin (cfgM m hO).N) : Memref sig .tc .vmem S512x2048 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S512x2048 .f32 := spec0_2.stage ((cfgM m hO).slots t 2)
abbrev hs0_2 (hO : Ok m) (t : Fin (cfgM m hO).N) : (ms0_2 m hO t).IsWhole := hstage0_2 (((cfgM m hO).slots t 2).cast nbuf0_2)

/-- The kernel body at point `t`, on what the pipeline calls it with. -/
abbrev bodyAt0 (hO : Ok m) (t : Fin (cfgM m hO).N) : Prog (TpuEff nD τ sig (Elt F) Λ₀ .tc) PUnit :=
  cc0__grouped_matmul_kernel (grid0.coords t) tbM0_0 htbM0_0 tbM0_1 htbM0_1 (ms0_0 m hO t) (hs0_0 m hO t) (ms0_1 m hO t) (hs0_1 m hO t) (ms0_2 m hO t) (hs0_2 m hO t)

/-- A widened truth value compared against zero is the truth value. -/
theorem bit_ne_zero (b : Bool) : (BitVec.ofBool (((BitVec.ofBool b).setWidth 32) != 0#32)) = BitVec.ofBool b := by
  cases b <;> decide

/-- At every grid point one of the body's two branches is taken: the point is below the number of tiles in use, or
    it is not. -/
theorem cond_total (i : grid0.Coords) (v : BitVec 32) : k0_cond1 i v = 1#1 ∨ k0_cond2 i v = 1#1 := by
  unfold k0_cond1 k0_cond2
  simp only [Scalar.cmpi, Scalar.extui, IntOp.cmpi, bit_ne_zero]
  generalize BitVec.ofNat 32 (i 0).val = a
  by_cases h : a.slt v = true
  · left; rw [h]; rfl
  · right
    have h' : v.sle a = true := by
      simp only [BitVec.slt, BitVec.sle, decide_eq_true_eq, not_lt] at h ⊢
      exact h
    rw [h']; rfl

/-- And never both. -/
theorem cond_excl (i : grid0.Coords) (v : BitVec 32) (h1 : k0_cond1 i v = 1#1) : ¬ k0_cond2 i v = 1#1 := by
  unfold k0_cond1 at h1
  unfold k0_cond2
  simp only [Scalar.cmpi, Scalar.extui, IntOp.cmpi, bit_ne_zero] at h1 ⊢
  generalize BitVec.ofNat 32 (i 0).val = a at h1 ⊢
  have h : a.slt v = true := by
    cases hh : a.slt v
    · rw [hh] at h1; exact absurd h1 (by decide)
    · rfl
  have h' : v.sle a = false := by
    simp only [BitVec.slt, BitVec.sle, decide_eq_true_eq, decide_eq_false_iff_not, not_le] at h ⊢
    exact h
  rw [h']; decide

end Cert.KernelIdeal.Fr

end
-- ==== Proof.FrRun.lean ====
/-
  The kernel body on any staging buffers.  It reads the number of tiles in use from its second table and takes one of
  two branches: below that number it loads the token tile and the expert's weight block, multiplies them and stores
  the product over its whole output tile; at or above it, it stores zeros over the whole output tile.
-/
import proofs.«412671_j9363028706406_3_alg».proof.Proof.FrKit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole-tile rectangles the body loads and stores through. -/
abbrev r2d : Rect S512x2048 := Rect.unit (s := S512x2048) ![0, 0] S512x2048.size inb_S512x2048_S512x2048_0_0
abbrev r3d : Rect S1x2048x2048 := Rect.unit (s := S1x2048x2048) ![0, 0, 0] S1x2048x2048.size inb_S1x2048x2048_S1x2048x2048_0_0_0

/-- What the multiplying branch leaves in the output tile. -/
def outA (x0 : Vec F S512x2048 .f32) (x1 : Vec F S1x2048x2048 .f32) : Vec F S512x2048 .f32 :=
  View.canon [⟨r2d, k0_pay1 (View.ld x0 r2d) (View.ld x1 r3d)⟩]
/-- What the zeroing branch leaves in the output tile. -/
def outB : Vec F S512x2048 .f32 :=
  View.canon [⟨r2d, k0_pay2 (F := F)⟩]

/-- One store over the whole tile covers it. -/
theorem cover2 (p0 : Vec F S512x2048 .f32) (y : S512x2048.Idx) :
    ∃ pc ∈ ([⟨r2d, p0⟩] : List (View.Piece (Elt F) S512x2048 .f32)), y ∈ pc.1.set :=
  View.cover_of_tiled [⟨r2d, p0⟩] S512x2048.size (by rfl) y

/-- The word the body reads for the number of tiles in use, off the table's contents. -/
abbrev nword (c : Dev nD) (xt1 : TbBuf0 (F := F) c tbM0_1) : BitVec 32 :=
  tbM0_1.view.readAt (Elt F) (Rect.unit (s := S1) ![0] S1.size inb_S1_S1_0).toLoadRect xt1 (Shape.Idx.first (numel1_S1.symm ▸ Nat.one_pos))

set_option maxHeartbeats 1000000 in
/-- Below the number of tiles in use: the product is stored. -/
theorem runA (c : Dev nD) (E : Set ℕ) (i : grid0.Coords)
    (arg3 : Memref sig .tc .vmem S512x2048 .f32) (harg3 : arg3.IsWhole) (arg4 : Memref sig .tc .vmem S1x2048x2048 .f32) (harg4 : arg4.IsWhole)
    (arg5 : Memref sig .tc .vmem S512x2048 .f32) (harg5 : arg5.IsWhole)
    (x0 : Vec F S512x2048 .f32) (x1 : Vec F S1x2048x2048 .f32) (xt0 : TbBuf0 (F := F) c tbM0_0) (xt1 : TbBuf0 (F := F) c tbM0_1)
    (h1 : k0_cond1 i (nword c xt1) = 1#1) (h2 : ¬ k0_cond2 i (nword c xt1) = 1#1) (K : PUnit → sProp 𝕄) :
    iprop(owns (c : Thread nD τ) arg3 fullShare x0 ∗ owns (c : Thread nD τ) arg4 fullShare x1 ∗ (∃ d, owns (c : Thread nD τ) arg5 fullShare d)
        ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare (outA x0 x1)
            ∗ tbPt0 c tbM0_0 xt0 ∗ tbPt0 c tbM0_1 xt1) -∗ K ⟨⟩))
      ⊢ wp frame (wpE (defs₀ (F := F)) Variants.none c none) E (cc0__grouped_matmul_kernel i tbM0_0 htbM0_0 tbM0_1 htbM0_1 arg3 harg3 arg4 harg4 arg5 harg5) K := by
  simp only [cc0__grouped_matmul_kernel_eq_skeleton]; unfold cc0__grouped_matmul_kernel_skel
  unfold owns
  iintro ⟨⟨%f0, %hf0, H0⟩, ⟨%f1, %hf1, H1⟩, ⟨%d2, %f2, -, H2⟩, HT0, HT1, Hk⟩
  subst hf0
  subst hf1
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2 _)
  isplitl [HT0]; · iexact HT0
  iexact HT1

set_option maxHeartbeats 1000000 in
/-- At or above the number of tiles in use: zeros are stored. -/
theorem runB (c : Dev nD) (E : Set ℕ) (i : grid0.Coords)
    (arg3 : Memref sig .tc .vmem S512x2048 .f32) (harg3 : arg3.IsWhole) (arg4 : Memref sig .tc .vmem S1x2048x2048 .f32) (harg4 : arg4.IsWhole)
    (arg5 : Memref sig .tc .vmem S512x2048 .f32) (harg5 : arg5.IsWhole)
    (x0 : Vec F S512x2048 .f32) (x1 : Vec F S1x2048x2048 .f32) (xt0 : TbBuf0 (F := F) c tbM0_0) (xt1 : TbBuf0 (F := F) c tbM0_1)
    (h1 : ¬ k0_cond1 i (nword c xt1) = 1#1) (h2 : k0_cond2 i (nword c xt1) = 1#1) (K : PUnit → sProp 𝕄) :
    iprop(owns (c : Thread nD τ) arg3 fullShare x0 ∗ owns (c : Thread nD τ) arg4 fullShare x1 ∗ (∃ d, owns (c : Thread nD τ) arg5 fullShare d)
        ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare (outB (F := F))
            ∗ tbPt0 c tbM0_0 xt0 ∗ tbPt0 c tbM0_1 xt1) -∗ K ⟨⟩))
      ⊢ wp frame (wpE (defs₀ (F := F)) Variants.none c none) E (cc0__grouped_matmul_kernel i tbM0_0 htbM0_0 tbM0_1 htbM0_1 arg3 harg3 arg4 harg4 arg5 harg5) K := by
  simp only [cc0__grouped_matmul_kernel_eq_skeleton]; unfold cc0__grouped_matmul_kernel_skel
  unfold owns
  iintro ⟨⟨%f0, %hf0, H0⟩, ⟨%f1, %hf1, H1⟩, ⟨%d2, %f2, -, H2⟩, HT0, HT1, Hk⟩
  subst hf0
  subst hf1
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2 _)
  isplitl [HT0]; · iexact HT0
  iexact HT1

end Cert.KernelIdeal.Fr

end
-- ==== Proof.FrBody.lean ====
/-
  The pipeline's proof data and the frame.  After the body at a grid point each input window's buffer holds its block
  and the output window's the product tile (below the number of tiles in use) or the zero tile (at or above it); the
  body's two runs give the obligation at every point; the launch theorem then runs @main — host operations, region,
  gather — and every argument array ends as it began.
-/
import proofs.«412671_j9363028706406_3_alg».proof.Proof.FrRun

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word for the number of tiles in use, off the tables as the region finds them. -/
abbrev nw (c : Dev nD) : BitVec 32 := nword c (tbl m 1)

/-- What the output window's buffer holds after the body at point `t`. -/
def outAt (hO : Ok m) (c : Dev nD) (t : Fin (cfgM m hO).N) : Vec F S512x2048 .f32 :=
  if k0_cond1 (grid0.coords t) (nw m c) = 1#1 then outA (iblk m hO c 0 t) (iblk m hO c 1 t) else outB

/-- The proof data of the pipeline on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

theorem idle_eq (hO : Ok m) : (cfgM m hO).idle = idle0 (F := F) (tbl m) := rfl

theorem idle0_two (pf : pre0.Contents (Elt F)) (i : grid0.Coords) :
    idle0 (F := F) pf 2 i = (!(k0_cond1 i (pf.atD 1 ![0]) == 1#1) && !(k0_cond2 i (pf.atD 1 ![0]) == 1#1)) := rfl

/-- The output window is idle at no point. -/
theorem idle2 (hO : Ok m) (i : grid0.Coords) : (cfgM m hO).idle 2 i = false := by
  rw [idle_eq, idle0_two]
  rcases cond_total i ((tbl m).atD 1 ![0]) with h | h
  · rw [h]; rfl
  · rw [h]; simp

/-- The same with the window numbered as the obligation numbers it once its windows are listed. -/
theorem idle2' (hO : Ok m) (i : grid0.Coords) : (cfgM m hO).idle (2 : Fin 3) i = false := idle2 m hO i

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t))

/-- The body at any point: whichever branch the point takes, the matching run applies. -/
theorem sound_body (hO : Ok m) (c : Dev nD) (t : Fin (cfgM m hO).N) :
    bodyPre m hO c t ⊢ wp frame (wpE (defs₀ (F := F)) Variants.none c none) Set.univ (bodyAt0 m hO t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq]
  unfold outAt
  iintro ⟨⟨HΦ, ⟨HT0, HT1⟩⟩, Ho, ⟨%d0, H0⟩, ⟨%d1, H1⟩, ⟨%d2, H2⟩⟩
  by_cases h1 : k0_cond1 (grid0.coords t) (nw m c) = 1#1
  · rw [if_pos h1]
    iapply (runA c Set.univ (grid0.coords t) _ _ _ _ _ _ (iblk m hO c 0 t) (iblk m hO c 1 t) (tbl m 0) (tbl m 1) h1 (cond_excl _ _ h1) _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2
  · rw [if_neg h1]
    iapply (runB c Set.univ (grid0.coords t) _ _ _ _ _ _ (iblk m hO c 0 t) (iblk m hO c 1 t) (tbl m 0) (tbl m 1) h1 ((cond_total _ _).resolve_left h1) _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2

/-- The library's body obligation, at every point. -/
theorem body_obligation (hO : Ok m) (c : Dev nD) : BodyObligation (dats (F := F) m hO 0 c) (defs₀ (F := F)) Variants.none () Set.univ := fun t => by
  rw [bigSep_W0, bigSep_W0]
  rw [idle2' m hO ((cfgM m hO).grid.coords t)]
  exact sound_body m hO c t

/-! ## The arguments after the gather that follows the region -/

theorem arr_ne_arg0 : ∀ w, Pipeline.arrRef spec0 w ≠ main_arg0 := by decide
theorem arr_ne_arg2 : ∀ w, Pipeline.arrRef spec0 w ≠ main_arg2 := by decide

theorem W_main_arg0 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (arr_ne_arg0)]
  exact V_main_arg0 m c
theorem W_main_arg2 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (arr_ne_arg2)]
  exact V_main_arg2 m c

/-! ## The run and the frame -/

set_option backward.isDefEq.respectTransparency.types false in
/-- Every weakly fair execution of @main terminates; every array of the pipeline ends at what the library computes
    from the proof data, every other unscoped buffer at what the gather after the region leaves. -/
theorem run_main (hO : Ok m) : θ_run defs (onTc (τ := τ) (main (F := F))) (s₀ m ρ)
    (Pipeline.FramePost (Pipeline.pin pcfgs fun _ => adm m hO) (dats m hO) 0 (Pipeline.afterTail pcfgs (fun _ => adm m hO) (dats m hO) 0 (V0 m) [hostOps1])) :=
  Pipeline.θ_run_frameP_around pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

theorem arr_ne_v76 : ∀ w, Pipeline.arrRef spec0 w ≠ main_v76 := by decide

/-- What the run's final state says of the argument arrays: each ends as it began. -/
theorem post_args (hO : Ok m) (r : PUnit × MemSt nD τ sig (Elt F))
    (h : Pipeline.FramePost (Pipeline.pin pcfgs fun _ => adm m hO) (dats m hO) 0 (Pipeline.afterTail pcfgs (fun _ => adm m hO) (dats m hO) 0 (V0 m) [hostOps1]) r)
    (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) arr_ne_arg0)).trans (W_main_arg0 m hO (dats m hO) c),
    ((h c).1 1).trans ((((dats m hO) 0 c).arrAt_in 1 rfl _).trans ((A_eq m hO c 1).trans (V_main_arg1 m c))),
    ((h c).2 main_arg2 (Pipeline.mem_restRefs_of main_arg2 (by decide) arr_ne_arg2)).trans (W_main_arg2 m hO (dats m hO) c)⟩

/-- And of the result: it holds what the gather after the region leaves. -/
theorem post_result (hO : Ok m) (r : PUnit × MemSt nD τ sig (Elt F))
    (h : Pipeline.FramePost (Pipeline.pin pcfgs fun _ => adm m hO) (dats m hO) 0 (Pipeline.afterTail pcfgs (fun _ => adm m hO) (dats m hO) 0 (V0 m) [hostOps1]) r)
    (c : Dev nD) :
    r.2.mem ((c.tc : Thread nD τ).loc main_v76)
      = Pipeline.afterTail pcfgs (fun _ => adm m hO) (dats m hO) 0 (V0 m) [hostOps1] c main_v76 :=
  (h c).2 main_v76 (Pipeline.mem_restRefs_of main_v76 (by decide) arr_ne_v76)

/-- The frame: every argument array ends as it began, whenever every tile's expert is an expert. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => post_args m hO r h c) (run_main m ρ hO)

end Cert.KernelIdeal.Fr

end
-- ==== Proof.FrOk.lean ====
/-
  The tables' words as the pipeline and the body read them.  The word the body loads for the number of tiles in use is
  the one element of the second table; the block index of the weight window at a grid point is the first table's
  entry at that point; and the pipeline's side condition on the tables holds as soon as every entry of the first
  table is an expert.
-/
import proofs.«412671_j9363028706406_3_alg».proof.Proof.FrRun
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The unit rectangle at offset 0 of the one-element table sits on that element. -/
theorem unit1_idx (inb : ∀ a, (![0] : Fin 1 → ℕ) a + S1.size a ≤ S1.size a)
    (x : (Rect.unit (s := S1) ![0] S1.size inb).toLoadRect.shape.Idx) :
    (Rect.unit (s := S1) ![0] S1.size inb).toLoadRect.idx x = ix1 (0 : Fin 1) := by
  funext a
  apply Fin.ext
  match a with
  | ⟨0, _⟩ =>
    have hx : (x 0).val < 1 := (x 0).isLt
    show 0 + 1 * (x 0).val = 0
    omega

/-- The word read through the whole one-element table at the unit rectangle is the table's element. -/
theorem nword_gen (c : Dev nD) (xt1 : TbBuf0 (F := F) c tbM0_1) : nword c xt1 = xt1 (ix1 (0 : Fin 1)) :=
  congrArg xt1 (unit1_idx _ _)

/-- The unit rectangle at offset j of the forty-element table sits on element j. -/
theorem unit40_idx (off : Fin 1 → ℕ) (j : Fin 40) (hoff : off 0 = j.val) (inb : ∀ a, off a + S1.size a ≤ S40.size a)
    (x : (Rect.unit (s := S40) off S1.size inb).shape.Idx) :
    (Rect.unit (s := S40) off S1.size inb).emb x = ix1 j := by
  funext a
  apply Fin.ext
  match a with
  | ⟨0, _⟩ =>
    have hx : (x 0).val < 1 := (x 0).isLt
    show off 0 + 1 * (x 0).val = j.val
    omega

/-- The weight window's block index at grid point j, for any contents of the tables: the first table's entry j,
    then zeros. -/
theorem transform1_gen (pf : pre0.Contents (Elt F)) (i : grid0.Coords) (j : Fin 40) (hj : (i 0).val = j.val) :
    cc0_transform_1 k0_off1_inb numel1_S1 pf i = ![(pf 0 (ix1 j)).toNat, 0, 0] := by
  have hoff : (![(Scalar.indexCast (BitVec.ofNat 32 (i 0).val)).toNat] : Fin 1 → ℕ) 0 = j.val := by
    show (BitVec.ofNat 32 (i 0).val).toNat = j.val
    rw [BitVec.toNat_ofNat, hj]
    have := j.isLt
    omega
  have e := unit40_idx _ j hoff (k0_off1_inb i) (Shape.Idx.first (numel1_S1.symm ▸ Nat.one_pos))
  exact congrArg (fun z => (![(pf 0 z).toNat, 0, 0] : Fin 3 → ℕ)) e

/-- For any contents of the tables whose first table holds experts, every weight block lies inside the weight array. -/
theorem ok_gen (pf : pre0.Contents (Elt F)) (h : ∀ j : Fin 40, (pf 0 (ix1 j)).toNat < 8) : ok0 pf := by
  unfold ok0
  intro i
  have e := transform1_gen pf i ⟨(i 0).val, (i 0).isLt⟩ rfl
  have hw := h ⟨(i 0).val, (i 0).isLt⟩
  refine ⟨fun a => ?_, Or.inl rfl⟩
  rw [e]
  match a with
  | ⟨0, _⟩ =>
    show ((pf 0 (ix1 ⟨(i 0).val, (i 0).isLt⟩)).toNat + 1) * 1 ≤ 8
    omega
  | ⟨1, _⟩ =>
    show (0 + 1) * 2048 ≤ 2048
    omega
  | ⟨2, _⟩ =>
    show (0 + 1) * 2048 ≤ 2048
    omega

/-- The word the body reads for the number of tiles in use is the second table's one element. -/
theorem nword_eq (c : Dev nD) : nword c (tbl m 1) = tbl m 1 (ix1 (0 : Fin 1)) := by
  exact nword_gen c (tbl m 1)

/-- The weight window's block index at a grid point: the first table's entry there, then zeros. -/
theorem transform1_eq (i : grid0.Coords) (j : Fin 40) (hj : (i 0).val = j.val) :
    cc0_transform_1 k0_off1_inb numel1_S1 (tbl m) i = ![(tbl m 0 (ix1 j)).toNat, 0, 0] := by
  exact transform1_gen (tbl m) i j hj

/-- The pipeline's side condition on the tables holds when every tile's expert is below 8. -/
theorem ok_of_lt (h : ∀ j : Fin 40, (tbl m 0 (ix1 j)).toNat < 8) : Ok m := by
  exact ok_gen (tbl m) h

end Cert.KernelIdeal.Fr

end
-- ==== Proof.ClipLt.lean ====
/-
  The last two stretches of host operations before the kernel keep each tile's expert within 0 … 7: the first of them
  writes the two bounds, the words 0 and 7, and the second takes a maximum with the one, then a minimum with the other,
  on signed words.  Whatever the two stretches start from, as a natural number every entry of the table is below 8.
-/
import proofs.«412671_j9363028706406_3_alg».proof.Proof.Gen.KernelIdeal.Launch
import Idealize.ShloMosaic.Lib.StableHlo.Run
import Idealize.ShloMosaic.Lib.ValueIdx
import Idealize.ShloMosaic.Lib.StableHlo.Predicate
import Idealize.ShloMosaic.Lib.Pipeline.Frame

noncomputable section

namespace Cert.KernelIdeal.ClipLt

open Idealize.ShloMosaic Idealize.ShloMosaic.TcCoe Idealize.ShloMosaic.ValueIdx Cert.KernelIdeal Cert.KernelIdeal.Gen

variable {F : FTy → Type} [FloatOps F]

/-- A signed word raised to at least 0 and then lowered to at most 7 is, as a natural number, below 8. -/
theorem clip_word_lt (x : BitVec 32) : (IntOp.minsi 7#32 (IntOp.maxsi 0#32 x)).toNat < 8 := by
  have h0 : (0#32 : BitVec 32).toInt = 0 := by decide
  have h7 : (7#32 : BitVec 32).toInt = 7 := by decide
  have hm : 0 ≤ (IntOp.maxsi 0#32 x).toInt := by
    unfold IntOp.maxsi
    split
    · omega
    · rename_i hc
      simp only [BitVec.slt, h0, decide_eq_true_eq, not_lt] at hc
      exact hc
  generalize IntOp.maxsi 0#32 x = m at hm ⊢
  unfold IntOp.minsi
  split
  · decide
  · rename_i hc
    simp only [BitVec.slt, h7, decide_eq_true_eq, not_lt] at hc
    have hc' := BitVec.toInt_eq_toNat_cond m
    have hlt : m.toNat < 2 ^ 32 := m.isLt
    by_cases h2 : 2 * m.toNat < 2 ^ 32
    · rw [if_pos h2] at hc'
      omega
    · rw [if_neg h2] at hc'
      omega

/-- Contents moved to a typed reference's buffer and back are the contents. -/
theorem ofBuf_toBuf {Val : EltTy → Type} {T : BufTy} (x : StableHlo.TRef sig T) (v : T.Contents Val) :
    x.ofBuf (x.toBuf v) = v := by
  obtain ⟨r, h, h2, h3⟩ := x
  subst h
  rfl

/-- The second stretch leaves, in the table, the minimum of the upper bound and the maximum of the lower bound and
    what the table's source held. -/
theorem v68_of (V : Valuation τ sig (Elt F)) :
    (StableHlo.after (hostOps0_13 (F := F)) V (Proc.devRef .tc main_v68) : S40.Idx → BitVec 32)
      = minsi (broadcastInDim S40 ![] bcast_S_S40 (V (Proc.devRef .tc main_c_20) : S_.Idx → BitVec 32))
          (maxsi (broadcastInDim S40 ![] bcast_S_S40 (V (Proc.devRef .tc main_c_19) : S_.Idx → BitVec 32))
            (V (Proc.devRef .tc main_v67) : S40.Idx → BitVec 32)) := by
  simp only [hostOps0_13]
  after_results
  simp only [ofBuf_toBuf]
  rfl

/-- The first stretch leaves the lower bound 0. -/
theorem c19_of (V : Valuation τ sig (Elt F)) :
    (StableHlo.after (hostOps0_12 (F := F)) V (Proc.devRef .tc main_c_19) : S_.Idx → BitVec 32) = constantI S_ 32 0#32 := by
  simp only [hostOps0_12]
  after_results

/-- The first stretch leaves the upper bound 7. -/
theorem c20_of (V : Valuation τ sig (Elt F)) :
    (StableHlo.after (hostOps0_12 (F := F)) V (Proc.devRef .tc main_c_20) : S_.Idx → BitVec 32) = constantI S_ 32 7#32 := by
  simp only [hostOps0_12]
  after_results

/-- Every entry of the tile-expert table is below 8, whatever the two stretches start from. -/
theorem clip_lt (V : Valuation τ sig (Elt F)) (j : Fin 40) :
    (StableHlo.after ((hostOps0_12 (F := F)) ++ (hostOps0_13 (F := F))) V (Proc.devRef .tc main_v68) (ix1 j)).toNat < 8 := by
  rw [StableHlo.after_append, v68_of, c19_of, c20_of]
  exact clip_word_lt _

end Cert.KernelIdeal.ClipLt

end
-- ==== Proof.FrOkAll.lean ====
/-
  The pipeline's side condition on the tables holds for every launch memory: the last host operations before the
  kernel keep every entry of the tile-expert table within 0 … 7.
-/
import proofs.«412671_j9363028706406_3_alg».proof.Proof.FrOk
import proofs.«412671_j9363028706406_3_alg».proof.Proof.ClipLt
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The fourteen stretches run in order from any contents are the first twelve, then the last two run from what those
    leave. -/
theorem after_split (W : Valuation τ sig (Elt F)) :
    StableHlo.after (List.flatten (preOps (F := F))) W
      = StableHlo.after ((hostOps0_12 (F := F)) ++ (hostOps0_13 (F := F)))
          (StableHlo.after (List.flatten [hostOps0 (F := F), hostOps0_1, hostOps0_2, hostOps0_3, hostOps0_4, hostOps0_5,
            hostOps0_6, hostOps0_7, hostOps0_8, hostOps0_9, hostOps0_10, hostOps0_11]) W) := by
  have hl : List.flatten (preOps (F := F))
      = List.flatten [hostOps0 (F := F), hostOps0_1, hostOps0_2, hostOps0_3, hostOps0_4, hostOps0_5,
          hostOps0_6, hostOps0_7, hostOps0_8, hostOps0_9, hostOps0_10, hostOps0_11]
        ++ ((hostOps0_12 (F := F)) ++ (hostOps0_13 (F := F))) := by
    unfold preOps
    simp only [List.flatten_cons, List.flatten_nil, List.append_nil, List.append_assoc]
  rw [hl, StableHlo.after_append]

/-- Every entry of the first table, as the region finds it, is an expert. -/
theorem tbl0_lt (j : Fin 40) : (tbl m 0 (ix1 j)).toNat < 8 := by
  rw [tbl_eq]
  show (StableHlo.after (List.flatten (preOps (F := F))) (fun b => m ((0 : Dev nD), b)) (Proc.devRef .tc main_v68)
    (ix1 j)).toNat < 8
  rw [after_split]
  exact ClipLt.clip_lt _ j

/-- The pipeline's side condition on the tables. -/
theorem ok : Ok m := ok_of_lt m (tbl0_lt m)

end Cert.KernelIdeal.Fr

end
-- ==== Proof.FrBlocks.lean ====
/-
  The windows' blocks read at an element.  At grid point t the token window's block is rows 512·t … 512·t+511 of the
  padded token buffer, and the weight window's block is the whole [2048 × 2048] matrix of the expert the first table
  names for tile t.
-/
import proofs.«412671_j9363028706406_3_alg».proof.Proof.FrOk

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The grid has one axis: the coordinate of the t-th point is t. -/
theorem coords0 : ∀ t : Fin grid0.N, (grid0.coords t (0 : Fin 1)).val = t.val := by decide +kernel

/-- The token window's block index at point t, whatever the tables hold: (t, 0). -/
theorem index0_gen (a : (pcfg0 (F := F)).Adm) (t : Fin (cfg0 a).N) :
    ((cfg0 a).win 0).index t = ![(BitVec.ofNat 32 (grid0.coords t (0 : Fin 1)).val).toNat, 0] := rfl

/-- Element (r, k) of the token window's block at point t sits at row 512·t + r of the array. -/
theorem emb0_gen (a : (pcfg0 (F := F)).Adm) (t : Fin (cfg0 a).N) (r : Fin 512) (k : Fin 2048) (p : Fin 20480)
    (hp : p.val = 512 * t.val + r.val) :
    (((cfg0 a).win 0).blk t).view.emb (ix2 r k) = ix2 p k := by
  have hc : (grid0.coords t (0 : Fin 1)).val = t.val := coords0 t
  have h40 : t.val < 40 := t.isLt
  funext b
  apply Fin.ext
  match b with
  | ⟨0, _⟩ =>
    show ((cfg0 a).win 0).index t (0 : Fin 2) * 512 + 1 * r.val = p.val
    rw [index0_gen a t]
    show (BitVec.ofNat 32 (grid0.coords t (0 : Fin 1)).val).toNat * 512 + 1 * r.val = p.val
    rw [BitVec.toNat_ofNat, hc]
    omega
  | ⟨1, _⟩ =>
    show ((cfg0 a).win 0).index t (1 : Fin 2) * 2048 + 1 * k.val = k.val
    rw [index0_gen a t]
    show 0 * 2048 + 1 * k.val = k.val
    omega

/-- The weight window's block index at point t is its index map at the point's coordinate, at the tables' contents. -/
theorem index1_gen (pf : pre0.Contents (Elt F)) (hok : ok0 pf) (t : Fin (cfg0 ⟨pf, hok⟩).N) :
    ((cfg0 ⟨pf, hok⟩).win 1).index t = cc0_transform_1 k0_off1_inb numel1_S1 pf (grid0.coords t) := rfl

/-- Element (0, o, k) of the weight window's block at point t sits in matrix l of the array, when the first table's
    entry for tile t is l. -/
theorem emb1_gen (pf : pre0.Contents (Elt F)) (hok : ok0 pf) (t : Fin (cfg0 ⟨pf, hok⟩).N)
    (o k : Fin 2048) (j : Fin 40) (hj : j.val = t.val) (l : Fin 8) (hl : (pf 0 (ix1 j)).toNat = l.val) :
    (((cfg0 ⟨pf, hok⟩).win 1).blk t).view.emb (ix3 (0 : Fin 1) o k) = ix3 l o k := by
  have hc : (grid0.coords t (0 : Fin 1)).val = j.val := by rw [coords0 t, hj]
  have hi : ((cfg0 ⟨pf, hok⟩).win 1).index t = ![(pf 0 (ix1 j)).toNat, 0, 0] :=
    (index1_gen pf hok t).trans (transform1_gen pf (grid0.coords t) j hc)
  funext b
  apply Fin.ext
  match b with
  | ⟨0, _⟩ =>
    show ((cfg0 ⟨pf, hok⟩).win 1).index t (0 : Fin 3) * 1 + 1 * 0 = l.val
    rw [hi]
    show (pf 0 (ix1 j)).toNat * 1 + 1 * 0 = l.val
    omega
  | ⟨1, _⟩ =>
    show ((cfg0 ⟨pf, hok⟩).win 1).index t (1 : Fin 3) * 2048 + 1 * o.val = o.val
    rw [hi]
    show 0 * 2048 + 1 * o.val = o.val
    omega
  | ⟨2, _⟩ =>
    show ((cfg0 ⟨pf, hok⟩).win 1).index t (2 : Fin 3) * 2048 + 1 * k.val = k.val
    rw [hi]
    show 0 * 2048 + 1 * k.val = k.val
    omega

/-- The token window's block at point `t`, element (r, k): row 512·t + r of the padded token buffer. -/
theorem iblk0_apply (hO : Ok m) (c : Dev nD) (t : Fin (cfgM m hO).N) (r : Fin 512) (k : Fin 2048) (p : Fin 20480)
    (hp : p.val = 512 * t.val + r.val) :
    iblk m hO c 0 t (ix2 r k) = V m c main_v55 (ix2 p k) := by
  show V m c main_v55 ((((cfg0 (adm m hO)).win 0).blk t).view.emb (ix2 r k)) = V m c main_v55 (ix2 p k)
  rw [emb0_gen (adm m hO) t r k p hp]

/-- The weight window's block at point `t`, element (0, o, k): expert l's weights, when the table names expert l for tile t. -/
theorem iblk1_apply (hO : Ok m) (c : Dev nD) (t : Fin (cfgM m hO).N) (o k : Fin 2048) (j : Fin 40) (hj : j.val = t.val)
    (l : Fin 8) (hl : (tbl m 0 (ix1 j)).toNat = l.val) :
    iblk m hO c 1 t (ix3 (0 : Fin 1) o k) = V m c main_arg1 (ix3 l o k) := by
  show V m c main_arg1 ((((cfg0 (adm m hO)).win 1).blk t).view.emb (ix3 (0 : Fin 1) o k)) = V m c main_arg1 (ix3 l o k)
  rw [emb1_gen (tbl m) hO t o k j hj l hl]

end Cert.KernelIdeal.Fr

end
-- ==== Proof.KVal.lean ====
/-
  The padded output array after the region, read at an element: row 512·t + r holds what the body left in the output
  tile at point t, element r (the output's tiles are disjoint, each written back once).
-/
import proofs.«412671_j9363028706406_3_alg».proof.Proof.FrBody
import proofs.«412671_j9363028706406_3_alg».proof.Proof.FrBlocks
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The output window is written back at every point, at any contents of the tables. -/
theorem flush0_2 (a : (pcfg0 (F := F)).Adm) : ∀ t : Fin (cfg0 a).N, ((cfg0 a).win 2).flush t = true := by
  exact (by decide +kernel : ∀ t : Fin grid0.N, Pipeline.Window.flushOf grid0 true cc0_transform_2 t = true)

/-- The output window's block index at point t, whatever the tables hold: (t, 0). -/
theorem index2_gen (a : (pcfg0 (F := F)).Adm) (t : Fin (cfg0 a).N) :
    ((cfg0 a).win 2).index t = ![(BitVec.ofNat 32 (grid0.coords t (0 : Fin 1)).val).toNat, 0] := rfl

/-- On the row axis that index is the point's number. -/
theorem index2_row (a : (pcfg0 (F := F)).Adm) (t : Fin (cfg0 a).N) : ((cfg0 a).win 2).index t (0 : Fin 2) = t.val := by
  have h40 : t.val < 40 := t.isLt
  rw [index2_gen a t]
  show (BitVec.ofNat 32 (grid0.coords t (0 : Fin 1)).val).toNat = t.val
  rw [BitVec.toNat_ofNat, coords0 t]
  omega

/-- On the column axis it is zero. -/
theorem index2_col (a : (pcfg0 (F := F)).Adm) (t : Fin (cfg0 a).N) : ((cfg0 a).win 2).index t (1 : Fin 2) = 0 := by
  rw [index2_gen a t]
  rfl

/-- Element (r, o) of the output window's block at point t sits at row 512·t + r of the array. -/
theorem emb2_gen (a : (pcfg0 (F := F)).Adm) (t : Fin (cfg0 a).N) (r : Fin 512) (o : Fin 2048) (p : Fin 20480)
    (hp : p.val = 512 * t.val + r.val) :
    (((cfg0 a).win 2).blk t).view.emb (ix2 r o) = ix2 p o := by
  funext b
  apply Fin.ext
  match b with
  | ⟨0, _⟩ =>
    show ((cfg0 a).win 2).index t (0 : Fin 2) * 512 + 1 * r.val = p.val
    rw [index2_row a t]
    omega
  | ⟨1, _⟩ =>
    show ((cfg0 a).win 2).index t (1 : Fin 2) * 2048 + 1 * o.val = o.val
    rw [index2_col a t]
    omega

/-- Different points write disjoint row ranges of the output array: on the row axis point t's block is rows
    512·t … 512·t + 511. -/
theorem disj2 (a : (pcfg0 (F := F)).Adm) : ∀ t t' : Fin (cfg0 a).N, ((cfg0 a).win 2).flush t = true →
    ((cfg0 a).win 2).flush t' = true → t ≠ t' →
    Disjoint (((cfg0 a).win 2).blk t).view.set (((cfg0 a).win 2).blk t').view.set := by
  intro t t' _ _ hne
  have hs : ∀ u : Fin (cfg0 a).N, (((cfg0 a).win 2).blk u).view.set = (((cfg0 a).win 2).rect u).set :=
    fun u => View.set_slice_whole main_v69 _
  rw [hs t, hs t']
  have hr := index2_row a t
  have hr' := index2_row a t'
  rcases Nat.lt_or_gt_of_ne (fun e => hne (Fin.ext e)) with hlt | hgt
  · refine Rect.unit_disjoint (0 : Fin 2) (Or.inl ?_)
    show ((cfg0 a).win 2).index t (0 : Fin 2) * 512 + 512 ≤ ((cfg0 a).win 2).index t' (0 : Fin 2) * 512
    omega
  · refine Rect.unit_disjoint (0 : Fin 2) (Or.inr ?_)
    show ((cfg0 a).win 2).index t' (0 : Fin 2) * 512 + 512 ≤ ((cfg0 a).win 2).index t (0 : Fin 2) * 512
    omega

/-- For any proof data of the pipeline: the output array after the region at (512·t + r, o) is what the data says the
    output window's buffer holds after the body at point t, at (r, o). -/
theorem arr2_gen (a : (pcfg0 (F := F)).Adm) (c : Dev nD) (dat : Dat τ (Elt F) Unit ℕ (UR sig nD τ) ℕ (cfg0 a) c)
    (t : Fin (cfg0 a).N) (r : Fin 512) (o : Fin 2048) (p : Fin 20480) (hp : p.val = 512 * t.val + r.val) :
    dat.arrAt 2 (cfg0 a).N (ix2 p o) = dat.after 2 t (ix2 r o) := by
  have he := emb2_gen a t r o p hp
  have h := dat.arrAt_emb_eq_flushed 2 (disj2 a) t (flush0_2 a t) (ix2 r o)
  rw [he] at h
  rw [h]
  rfl

/-- The padded output array after the region at (512·t + r, o): the output tile of point t at (r, o). -/
theorem arr2_apply (hO : Ok m) (c : Dev nD) (t : Fin (cfgM m hO).N) (r : Fin 512) (o : Fin 2048) (p : Fin 20480)
    (hp : p.val = 512 * t.val + r.val) :
    (dats m hO 0 c).arrAt 2 (cfgM m hO).N (ix2 p o) = outAt m hO c t (ix2 r o) := by
  exact (arr2_gen (adm m hO) c (dats m hO 0 c) t r o p hp).trans (congrFun (after0_2 m hO c t) (ix2 r o))

end Cert.KernelIdeal.Fr

end
-- ==== Proof.Chain.lean ====
/-
  The host program before the kernel, cut into its fourteen stretches: the buffer contents after each stretch, named,
  so that what a later stretch reads is stated over the contents the earlier one left.
-/
import proofs.«412671_j9363028706406_3_alg».proof.Proof.Gen.KernelIdeal.Launch
import Idealize.ShloMosaic.Lib.Pipeline.Frame

noncomputable section

namespace Cert.KernelIdeal.Chain

open Idealize.ShloMosaic Idealize.ShloMosaic.TcCoe Cert.KernelIdeal Cert.KernelIdeal.Gen

variable {F : FTy → Type} [FloatOps F]
variable (W : Valuation τ sig (Elt F))

/-- The contents after stretch 1 of the host program. -/
def W1 : Valuation τ sig (Elt F) := StableHlo.after (hostOps0 (F := F)) W
theorem W1_eq : W1 W = StableHlo.after (hostOps0 (F := F)) W := rfl
/-- The contents after stretch 2 of the host program. -/
def W2 : Valuation τ sig (Elt F) := StableHlo.after (hostOps0_1 (F := F)) (W1 W)
theorem W2_eq : W2 W = StableHlo.after (hostOps0_1 (F := F)) (W1 W) := rfl
/-- The contents after stretch 3 of the host program. -/
def W3 : Valuation τ sig (Elt F) := StableHlo.after (hostOps0_2 (F := F)) (W2 W)
theorem W3_eq : W3 W = StableHlo.after (hostOps0_2 (F := F)) (W2 W) := rfl
/-- The contents after stretch 4 of the host program. -/
def W4 : Valuation τ sig (Elt F) := StableHlo.after (hostOps0_3 (F := F)) (W3 W)
theorem W4_eq : W4 W = StableHlo.after (hostOps0_3 (F := F)) (W3 W) := rfl
/-- The contents after stretch 5 of the host program. -/
def W5 : Valuation τ sig (Elt F) := StableHlo.after (hostOps0_4 (F := F)) (W4 W)
theorem W5_eq : W5 W = StableHlo.after (hostOps0_4 (F := F)) (W4 W) := rfl
/-- The contents after stretch 6 of the host program. -/
def W6 : Valuation τ sig (Elt F) := StableHlo.after (hostOps0_5 (F := F)) (W5 W)
theorem W6_eq : W6 W = StableHlo.after (hostOps0_5 (F := F)) (W5 W) := rfl
/-- The contents after stretch 7 of the host program. -/
def W7 : Valuation τ sig (Elt F) := StableHlo.after (hostOps0_6 (F := F)) (W6 W)
theorem W7_eq : W7 W = StableHlo.after (hostOps0_6 (F := F)) (W6 W) := rfl
/-- The contents after stretch 8 of the host program. -/
def W8 : Valuation τ sig (Elt F) := StableHlo.after (hostOps0_7 (F := F)) (W7 W)
theorem W8_eq : W8 W = StableHlo.after (hostOps0_7 (F := F)) (W7 W) := rfl
/-- The contents after stretch 9 of the host program. -/
def W9 : Valuation τ sig (Elt F) := StableHlo.after (hostOps0_8 (F := F)) (W8 W)
theorem W9_eq : W9 W = StableHlo.after (hostOps0_8 (F := F)) (W8 W) := rfl
/-- The contents after stretch 10 of the host program. -/
def W10 : Valuation τ sig (Elt F) := StableHlo.after (hostOps0_9 (F := F)) (W9 W)
theorem W10_eq : W10 W = StableHlo.after (hostOps0_9 (F := F)) (W9 W) := rfl
/-- The contents after stretch 11 of the host program. -/
def W11 : Valuation τ sig (Elt F) := StableHlo.after (hostOps0_10 (F := F)) (W10 W)
theorem W11_eq : W11 W = StableHlo.after (hostOps0_10 (F := F)) (W10 W) := rfl
/-- The contents after stretch 12 of the host program. -/
def W12 : Valuation τ sig (Elt F) := StableHlo.after (hostOps0_11 (F := F)) (W11 W)
theorem W12_eq : W12 W = StableHlo.after (hostOps0_11 (F := F)) (W11 W) := rfl
/-- The contents after stretch 13 of the host program. -/
def W13 : Valuation τ sig (Elt F) := StableHlo.after (hostOps0_12 (F := F)) (W12 W)
theorem W13_eq : W13 W = StableHlo.after (hostOps0_12 (F := F)) (W12 W) := rfl
/-- The contents after stretch 14 of the host program. -/
def W14 : Valuation τ sig (Elt F) := StableHlo.after (hostOps0_13 (F := F)) (W13 W)
theorem W14_eq : W14 W = StableHlo.after (hostOps0_13 (F := F)) (W13 W) := rfl

/-- A TensorCore buffer's contents in a valuation. -/
abbrev rd (V : Valuation τ sig (Elt F)) (b : Ref sig .tc) := V (Proc.devRef .tc b)

/-! ## Buffers a stretch does not write

A buffer that no operation of a stretch writes holds after the stretch what it held before. -/

theorem kept_of (ops : List (HloOp τ sig (Elt F))) (V : Valuation τ sig (Elt F)) (b : Ref sig .tc)
    (h : ops.Forall fun op => Proc.devRef (τ := τ) .tc b ∉ op.writes) : rd (StableHlo.after ops V) b = rd V b :=
  StableHlo.after_of_forall_not_mem ops V (List.forall_iff_forall_mem.mp h)

/-- Decides that no operation of a literal stretch (unfolded by the caller's `simp only [‹stretch›]` beforehand, or
    given here) writes a literal buffer: each operation writes its own result buffer only. -/
macro "not_written" : tactic =>
  `(tactic| (
    simp only [List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem arg0_W1 : rd (W1 W) main_arg0 = rd W main_arg0 :=
  (kept_of (hostOps0 (F := F)) W main_arg0 (by simp only [hostOps0]; not_written)).trans rfl
theorem arg0_W2 : rd (W2 W) main_arg0 = rd W main_arg0 :=
  (kept_of (hostOps0_1 (F := F)) (W1 W) main_arg0 (by simp only [hostOps0_1]; not_written)).trans (arg0_W1 W)
theorem arg0_W3 : rd (W3 W) main_arg0 = rd W main_arg0 :=
  (kept_of (hostOps0_2 (F := F)) (W2 W) main_arg0 (by simp only [hostOps0_2]; not_written)).trans (arg0_W2 W)
theorem arg0_W4 : rd (W4 W) main_arg0 = rd W main_arg0 :=
  (kept_of (hostOps0_3 (F := F)) (W3 W) main_arg0 (by simp only [hostOps0_3]; not_written)).trans (arg0_W3 W)
theorem arg0_W5 : rd (W5 W) main_arg0 = rd W main_arg0 :=
  (kept_of (hostOps0_4 (F := F)) (W4 W) main_arg0 (by simp only [hostOps0_4]; not_written)).trans (arg0_W4 W)
theorem arg0_W6 : rd (W6 W) main_arg0 = rd W main_arg0 :=
  (kept_of (hostOps0_5 (F := F)) (W5 W) main_arg0 (by simp only [hostOps0_5]; not_written)).trans (arg0_W5 W)
theorem arg0_W7 : rd (W7 W) main_arg0 = rd W main_arg0 :=
  (kept_of (hostOps0_6 (F := F)) (W6 W) main_arg0 (by simp only [hostOps0_6]; not_written)).trans (arg0_W6 W)
theorem arg0_W8 : rd (W8 W) main_arg0 = rd W main_arg0 :=
  (kept_of (hostOps0_7 (F := F)) (W7 W) main_arg0 (by simp only [hostOps0_7]; not_written)).trans (arg0_W7 W)
theorem arg0_W9 : rd (W9 W) main_arg0 = rd W main_arg0 :=
  (kept_of (hostOps0_8 (F := F)) (W8 W) main_arg0 (by simp only [hostOps0_8]; not_written)).trans (arg0_W8 W)
theorem arg0_W10 : rd (W10 W) main_arg0 = rd W main_arg0 :=
  (kept_of (hostOps0_9 (F := F)) (W9 W) main_arg0 (by simp only [hostOps0_9]; not_written)).trans (arg0_W9 W)
theorem arg0_W11 : rd (W11 W) main_arg0 = rd W main_arg0 :=
  (kept_of (hostOps0_10 (F := F)) (W10 W) main_arg0 (by simp only [hostOps0_10]; not_written)).trans (arg0_W10 W)
theorem arg0_W12 : rd (W12 W) main_arg0 = rd W main_arg0 :=
  (kept_of (hostOps0_11 (F := F)) (W11 W) main_arg0 (by simp only [hostOps0_11]; not_written)).trans (arg0_W11 W)
theorem arg0_W13 : rd (W13 W) main_arg0 = rd W main_arg0 :=
  (kept_of (hostOps0_12 (F := F)) (W12 W) main_arg0 (by simp only [hostOps0_12]; not_written)).trans (arg0_W12 W)
theorem arg0_W14 : rd (W14 W) main_arg0 = rd W main_arg0 :=
  (kept_of (hostOps0_13 (F := F)) (W13 W) main_arg0 (by simp only [hostOps0_13]; not_written)).trans (arg0_W13 W)
theorem arg1_W1 : rd (W1 W) main_arg1 = rd W main_arg1 :=
  (kept_of (hostOps0 (F := F)) W main_arg1 (by simp only [hostOps0]; not_written)).trans rfl
theorem arg1_W2 : rd (W2 W) main_arg1 = rd W main_arg1 :=
  (kept_of (hostOps0_1 (F := F)) (W1 W) main_arg1 (by simp only [hostOps0_1]; not_written)).trans (arg1_W1 W)
theorem arg1_W3 : rd (W3 W) main_arg1 = rd W main_arg1 :=
  (kept_of (hostOps0_2 (F := F)) (W2 W) main_arg1 (by simp only [hostOps0_2]; not_written)).trans (arg1_W2 W)
theorem arg1_W4 : rd (W4 W) main_arg1 = rd W main_arg1 :=
  (kept_of (hostOps0_3 (F := F)) (W3 W) main_arg1 (by simp only [hostOps0_3]; not_written)).trans (arg1_W3 W)
theorem arg1_W5 : rd (W5 W) main_arg1 = rd W main_arg1 :=
  (kept_of (hostOps0_4 (F := F)) (W4 W) main_arg1 (by simp only [hostOps0_4]; not_written)).trans (arg1_W4 W)
theorem arg1_W6 : rd (W6 W) main_arg1 = rd W main_arg1 :=
  (kept_of (hostOps0_5 (F := F)) (W5 W) main_arg1 (by simp only [hostOps0_5]; not_written)).trans (arg1_W5 W)
theorem arg1_W7 : rd (W7 W) main_arg1 = rd W main_arg1 :=
  (kept_of (hostOps0_6 (F := F)) (W6 W) main_arg1 (by simp only [hostOps0_6]; not_written)).trans (arg1_W6 W)
theorem arg1_W8 : rd (W8 W) main_arg1 = rd W main_arg1 :=
  (kept_of (hostOps0_7 (F := F)) (W7 W) main_arg1 (by simp only [hostOps0_7]; not_written)).trans (arg1_W7 W)
theorem arg1_W9 : rd (W9 W) main_arg1 = rd W main_arg1 :=
  (kept_of (hostOps0_8 (F := F)) (W8 W) main_arg1 (by simp only [hostOps0_8]; not_written)).trans (arg1_W8 W)
theorem arg1_W10 : rd (W10 W) main_arg1 = rd W main_arg1 :=
  (kept_of (hostOps0_9 (F := F)) (W9 W) main_arg1 (by simp only [hostOps0_9]; not_written)).trans (arg1_W9 W)
theorem arg1_W11 : rd (W11 W) main_arg1 = rd W main_arg1 :=
  (kept_of (hostOps0_10 (F := F)) (W10 W) main_arg1 (by simp only [hostOps0_10]; not_written)).trans (arg1_W10 W)
theorem arg1_W12 : rd (W12 W) main_arg1 = rd W main_arg1 :=
  (kept_of (hostOps0_11 (F := F)) (W11 W) main_arg1 (by simp only [hostOps0_11]; not_written)).trans (arg1_W11 W)
theorem arg1_W13 : rd (W13 W) main_arg1 = rd W main_arg1 :=
  (kept_of (hostOps0_12 (F := F)) (W12 W) main_arg1 (by simp only [hostOps0_12]; not_written)).trans (arg1_W12 W)
theorem arg1_W14 : rd (W14 W) main_arg1 = rd W main_arg1 :=
  (kept_of (hostOps0_13 (F := F)) (W13 W) main_arg1 (by simp only [hostOps0_13]; not_written)).trans (arg1_W13 W)
theorem arg2_W1 : rd (W1 W) main_arg2 = rd W main_arg2 :=
  (kept_of (hostOps0 (F := F)) W main_arg2 (by simp only [hostOps0]; not_written)).trans rfl
theorem arg2_W2 : rd (W2 W) main_arg2 = rd W main_arg2 :=
  (kept_of (hostOps0_1 (F := F)) (W1 W) main_arg2 (by simp only [hostOps0_1]; not_written)).trans (arg2_W1 W)
theorem arg2_W3 : rd (W3 W) main_arg2 = rd W main_arg2 :=
  (kept_of (hostOps0_2 (F := F)) (W2 W) main_arg2 (by simp only [hostOps0_2]; not_written)).trans (arg2_W2 W)
theorem arg2_W4 : rd (W4 W) main_arg2 = rd W main_arg2 :=
  (kept_of (hostOps0_3 (F := F)) (W3 W) main_arg2 (by simp only [hostOps0_3]; not_written)).trans (arg2_W3 W)
theorem arg2_W5 : rd (W5 W) main_arg2 = rd W main_arg2 :=
  (kept_of (hostOps0_4 (F := F)) (W4 W) main_arg2 (by simp only [hostOps0_4]; not_written)).trans (arg2_W4 W)
theorem arg2_W6 : rd (W6 W) main_arg2 = rd W main_arg2 :=
  (kept_of (hostOps0_5 (F := F)) (W5 W) main_arg2 (by simp only [hostOps0_5]; not_written)).trans (arg2_W5 W)
theorem arg2_W7 : rd (W7 W) main_arg2 = rd W main_arg2 :=
  (kept_of (hostOps0_6 (F := F)) (W6 W) main_arg2 (by simp only [hostOps0_6]; not_written)).trans (arg2_W6 W)
theorem arg2_W8 : rd (W8 W) main_arg2 = rd W main_arg2 :=
  (kept_of (hostOps0_7 (F := F)) (W7 W) main_arg2 (by simp only [hostOps0_7]; not_written)).trans (arg2_W7 W)
theorem arg2_W9 : rd (W9 W) main_arg2 = rd W main_arg2 :=
  (kept_of (hostOps0_8 (F := F)) (W8 W) main_arg2 (by simp only [hostOps0_8]; not_written)).trans (arg2_W8 W)
theorem arg2_W10 : rd (W10 W) main_arg2 = rd W main_arg2 :=
  (kept_of (hostOps0_9 (F := F)) (W9 W) main_arg2 (by simp only [hostOps0_9]; not_written)).trans (arg2_W9 W)
theorem arg2_W11 : rd (W11 W) main_arg2 = rd W main_arg2 :=
  (kept_of (hostOps0_10 (F := F)) (W10 W) main_arg2 (by simp only [hostOps0_10]; not_written)).trans (arg2_W10 W)
theorem arg2_W12 : rd (W12 W) main_arg2 = rd W main_arg2 :=
  (kept_of (hostOps0_11 (F := F)) (W11 W) main_arg2 (by simp only [hostOps0_11]; not_written)).trans (arg2_W11 W)
theorem arg2_W13 : rd (W13 W) main_arg2 = rd W main_arg2 :=
  (kept_of (hostOps0_12 (F := F)) (W12 W) main_arg2 (by simp only [hostOps0_12]; not_written)).trans (arg2_W12 W)
theorem arg2_W14 : rd (W14 W) main_arg2 = rd W main_arg2 :=
  (kept_of (hostOps0_13 (F := F)) (W13 W) main_arg2 (by simp only [hostOps0_13]; not_written)).trans (arg2_W13 W)
/-- The whole host program before the kernel leaves what its last stretch leaves. -/
theorem flat_eq : StableHlo.after (List.flatten [hostOps0 (F := F), hostOps0_1 (F := F), hostOps0_2 (F := F), hostOps0_3 (F := F), hostOps0_4 (F := F), hostOps0_5 (F := F), hostOps0_6 (F := F), hostOps0_7 (F := F), hostOps0_8 (F := F), hostOps0_9 (F := F), hostOps0_10 (F := F), hostOps0_11 (F := F), hostOps0_12 (F := F), hostOps0_13 (F := F)]) W = W14 W := by
  simp only [List.flatten_cons, List.flatten_nil, List.append_nil, StableHlo.after_append]
  rfl

end Cert.KernelIdeal.Chain

end
-- ==== Proof.Route.lean ====
/-
  Routing arithmetic: tokens 0 … n-1 each carry an expert label e t.  Tokens are laid out expert by expert in a
  buffer whose per-expert regions are rounded up to whole tiles of 512 rows: token t goes to row
  pos t = ps (e t) + rank t, where rank t counts the earlier tokens with the same label and ps k is the total padded
  size of the regions of the experts below k.  The facts proved here: the position lies in the used part of the
  buffer, distinct tokens get distinct positions, and the tile holding a token's row belongs to the token's expert
  (the experts whose regions start at or before that tile's first row are exactly 0 … e t).
-/
import Mathlib.Algebra.BigOperators.Fin
import Mathlib.Algebra.Order.BigOperators.Group.Finset
import Mathlib.Data.Finset.Card
import Mathlib.Tactic.Ring
import Mathlib.Tactic.Linarith

open scoped BigOperators

namespace Cert.Route

variable {n : ℕ} (e : Fin n → ℕ)

/-- The number of tokens up to and including `t` that carry label `k`. -/
def cum (t : Fin n) (k : ℕ) : ℕ := (Finset.univ.filter fun s : Fin n => s.val ≤ t.val ∧ e s = k).card
/-- The number of tokens that carry label `k`. -/
def cnt (k : ℕ) : ℕ := (Finset.univ.filter fun s : Fin n => e s = k).card
/-- Expert `k`'s region, rounded up to whole tiles of 512 rows. -/
def pc (k : ℕ) : ℕ := (cnt e k + 511) / 512 * 512
/-- Where expert `k`'s region starts: the padded sizes of the experts below it. -/
def ps (k : ℕ) : ℕ := ∑ j ∈ Finset.range k, pc e j
/-- How many earlier tokens carry token `t`'s label. -/
def rank (t : Fin n) : ℕ := cum e t (e t) - 1
/-- Token `t`'s row in the padded buffer. -/
def pos (t : Fin n) : ℕ := ps e (e t) + rank e t

theorem cum_le_cnt (t : Fin n) (k : ℕ) : cum e t k ≤ cnt e k := by
  unfold cum cnt
  apply Finset.card_le_card
  intro s hs
  simp only [Finset.mem_filter, Finset.mem_univ, true_and] at hs ⊢
  exact hs.2
theorem cum_last (t : Fin n) (ht : t.val + 1 = n) (k : ℕ) : cum e t k = cnt e k := by
  unfold cum cnt
  congr 1
  ext s
  simp only [Finset.mem_filter, Finset.mem_univ, true_and]
  constructor
  · exact fun hs => hs.2
  · intro hs
    have hlt := s.isLt
    exact ⟨by omega, hs⟩
theorem cnt_le (k : ℕ) : cnt e k ≤ n := by
  unfold cnt
  calc (Finset.univ.filter fun s : Fin n => e s = k).card
      ≤ (Finset.univ : Finset (Fin n)).card := Finset.card_filter_le _ _
    _ = n := by simp
theorem one_le_cum_self (t : Fin n) : 1 ≤ cum e t (e t) := by
  unfold cum
  exact Nat.succ_le_of_lt (Finset.card_pos.mpr ⟨t, by simp⟩)
theorem sum_cnt (h : ∀ t, e t < 8) : ∑ k ∈ Finset.range 8, cnt e k = n := by
  have hfib := Finset.card_eq_sum_card_fiberwise (f := e) (s := (Finset.univ : Finset (Fin n)))
    (t := Finset.range 8) (fun x _ => Finset.mem_range.mpr (h x))
  unfold cnt
  rw [← hfib]
  simp
theorem cnt_le_pc (k : ℕ) : cnt e k ≤ pc e k := by
  unfold pc
  omega
theorem pc_le (k : ℕ) : pc e k ≤ cnt e k + 511 := by
  unfold pc
  omega
theorem dvd_pc (k : ℕ) : 512 ∣ pc e k := by
  unfold pc
  exact Nat.dvd_mul_left 512 _
theorem dvd_ps (k : ℕ) : 512 ∣ ps e k := by
  unfold ps
  exact Finset.dvd_sum (fun j _ => dvd_pc e j)
theorem ps_succ (k : ℕ) : ps e (k + 1) = ps e k + pc e k := by
  unfold ps
  rw [Finset.sum_range_succ]
theorem ps_mono {j k : ℕ} (h : j ≤ k) : ps e j ≤ ps e k := by
  unfold ps
  exact Finset.sum_le_sum_of_subset (Finset.range_mono h)
theorem ps8_le (h : ∀ t, e t < 8) : ps e 8 ≤ n + 4088 := by
  have h1 : ps e 8 ≤ ∑ k ∈ Finset.range 8, (cnt e k + 511) :=
    Finset.sum_le_sum (fun k _ => pc_le e k)
  rw [Finset.sum_add_distrib, sum_cnt e h] at h1
  simpa using h1
theorem pos_lt (t : Fin n) : pos e t < ps e (e t) + cnt e (e t) := by
  have h1 := one_le_cum_self e t
  have h2 := cum_le_cnt e t (e t)
  unfold pos rank
  omega
theorem pos_lt_ps8 (h : ∀ t, e t < 8) (t : Fin n) : pos e t < ps e 8 := by
  have h1 := pos_lt e t
  have h2 := cnt_le_pc e (e t)
  have h3 := ps_succ e (e t)
  have h4 : ps e (e t + 1) ≤ ps e 8 := ps_mono e (Nat.succ_le_of_lt (h t))
  omega
/-- Along the tokens, the running count of a label strictly increases at each token carrying that label. -/
theorem cum_lt {s s' : Fin n} (hlt : s.val < s'.val) : cum e s (e s') < cum e s' (e s') := by
  unfold cum
  apply Finset.card_lt_card
  have hsub : (Finset.univ.filter fun x : Fin n => x.val ≤ s.val ∧ e x = e s') ⊆
      (Finset.univ.filter fun x : Fin n => x.val ≤ s'.val ∧ e x = e s') := by
    intro x hx
    simp only [Finset.mem_filter, Finset.mem_univ, true_and] at hx ⊢
    exact ⟨by omega, hx.2⟩
  rw [Finset.ssubset_iff_of_subset hsub]
  refine ⟨s', ?_, ?_⟩
  · simp
  · simp only [Finset.mem_filter, Finset.mem_univ, true_and, not_and]
    intro hle
    omega
/-- A token with a smaller label sits strictly before every token with a larger label. -/
theorem pos_lt_of_label_lt {t t' : Fin n} (hlt : e t < e t') : pos e t < pos e t' := by
  have h1 := pos_lt e t
  have h2 := cnt_le_pc e (e t)
  have h3 := ps_succ e (e t)
  have h4 : ps e (e t + 1) ≤ ps e (e t') := ps_mono e (Nat.succ_le_of_lt hlt)
  have h5 : ps e (e t') ≤ pos e t' := by
    unfold pos
    omega
  omega
theorem pos_inj {t t' : Fin n} (h : pos e t = pos e t') : t = t' := by
  rcases Nat.lt_trichotomy (e t) (e t') with hlt | heq | hgt
  · have := pos_lt_of_label_lt e hlt
    omega
  · have h1 := one_le_cum_self e t
    have h1' := one_le_cum_self e t'
    unfold pos rank at h
    rw [heq] at h h1
    have hc : cum e t (e t') = cum e t' (e t') := by omega
    rcases Nat.lt_trichotomy t.val t'.val with hv | hv | hv
    · have := cum_lt e hv
      omega
    · exact Fin.ext hv
    · have := cum_lt e hv
      rw [heq] at this
      omega
  · have := pos_lt_of_label_lt e hgt
    omega
/-- The experts whose regions start at or before the first row of the tile holding token `t`'s row are 0 … e t. -/
theorem count_ps_le (h : ∀ t, e t < 8) (t : Fin n) :
    ((Finset.range 8).filter fun k => ps e k ≤ 512 * (pos e t / 512)).card = e t + 1 := by
  have hk0 := h t
  have hd := dvd_ps e (e t)
  have hle : ps e (e t) ≤ pos e t := by
    unfold pos
    omega
  have hlt := pos_lt e t
  have hcp := cnt_le_pc e (e t)
  have hs := ps_succ e (e t)
  have hset : ((Finset.range 8).filter fun k => ps e k ≤ 512 * (pos e t / 512))
      = Finset.range (e t + 1) := by
    ext k
    simp only [Finset.mem_filter, Finset.mem_range]
    constructor
    · rintro ⟨_, hk⟩
      by_contra hcon
      have hm : ps e (e t + 1) ≤ ps e k := ps_mono e (by omega)
      omega
    · intro hk
      refine ⟨by omega, ?_⟩
      have hm : ps e k ≤ ps e (e t) := ps_mono e (by omega)
      obtain ⟨c, hc⟩ := hd
      omega
  rw [hset, Finset.card_range]
theorem pos_div_lt (h : ∀ t, e t < 8) (t : Fin n) : pos e t / 512 < ps e 8 / 512 := by
  have h1 := pos_lt_ps8 e h t
  obtain ⟨c, hc⟩ := dvd_ps e 8
  omega

end Cert.Route
-- ==== Proof.LibPrefixSum.lean ====
/-
  Running sums on the host.  A reduce_window that adds, with a window as long as the axis and padded on the low side by one
  less than the axis, is the inclusive prefix sum along that axis: element t is the sum of the elements at positions
  0 … t.  A reduce that adds along the only axis of a vector is the sum of its elements.  Stated on the words' values
  as natural numbers, for sums that do not wrap.
-/
import Idealize.ShloMosaic.PureOps.Contract
import Idealize.ShloMosaic.PureOps.Reduce
import Idealize.ShloMosaic.Lib.ValueIdx
import Idealize.ShloMosaic.Lib.StableHlo.Predicate
import Mathlib.Algebra.BigOperators.Fin

noncomputable section

open scoped BigOperators

namespace Cert.PrefixSum

open Idealize.ShloMosaic Idealize.ShloMosaic.ValueIdx

/-- A left fold of word addition from a word, over a list, when nothing wraps: the values add. -/
theorem toNat_foldl_addi_aux {ι : Type} (l : List ι) (g : ι → BitVec 32) (a : BitVec 32)
    (h : a.toNat + (l.map fun i => (g i).toNat).sum < 2 ^ 32) :
    (l.foldl (fun r i => IntOp.addi r (g i)) a).toNat = a.toNat + (l.map fun i => (g i).toNat).sum := by
  induction l generalizing a with
  | nil => simp
  | cons b l ih =>
    rw [List.map_cons, List.sum_cons] at h ⊢
    have hab : (IntOp.addi a (g b)).toNat = a.toNat + (g b).toNat := by
      show (a + g b).toNat = _
      rw [BitVec.toNat_add]
      exact Nat.mod_eq_of_lt (by omega)
    rw [List.foldl_cons, ih _ (by rw [hab]; omega), hab]
    omega

/-- The same from the zero word, with the sum named. -/
theorem toNat_foldl_addi {ι : Type} (l : List ι) (g : ι → BitVec 32) (S : ℕ)
    (hS : (l.map fun i => (g i).toNat).sum = S) (hlt : S < 2 ^ 32) :
    (l.foldl (fun r i => IntOp.addi r (g i)) 0#32).toNat = S := by
  rw [toNat_foldl_addi_aux l g 0#32 (by rw [hS]; simpa using hlt), hS]
  simp

/-- Sliding a window of length n whose last cell sits at position t over a row of n cells padded by n - 1 zeros in
    front: the cells of the window that fall on the row are the row's cells 0 … t. -/
theorem sum_window {n lo : ℕ} (hlo : lo + 1 = n) (t : Fin n) (F : ℕ → ℕ) :
    ∑ q : Fin n, (if lo ≤ t.val + q.val then F (t.val + q.val - lo) else 0)
      = ∑ s ∈ Finset.univ.filter (fun s : Fin n => s.val ≤ t.val), F s.val := by
  rw [← Finset.sum_filter]
  refine Finset.sum_bij' (fun q _ => (⟨t.val + q.val - lo, by have := q.isLt; have := t.isLt; omega⟩ : Fin n))
    (fun s hs => (⟨s.val + lo - t.val, by
      have := (Finset.mem_filter.1 hs).2; have := s.isLt; have := t.isLt; omega⟩ : Fin n)) ?_ ?_ ?_ ?_ ?_
  · intro q hq
    simp only [Finset.mem_filter, Finset.mem_univ, true_and] at hq ⊢
    show t.val + q.val - lo ≤ t.val
    have := q.isLt
    omega
  · intro s hs
    simp only [Finset.mem_filter, Finset.mem_univ, true_and] at hs ⊢
    show lo ≤ t.val + (s.val + lo - t.val)
    omega
  · intro q hq
    simp only [Finset.mem_filter, Finset.mem_univ, true_and] at hq
    apply Fin.ext
    show t.val + q.val - lo + lo - t.val = q.val
    omega
  · intro s hs
    simp only [Finset.mem_filter, Finset.mem_univ, true_and] at hs
    apply Fin.ext
    show t.val + (s.val + lo - t.val) - lo = s.val
    omega
  · intro q _
    rfl

/-- A vector's indices are its positions. -/
def idxEquiv1 {n : ℕ} : (⟨1, ![n]⟩ : Shape).Idx ≃ Fin n where
  toFun i := i 0
  invFun := ix1
  left_inv i := (eq_ix1 i).symm
  right_inv _ := rfl

/-- A one-column array's indices are its rows. -/
def colEquiv {n : ℕ} : (⟨2, ![n, 1]⟩ : Shape).Idx ≃ Fin n where
  toFun i := i 0
  invFun q := ix2 q 0
  left_inv i := by
    funext a
    match a with
    | ⟨0, _⟩ => rfl
    | ⟨1, _⟩ =>
      apply Fin.ext
      have h1 := idx2_lt1 i
      show 0 = (i 1).val
      omega
  right_inv _ := rfl

/-- A window sum of words that does not wrap, read as a sum of values over the window's positions: at each position the
    operand's value where the position falls on the operand, nothing where it falls on the padding. -/
theorem reduceWindow_addi_toNat {s t u : Shape} (window strides lo hi : Fin s.rank → ℕ) (x : IVec s 32) (init : IVec u 32)
    (h : s.ReduceWindows window strides lo hi t) (hu : 0 < u.numel) (h0 : init (Shape.Idx.first hu) = 0#32) (j : t.Idx)
    (S : ℕ) (G : (⟨s.rank, window⟩ : Shape).Idx → ℕ)
    (hG : ∀ i : (⟨s.rank, window⟩ : Shape).Idx,
      (if hin : ∀ a, lo a ≤ (j (a.cast h.1.symm)).val * strides a + (i a).val ∧
          (j (a.cast h.1.symm)).val * strides a + (i a).val - lo a < s.size a then
        x (fun a => ⟨(j (a.cast h.1.symm)).val * strides a + (i a).val - lo a, (hin a).2⟩) else 0#32).toNat = G i)
    (hS : ∑ i, G i = S) (hlt : S < 2 ^ 32) :
    (Host.reduceWindow IntOp.addi window strides lo hi x init h hu j).toNat = S := by
  unfold Host.reduceWindow
  dsimp only
  rw [h0]
  refine toNat_foldl_addi _ _ _ ?_ hlt
  rw [← Fin.sum_univ_def, ← hS]
  exact Fintype.sum_equiv (⟨s.rank, window⟩ : Shape).rowMajor.symm _ G (fun q => hG _)

/-- The inclusive prefix sum down the rows of an [n × m] array of words: what `jnp.cumsum(·, axis=0)` lowers to. -/
theorem cumsum_rows_toNat {n m lo : ℕ} (hlo : lo + 1 = n) (x : IVec ⟨2, ![n, m]⟩ 32) (init : IVec ⟨0, ![]⟩ 32)
    (hrw : (⟨2, ![n, m]⟩ : Shape).ReduceWindows (![n, 1] : Fin 2 → ℕ) ![1, 1] ![lo, 0] ![0, 0] ⟨2, ![n, m]⟩)
    (hu : 0 < (⟨0, ![]⟩ : Shape).numel) (h0 : init (Shape.Idx.first hu) = 0#32) (t : Fin n) (k : Fin m)
    (hsum : ∑ s : Fin n, (x (ix2 s k)).toNat < 2 ^ 32) :
    (Host.reduceWindow IntOp.addi (![n, 1] : Fin 2 → ℕ) ![1, 1] ![lo, 0] ![0, 0] x init hrw hu (ix2 t k)).toNat
      = ∑ s ∈ Finset.univ.filter (fun s : Fin n => s.val ≤ t.val), (x (ix2 s k)).toNat := by
  obtain ⟨F, hF⟩ : ∃ F : ℕ → ℕ, ∀ s : Fin n, F s.val = (x (ix2 s k)).toNat :=
    ⟨fun j => if h : j < n then (x (ix2 ⟨j, h⟩ k)).toNat else 0, fun s => dif_pos s.isLt⟩
  have ht := t.isLt
  have hk := k.isLt
  refine reduceWindow_addi_toNat _ _ _ _ x init hrw hu h0 (ix2 t k) _
    (fun i => if lo ≤ t.val + (i 0).val then F (t.val + (i 0).val - lo) else 0) ?_ ?_
    (lt_of_le_of_lt (Finset.sum_le_sum_of_subset (Finset.filter_subset _ _)) hsum)
  · intro i
    have hi : (i 0).val < n := (i 0).isLt
    have hi1 : (i 1).val < 1 := (i 1).isLt
    by_cases hc : lo ≤ t.val + (i 0).val
    · rw [if_pos hc, dif_pos]
      · refine (congrArg (fun z => (x z).toNat) (funext fun a => ?_)).trans
          (hF ⟨t.val + (i 0).val - lo, by omega⟩).symm
        match a with
        | ⟨0, _⟩ =>
          apply Fin.ext
          show t.val * 1 + (i 0).val - lo = t.val + (i 0).val - lo
          omega
        | ⟨1, _⟩ =>
          apply Fin.ext
          show k.val * 1 + (i 1).val - 0 = k.val
          omega
      · intro a
        match a with
        | ⟨0, _⟩ =>
          show lo ≤ t.val * 1 + (i 0).val ∧ t.val * 1 + (i 0).val - lo < n
          omega
        | ⟨1, _⟩ =>
          show 0 ≤ k.val * 1 + (i 1).val ∧ k.val * 1 + (i 1).val - 0 < m
          omega
    · rw [if_neg hc, dif_neg]
      · rfl
      · intro hin
        have h1 : lo ≤ t.val * 1 + (i 0).val := (hin 0).1
        omega
  · exact (Fintype.sum_equiv colEquiv _
      (fun q : Fin n => if lo ≤ t.val + q.val then F (t.val + q.val - lo) else 0) (fun _ => rfl)).trans
      ((sum_window hlo t F).trans (Finset.sum_congr rfl fun s _ => hF s))

/-- The inclusive prefix sum of a vector of n words: what `jnp.cumsum` of a vector lowers to. -/
theorem cumsum_vec_toNat {n lo : ℕ} (hlo : lo + 1 = n) (x : IVec ⟨1, ![n]⟩ 32) (init : IVec ⟨0, ![]⟩ 32)
    (hrw : (⟨1, ![n]⟩ : Shape).ReduceWindows (![n] : Fin 1 → ℕ) ![1] ![lo] ![0] ⟨1, ![n]⟩)
    (hu : 0 < (⟨0, ![]⟩ : Shape).numel) (h0 : init (Shape.Idx.first hu) = 0#32) (k : Fin n)
    (hsum : ∑ j : Fin n, (x (ix1 j)).toNat < 2 ^ 32) :
    (Host.reduceWindow IntOp.addi (![n] : Fin 1 → ℕ) ![1] ![lo] ![0] x init hrw hu (ix1 k)).toNat
      = ∑ j ∈ Finset.univ.filter (fun j : Fin n => j.val ≤ k.val), (x (ix1 j)).toNat := by
  obtain ⟨F, hF⟩ : ∃ F : ℕ → ℕ, ∀ s : Fin n, F s.val = (x (ix1 s)).toNat :=
    ⟨fun j => if h : j < n then (x (ix1 ⟨j, h⟩)).toNat else 0, fun s => dif_pos s.isLt⟩
  have hk := k.isLt
  refine reduceWindow_addi_toNat _ _ _ _ x init hrw hu h0 (ix1 k) _
    (fun i => if lo ≤ k.val + (i 0).val then F (k.val + (i 0).val - lo) else 0) ?_ ?_
    (lt_of_le_of_lt (Finset.sum_le_sum_of_subset (Finset.filter_subset _ _)) hsum)
  · intro i
    have hi : (i 0).val < n := (i 0).isLt
    by_cases hc : lo ≤ k.val + (i 0).val
    · rw [if_pos hc, dif_pos]
      · refine (congrArg (fun z => (x z).toNat) (funext fun a => ?_)).trans
          (hF ⟨k.val + (i 0).val - lo, by omega⟩).symm
        match a with
        | ⟨0, _⟩ =>
          apply Fin.ext
          show k.val * 1 + (i 0).val - lo = k.val + (i 0).val - lo
          omega
      · intro a
        match a with
        | ⟨0, _⟩ =>
          show lo ≤ k.val * 1 + (i 0).val ∧ k.val * 1 + (i 0).val - lo < n
          omega
    · rw [if_neg hc, dif_neg]
      · rfl
      · intro hin
        have h1 : lo ≤ k.val * 1 + (i 0).val := (hin 0).1
        omega
  · exact (Fintype.sum_equiv idxEquiv1 _
      (fun q : Fin n => if lo ≤ k.val + q.val then F (k.val + q.val - lo) else 0) (fun _ => rfl)).trans
      ((sum_window hlo k F).trans (Finset.sum_congr rfl fun s _ => hF s))

/-- The sum of a vector of n words. -/
theorem reduce_add_vec_toNat {n : ℕ} (x : IVec ⟨1, ![n]⟩ 32) (init : IVec ⟨0, ![]⟩ 32)
    (h : (⟨1, ![n]⟩ : Shape).ReducesTo [0] ⟨0, ![]⟩) (hu : 0 < (⟨0, ![]⟩ : Shape).numel)
    (h0 : init (Shape.Idx.first hu) = 0#32) (hsum : ∑ j : Fin n, (x (ix1 j)).toNat < 2 ^ 32) :
    (Host.reduce IntOp.addi x init h hu ix0).toNat = ∑ j : Fin n, (x (ix1 j)).toNat := by
  classical
  have hidx : ∑ i : (⟨1, ![n]⟩ : Shape).Idx, (x i).toNat = ∑ j : Fin n, (x (ix1 j)).toNat :=
    Fintype.sum_equiv idxEquiv1 _ (fun j : Fin n => (x (ix1 j)).toNat)
      (fun i => congrArg (fun z => (x z).toNat) (eq_ix1 i))
  rw [Host.reduce_eq_fold, h0,
    Finset.filter_true_of_mem (fun i _ => (eq_ix0 (h.drop i)).trans (eq_ix0 ix0).symm),
    StableHlo.Predicate.toNat_fold_addi _ _ (by rw [hidx]; exact hsum), hidx]

end Cert.PrefixSum

end
-- ==== Proof.Stage1.lean ====
/-
  Counting the labels.  A one-hot row per token, its running sum down the tokens, the last row (the number of tokens
  per expert), and each token's count within its own expert read off the running sum at the token's label.
-/
import proofs.«412671_j9363028706406_3_alg».proof.Proof.Chain
import proofs.«412671_j9363028706406_3_alg».proof.Proof.Route
import proofs.«412671_j9363028706406_3_alg».proof.Proof.LibPrefixSum
import Idealize.ShloMosaic.Lib.ValueIdx
import Idealize.ShloMosaic.Lib.Pipeline.Value
import Idealize.ShloMosaic.Lib.StableHlo.Predicate

noncomputable section

namespace Cert.KernelIdeal.Stage1

open Idealize.ShloMosaic Idealize.ShloMosaic.TcCoe Idealize.ShloMosaic.ValueIdx Cert.KernelIdeal Cert.KernelIdeal.Gen Cert.KernelIdeal.Chain

variable {F : FTy → Type} [FloatOps F]
variable (W : Valuation τ sig (Elt F)) (e : Fin 16384 → ℕ)

open scoped BigOperators

/-! ## Reading the label words -/

/-- A word whose value is a number equals the word of a small number exactly when the two numbers agree. -/
theorem word_eq_ofNat_iff (x : BitVec 32) (n k : ℕ) (hx : x.toNat = n) (hk : k < 8) : x = BitVec.ofNat 32 k ↔ n = k := by
  constructor
  · intro h
    have h2 := congrArg BitVec.toNat h
    rw [hx, BitVec.toNat_ofNat] at h2
    omega
  · intro h
    apply BitVec.eq_of_toNat_eq
    rw [hx, BitVec.toNat_ofNat]
    omega

/-! ## Stretch 1: the one-hot rows -/

/-- The one-hot array as the first stretch leaves it: the labels down the rows compared with the expert ids along the columns. -/
theorem v6_W1 : rd (W1 W) main_v6
    = extui 32 (cmpi .eq
        (broadcastInDim S16384x8 ![0, 1] bcast_S16384x1_S16384x8_0_1 (broadcastInDim S16384x1 ![0] bcast_S16384_S16384x1_0 (rd W main_arg2)))
        (broadcastInDim S16384x8 ![0, 1] bcast_S1x8_S16384x8_0_1 (broadcastInDim S1x8 ![1] bcast_S8_S1x8_1 (iotaInDim S8 32 0))))
      natLt_1_32 := by
  unfold rd
  rw [W1_eq]
  simp only [hostOps0]
  after_results

/-- A vector laid down the rows of a one-column array reads the vector at the row. -/
theorem col_bcast (x : S16384.Idx → BitVec 32) (t : Fin 16384) :
    broadcastInDim S16384x1 ![0] bcast_S16384_S16384x1_0 x (ix2 t (0 : Fin 1)) = x (ix1 t) := by
  refine broadcastInDim_apply _ _ _ (ix2 t (0 : Fin 1)) (ix1 t) ?_
  intro a
  match a with
  | ⟨0, _⟩ => rfl

/-- The labels broadcast over the columns read the label of the row. -/
theorem labels_bcast (x : S16384.Idx → BitVec 32) (t : Fin 16384) (k : Fin 8) :
    broadcastInDim S16384x8 ![0, 1] bcast_S16384x1_S16384x8_0_1 (broadcastInDim S16384x1 ![0] bcast_S16384_S16384x1_0 x) (ix2 t k)
      = x (ix1 t) := by
  refine (broadcastInDim_apply _ _ _ (ix2 t k) (ix2 t (0 : Fin 1)) ?_).trans (col_bcast x t)
  intro a
  match a with
  | ⟨0, _⟩ => rfl
  | ⟨1, _⟩ => rfl

/-- The expert ids broadcast down the rows read the column's number. -/
theorem ids_bcast (t : Fin 16384) (k : Fin 8) :
    broadcastInDim S16384x8 ![0, 1] bcast_S1x8_S16384x8_0_1 (broadcastInDim S1x8 ![1] bcast_S8_S1x8_1 (iotaInDim S8 32 0)) (ix2 t k)
      = BitVec.ofNat 32 k.val := by
  refine (broadcastInDim_apply _ _ _ (ix2 t k) (ix2 (0 : Fin 1) k) ?_).trans
    ((broadcastInDim_apply _ _ _ (ix2 (0 : Fin 1) k) (ix1 k) ?_).trans rfl)
  · intro a
    match a with
    | ⟨0, _⟩ => rfl
    | ⟨1, _⟩ => rfl
  · intro a
    match a with
    | ⟨0, _⟩ => rfl

/-- An entry of the one-hot array is 1 where the row's label is the column's expert, else 0. -/
theorem v6_toNat (hlab : ∀ t : Fin 16384, (rd W main_arg2 (ix1 t)).toNat = e t) (t : Fin 16384) (k : Fin 8) :
    (rd (W1 W) main_v6 (ix2 t k)).toNat = if e t = k.val then 1 else 0 := by
  rw [v6_W1, extui_apply, StableHlo.Predicate.toNat_setWidth_bit]
  show (if IntOp.cmpi .eq
      (broadcastInDim S16384x8 ![0, 1] bcast_S16384x1_S16384x8_0_1 (broadcastInDim S16384x1 ![0] bcast_S16384_S16384x1_0 (rd W main_arg2)) (ix2 t k))
      (broadcastInDim S16384x8 ![0, 1] bcast_S1x8_S16384x8_0_1 (broadcastInDim S1x8 ![1] bcast_S8_S1x8_1 (iotaInDim S8 32 0)) (ix2 t k)) = 1#1
    then 1 else 0) = _
  rw [labels_bcast, ids_bcast]
  simp only [StableHlo.Predicate.cmpi_eq_iff, word_eq_ofNat_iff _ (e t) k.val (hlab t) k.isLt]

/-! ## Stretch 2: the running sum down the tokens -/

/-- The running-sum array as the second stretch leaves it. -/
theorem v7_W2 : rd (W2 W) main_v7
    = Host.reduceWindow IntOp.addi ![16384, 1] ![1, 1] ![16383, 0] ![0, 0] (rd (W1 W) main_v6)
        (broadcastInDim S_ ![] bcast_S_S_ (constantI S_ 32 0#32))
        reduceWindows_S16384x8_S16384x8_w16384s1p16383_0_w1s1p0_0 h_S_ := by
  unfold rd
  rw [W2_eq]
  simp only [hostOps0_1]
  after_results
  simp only [StableHlo.TRef.toBuf, StableHlo.TRef.ofBuf, cast_cast, cast_eq]

/-- A sum of zeros and ones over the tokens stays below the word size. -/
theorem onehot_sum_lt (hlab : ∀ t : Fin 16384, (rd W main_arg2 (ix1 t)).toNat = e t) (k : Fin 8) :
    ∑ s : Fin 16384, (rd (W1 W) main_v6 (ix2 s k)).toNat < 2 ^ 32 := by
  have hle : ∑ s : Fin 16384, (rd (W1 W) main_v6 (ix2 s k)).toNat ≤ ∑ _s : Fin 16384, 1 := by
    refine Finset.sum_le_sum fun s _ => ?_
    rw [v6_toNat W e hlab s k]
    split <;> omega
  rw [Finset.sum_const, Finset.card_univ, Fintype.card_fin, smul_eq_mul, mul_one] at hle
  omega

/-- The running sum at token t and expert k counts the tokens up to t that carry label k. -/
theorem v7_toNat (hlab : ∀ t : Fin 16384, (rd W main_arg2 (ix1 t)).toNat = e t) (t : Fin 16384) (k : Fin 8) :
    (rd (W2 W) main_v7 (ix2 t k)).toNat = Route.cum e t k.val := by
  rw [v7_W2]
  rw [Cert.PrefixSum.cumsum_rows_toNat (n := 16384) (m := 8) (lo := 16383) rfl (rd (W1 W) main_v6) _
    reduceWindows_S16384x8_S16384x8_w16384s1p16383_0_w1s1p0_0 h_S_ rfl t k (onehot_sum_lt W e hlab k)]
  unfold Route.cum
  rw [Finset.card_filter, Finset.sum_filter]
  refine Finset.sum_congr rfl fun s _ => ?_
  rw [v6_toNat W e hlab s k]
  by_cases h1 : s.val ≤ t.val <;> by_cases h2 : e s = k.val <;> simp [h1, h2]

/-! ## Stretch 3: the counts, the running sum less one, the labels as a column -/

/-- The counts as the third stretch leaves them: the last row of the running sum, as a vector. -/
theorem v9_W3 : rd (W3 W) main_v9
    = shapeCast S8 (extractStridedSlice S1x8 ![16383, 0] (rd (W2 W) main_v7) slices_S16384x8_S1x8_16383_0) shapeCasts_S1x8_S8 := by
  unfold rd
  rw [W3_eq]
  simp only [hostOps0_2]
  after_results
  rfl

/-- Entry k of the counts is the running sum at the last token. -/
theorem v9_apply (k : Fin 8) :
    rd (W3 W) main_v9 (ix1 k) = rd (W2 W) main_v7 (ix2 (⟨16383, by omega⟩ : Fin 16384) k) := by
  rw [v9_W3]
  refine (shapeCast_apply _ _ (ix1 k) (ix2 (0 : Fin 1) k) ?_).trans
    (extractStridedSlice_apply _ _ _ (ix2 (0 : Fin 1) k) (ix2 (⟨16383, by omega⟩ : Fin 16384) k) ?_)
  · rw [Shape.rowMajor_val_two, Shape.rowMajor_val_one]
    show (0 : ℕ) * 8 + k.val = k.val
    omega
  · intro a
    match a with
    | ⟨0, _⟩ => rfl
    | ⟨1, _⟩ =>
      show k.val = 0 + k.val
      omega

/-- The running sum less one, as the third stretch leaves it. -/
theorem v11_W3 : rd (W3 W) main_v11
    = subi (rd (W2 W) main_v7) (broadcastInDim S16384x8 ![] bcast_S_S16384x8 (constantI S_ 32 1#32)) := by
  unfold rd
  rw [W3_eq]
  simp only [hostOps0_2]
  after_results

/-- An entry of it is the running sum's entry less one. -/
theorem v11_apply (t : Fin 16384) (k : Fin 8) :
    rd (W3 W) main_v11 (ix2 t k) = IntOp.subi (rd (W2 W) main_v7 (ix2 t k)) 1#32 := by
  rw [v11_W3]
  rfl

/-- The labels as a column, as the third stretch leaves them. -/
theorem v12_W3 : rd (W3 W) main_v12 = broadcastInDim S16384x1 ![0] bcast_S16384_S16384x1_0 (rd W main_arg2) := by
  have h : rd (W3 W) main_v12 = broadcastInDim S16384x1 ![0] bcast_S16384_S16384x1_0 (rd (W2 W) main_arg2) := by
    unfold rd
    rw [W3_eq]
    simp only [hostOps0_2]
    after_results
  rw [h, arg2_W2]

/-- Row t of the label column is token t's label. -/
theorem v12_apply (t : Fin 16384) : rd (W3 W) main_v12 (ix2 t (0 : Fin 1)) = rd W main_arg2 (ix1 t) := by
  rw [v12_W3]
  exact col_bcast _ t

/-- The number of tokens of each expert, as the host computes it. -/
theorem counts (hlab : ∀ t : Fin 16384, (rd W main_arg2 (ix1 t)).toNat = e t) (k : Fin 8) :
    (rd (W4 W) main_v9 (ix1 k)).toNat = Route.cnt e k.val := by
  have hk9 : rd (W4 W) main_v9 = rd (W3 W) main_v9 :=
    kept_of (hostOps0_3 (F := F)) (W3 W) main_v9 (by simp only [hostOps0_3]; not_written)
  rw [hk9, v9_apply, v7_toNat W e hlab]
  exact Route.cum_last e _ rfl k.val

/-! ## Stretch 4: each token's running count, less one, read at the token's own label -/

/-- The label column with a negative entry moved up by the number of experts, as a three-axis array: the start
    indices of the gather. -/
def nidx (v : IVec S16384x1 32) : IVec S16384x1x1 32 :=
  shapeCast S16384x1x1
    (select (cmpi .slt v (broadcastInDim S16384x1 ![] bcast_S_S16384x1 (constantI S_ 32 0#32)))
      (addi v (broadcastInDim S16384x1 ![] bcast_S_S16384x1 (constantI S_ 32 8#32))) v)
    shapeCasts_S16384x1_S16384x1x1

attribute [local irreducible] Host.reduce Host.gather in
/-- The gathered column as the fourth stretch leaves it: where the start index is in range the running count less one
    at (row, start index), else the least word. -/
theorem v13_W4 : rd (W4 W) main_v13
    = select
        (Host.reduce IntOp.andi
          (andi (cmpi .sge (nidx (rd (W3 W) main_v12)) (broadcastInDim S16384x1x1 ![] bcast_S_S16384x1x1 (constantI S_ 32 0#32)))
            (cmpi .sle (nidx (rd (W3 W) main_v12))
              (broadcastInDim S16384x1x1 ![0, 1, 2] bcast_S1x1x1_S16384x1x1_0_1_2
                (broadcastInDim S1x1x1 ![2] bcast_S1_S1x1x1_2 (constantI S1 32 7#32)))))
          (constantI S_ 1 1#1) reducesTo_S16384x1x1_S16384x1_d2 h_S_)
        (Host.gather gather_S16384x8_S16384x1x1_S16384x1_n_1_0_0_1_2_11 (rd (W3 W) main_v11) (nidx (rd (W3 W) main_v12)))
        (broadcastInDim S16384x1 ![] bcast_S_S16384x1 (constantI S_ 32 2147483648#32)) := by
  unfold rd
  rw [W4_eq]
  simp only [hostOps0_3]
  after_results
  simp only [StableHlo.TRef.toBuf, StableHlo.TRef.ofBuf, cast_cast, cast_eq]
  rfl

/-- The start index of row t is the row's label, moved up by the number of experts when negative. -/
theorem nidx_apply (v : IVec S16384x1 32) (t : Fin 16384) :
    nidx v (ix3 t (0 : Fin 1) (0 : Fin 1))
      = Scalar.select (IntOp.cmpi .slt (v (ix2 t (0 : Fin 1))) 0#32) (IntOp.addi (v (ix2 t (0 : Fin 1))) 8#32)
          (v (ix2 t (0 : Fin 1))) := by
  unfold nidx
  refine (shapeCast_apply _ _ (ix3 t (0 : Fin 1) (0 : Fin 1)) (ix2 t (0 : Fin 1)) ?_).trans rfl
  rw [Shape.rowMajor_val_two, Shape.rowMajor_val_three]
  show t.val * 1 + 0 = (t.val * 1 + 0) * 1 + 0
  omega

/-- A label below the number of experts is not negative: it is its own start index. -/
theorem norm_label (x : BitVec 32) (hx : x.toNat < 8) :
    Scalar.select (IntOp.cmpi .slt x 0#32) (IntOp.addi x 8#32) x = x := by
  have h0 : ¬ IntOp.cmpi .slt x 0#32 = 1#1 := by
    rw [StableHlo.Predicate.slt_iff_toNat (by omega) (by decide)]
    show ¬ x.toNat < 0
    omega
  rw [eq_zero_of_ne_one h0, select_zero]

/-- Such a label passes both range tests of the gather's mask. -/
theorem inrange_bits (x : BitVec 32) (hx : x.toNat < 8) :
    IntOp.andi (IntOp.cmpi .sge x 0#32) (IntOp.cmpi .sle x 7#32) = 1#1 := by
  have h1 : IntOp.cmpi .sge x 0#32 = 1#1 :=
    (StableHlo.Predicate.sge_iff_toNat (by omega) (by decide)).2 (by show 0 ≤ x.toNat; omega)
  have h2 : IntOp.cmpi .sle x 7#32 = 1#1 :=
    (StableHlo.Predicate.sle_iff_toNat (by omega) (by decide)).2 (by show x.toNat ≤ 7; omega)
  rw [h1, h2]
  rfl

/-- A fold over the one coordinate of an axis of extent one is the operation applied once. -/
theorem fold_univ_one {α : Type} {n : ℕ} (hn : n = 1) (op : α → α → α) [Std.Commutative op] [Std.Associative op] (b : α)
    (f : Fin n → α) : (Finset.univ : Finset (Fin n)).fold op b f = op (f ⟨0, by omega⟩) b := by
  subst hn
  rw [Finset.univ_unique, Finset.fold_singleton]
  rfl

/-- Reducing a one-bit mask with "and" along a last axis of extent one returns the mask's entry. -/
theorem mask_apply (m : IVec S16384x1x1 1) (t : Fin 16384) :
    Host.reduce IntOp.andi m (constantI S_ 1 1#1) reducesTo_S16384x1x1_S16384x1_d2 h_S_ (ix2 t (0 : Fin 1))
      = m (ix3 t (0 : Fin 1) (0 : Fin 1)) := by
  have hr : S16384x1x1.Reduces [2] S16384x1 := by decide
  have hl : ∀ q : Fin (S16384x1x1.size 2), hr.lift (ix2 t (0 : Fin 1)) q = ix3 t (0 : Fin 1) (0 : Fin 1) := by
    intro q
    funext c
    apply Fin.ext
    rw [hr.lift_val]
    unfold Shape.Reduces.liftVal
    match c with
    | ⟨0, _⟩ => rfl
    | ⟨1, _⟩ => rfl
    | ⟨2, _⟩ =>
      have hq : q.val < 1 := q.isLt
      show q.val = 0
      omega
  rw [Host.reduce_eq_fold_single IntOp.andi m _ reducesTo_S16384x1x1_S16384x1_d2 hr h_S_ (ix2 t (0 : Fin 1)),
    fold_univ_one (rfl : S16384x1x1.size 2 = 1), Function.comp_apply, hl]
  generalize m (ix3 t (0 : Fin 1) (0 : Fin 1)) = a
  rcases BitVec.eq_zero_or_eq_one a with rfl | rfl <;> rfl

/-- The batched gather read at row t: the operand's row t at the row's start index, read signed and clamped to the
    row; column c when that is c. -/
theorem gather_row (x : IVec S16384x8 32) (idx : IVec S16384x1x1 32) (t : Fin 16384) (c : Fin 8)
    (hc : min (idx (ix3 t (0 : Fin 1) (0 : Fin 1))).toInt.toNat 7 = c.val) :
    Host.gather gather_S16384x8_S16384x1x1_S16384x1_n_1_0_0_1_2_11 x idx (ix2 t (0 : Fin 1)) = x (ix2 t c) := by
  unfold Host.gather
  refine congrArg x (funext fun a => Fin.ext ?_)
  have hsi : ∀ q : Fin gather_S16384x8_S16384x1x1_S16384x1_n_1_0_0_1_2_11.startIndexMap.length,
      gather_S16384x8_S16384x1x1_S16384x1_n_1_0_0_1_2_11.siIdx (ix2 t (0 : Fin 1)) q = ix3 t (0 : Fin 1) (0 : Fin 1) := by
    intro q
    funext b
    apply Fin.ext
    match b with
    | ⟨0, _⟩ => rfl
    | ⟨1, _⟩ => rfl
    | ⟨2, _⟩ =>
      have hq : q.val < 1 := q.isLt
      show q.val = 0
      omega
  match a with
  | ⟨0, h0⟩ =>
    -- the row axis is the batching axis: the result's row
    have hb : (⟨0, h0⟩ : Fin S16384x8.rank) ∈ gather_S16384x8_S16384x1x1_S16384x1_n_1_0_0_1_2_11.operandBatchingDims :=
      List.mem_singleton.mpr rfl
    show gather_S16384x8_S16384x1x1_S16384x1_n_1_0_0_1_2_11.start (ix2 t (0 : Fin 1)) idx ⟨0, h0⟩
      + gather_S16384x8_S16384x1x1_S16384x1_n_1_0_0_1_2_11.batchCoord (ix2 t (0 : Fin 1)) ⟨0, h0⟩
      + gather_S16384x8_S16384x1x1_S16384x1_n_1_0_0_1_2_11.offCoord (ix2 t (0 : Fin 1)) ⟨0, h0⟩ = t.val
    rw [GatherDims.start_batching _ _ _ _ hb,
      GatherDims.offCoord_eq_zero _ _ _ (fun h => ((GatherDims.mem_sKept _ _).1 h).2 hb)]
    have hbc : gather_S16384x8_S16384x1x1_S16384x1_n_1_0_0_1_2_11.batchCoord (ix2 t (0 : Fin 1)) ⟨0, h0⟩ = t.val := rfl
    rw [hbc]
    omega
  | ⟨1, h1⟩ =>
    -- the column axis is collapsed and start-indexed: the clamped start index
    have hm : (⟨1, h1⟩ : Fin S16384x8.rank) ∈ gather_S16384x8_S16384x1x1_S16384x1_n_1_0_0_1_2_11.startIndexMap :=
      List.mem_singleton.mpr rfl
    have hcl : (⟨1, h1⟩ : Fin S16384x8.rank) ∈ gather_S16384x8_S16384x1x1_S16384x1_n_1_0_0_1_2_11.collapsedSliceDims :=
      List.mem_singleton.mpr rfl
    have hnb : (⟨1, h1⟩ : Fin S16384x8.rank) ∉ gather_S16384x8_S16384x1x1_S16384x1_n_1_0_0_1_2_11.operandBatchingDims :=
      fun h => Nat.one_ne_zero (congrArg Fin.val (List.mem_singleton.mp h))
    show gather_S16384x8_S16384x1x1_S16384x1_n_1_0_0_1_2_11.start (ix2 t (0 : Fin 1)) idx ⟨1, h1⟩
      + gather_S16384x8_S16384x1x1_S16384x1_n_1_0_0_1_2_11.batchCoord (ix2 t (0 : Fin 1)) ⟨1, h1⟩
      + gather_S16384x8_S16384x1x1_S16384x1_n_1_0_0_1_2_11.offCoord (ix2 t (0 : Fin 1)) ⟨1, h1⟩ = c.val
    rw [GatherDims.batchCoord_eq_zero _ _ _ hnb,
      GatherDims.offCoord_eq_zero _ _ _ (fun h => ((GatherDims.mem_sKept _ _).1 h).1 hcl)]
    unfold GatherDims.start
    rw [dif_pos hm, hsi]
    show min (idx (ix3 t (0 : Fin 1) (0 : Fin 1))).toInt.toNat 7 + 0 + 0 = c.val
    omega

/-- A positive word less one. -/
theorem toNat_sub_one (a : BitVec 32) (h : 1 ≤ a.toNat) : (IntOp.subi a 1#32).toNat = a.toNat - 1 := by
  have hlt := a.isLt
  show (a - 1#32).toNat = _
  simp only [BitVec.toNat_sub, BitVec.toNat_ofNat]
  omega

/-- Each token's rank among the tokens of its own expert, as the host computes it, when every label is an expert. -/
theorem ranks (hlab : ∀ t : Fin 16384, (rd W main_arg2 (ix1 t)).toNat = e t) (he : ∀ t, e t < 8) (t : Fin 16384) :
    (rd (W4 W) main_v13 (ix2 t (0 : Fin 1))).toNat = Route.rank e t := by
  have hx : (rd W main_arg2 (ix1 t)).toNat < 8 := by
    rw [hlab t]
    exact he t
  have hn : nidx (rd (W3 W) main_v12) (ix3 t (0 : Fin 1) (0 : Fin 1)) = rd W main_arg2 (ix1 t) := by
    rw [nidx_apply, v12_apply]
    exact norm_label _ hx
  have hm : andi (cmpi .sge (nidx (rd (W3 W) main_v12)) (broadcastInDim S16384x1x1 ![] bcast_S_S16384x1x1 (constantI S_ 32 0#32)))
      (cmpi .sle (nidx (rd (W3 W) main_v12))
        (broadcastInDim S16384x1x1 ![0, 1, 2] bcast_S1x1x1_S16384x1x1_0_1_2
          (broadcastInDim S1x1x1 ![2] bcast_S1_S1x1x1_2 (constantI S1 32 7#32)))) (ix3 t (0 : Fin 1) (0 : Fin 1)) = 1#1 := by
    show IntOp.andi (IntOp.cmpi .sge (nidx (rd (W3 W) main_v12) (ix3 t (0 : Fin 1) (0 : Fin 1))) 0#32)
      (IntOp.cmpi .sle (nidx (rd (W3 W) main_v12) (ix3 t (0 : Fin 1) (0 : Fin 1))) 7#32) = 1#1
    rw [hn]
    exact inrange_bits _ hx
  have hcol : min (nidx (rd (W3 W) main_v12) (ix3 t (0 : Fin 1) (0 : Fin 1))).toInt.toNat 7 = (⟨e t, he t⟩ : Fin 8).val := by
    rw [hn, StableHlo.Predicate.toInt_eq_toNat_of_lt (by omega), Int.toNat_natCast, hlab t]
    show min (e t) 7 = e t
    have := he t
    omega
  rw [v13_W4, select_apply, mask_apply, hm, select_one, gather_row _ _ t ⟨e t, he t⟩ hcol, v11_apply,
    toNat_sub_one _ (by rw [v7_toNat W e hlab]; exact Route.one_le_cum_self e t), v7_toNat W e hlab]
  rfl

end Cert.KernelIdeal.Stage1

end
-- ==== Proof.Stage2.lean ====
/-
  The padded regions.  Each expert's count rounded up to whole tiles of 512 rows, the running sum of those sizes shifted
  by one (where each expert's region starts), and the number of tiles in use.
-/
import proofs.«412671_j9363028706406_3_alg».proof.Proof.Chain
import proofs.«412671_j9363028706406_3_alg».proof.Proof.Route
import proofs.«412671_j9363028706406_3_alg».proof.Proof.LibPrefixSum
import Idealize.ShloMosaic.Lib.ValueIdx
import Idealize.ShloMosaic.Lib.StableHlo.Predicate
import Idealize.ShloMosaic.Lib.Pipeline.Value
import Mathlib.Algebra.BigOperators.Fin

noncomputable section

open scoped BigOperators

namespace Cert.KernelIdeal.Stage2

open Idealize.ShloMosaic Idealize.ShloMosaic.TcCoe Idealize.ShloMosaic.ValueIdx Cert.KernelIdeal Cert.KernelIdeal.Gen Cert.KernelIdeal.Chain

variable {F : FTy → Type} [FloatOps F]
variable (W : Valuation τ sig (Elt F)) (e : Fin 16384 → ℕ)

/-! ## Words -/

/-- A small word divided by 512: signed division meets no corner and is the quotient of the values. -/
theorem divsi_512 (a : BitVec 32) (ha : a.toNat < 2 ^ 31) : (IntOp.divsi .host a 512#32).toNat = a.toNat / 512 := by
  have hcorner : ¬ IntOp.SDivCorner a 512#32 := by
    intro hc; rcases hc with hc | ⟨_, hc⟩ <;> exact absurd hc (by decide)
  have hm : a.msb = false := BitVec.msb_eq_false_iff_two_mul_lt.mpr (by omega)
  simp only [IntOp.divsi, if_neg hcorner, BitVec.sdiv_eq, hm, show (512#32 : BitVec 32).msb = false from by decide, BitVec.udiv_eq,
    BitVec.toNat_udiv, BitVec.toNat_ofNat]

/-- The sign of a word as a word: 0, 1 or -1. -/
abbrev sg (x : BitVec 32) : BitVec 32 := if x = 0 then 0 else if x.msb then -1 else 1

/-- Floor division by 512 as the host spells it (the truncating quotient, lowered by one when the signs differ and the
    remainder is not zero) is, on a small non-negative word, the quotient of the values. -/
theorem floordiv_512 (a : BitVec 32) (ha : a.toNat < 2 ^ 31) :
    (Scalar.select
      (IntOp.andi (IntOp.cmpi .ne (sg a) (sg 512#32)) (IntOp.cmpi .ne (IntOp.remsi .host a 512#32) 0#32))
      (IntOp.subi (IntOp.divsi .host a 512#32) 1#32) (IntOp.divsi .host a 512#32)).toNat = a.toNat / 512 := by
  have hm : a.msb = false := BitVec.msb_eq_false_iff_two_mul_lt.mpr (by omega)
  have hc : IntOp.andi (IntOp.cmpi .ne (sg a) (sg 512#32)) (IntOp.cmpi .ne (IntOp.remsi .host a 512#32) 0#32) = 0#1 := by
    by_cases h0 : a = 0
    · subst h0
      decide
    · have h1 : sg a = 1#32 := by
        show (if a = 0 then 0 else if a.msb then -1 else 1) = 1#32
        rw [if_neg h0, hm]
        rfl
      rw [h1, show IntOp.cmpi .ne (1#32) (sg 512#32) = 0#1 from by decide]
      exact BitVec.zero_and
  rw [hc]
  unfold Scalar.select
  rw [if_neg (by decide)]
  exact divsi_512 a ha

/-- A small count plus 512, less one. -/
theorem add512_sub1_toNat (x : BitVec 32) (hx : x.toNat ≤ 16384) :
    (IntOp.subi (IntOp.addi x 512#32) 1#32).toNat = x.toNat + 511 := by
  show ((x + 512#32) - 1#32).toNat = _
  rw [BitVec.toNat_sub, BitVec.toNat_add]
  simp only [BitVec.toNat_ofNat, Nat.reducePow, Nat.reduceMod]
  omega

/-- A small tile count times 512. -/
theorem mul512_toNat (x : BitVec 32) (hx : x.toNat ≤ 16384) : (IntOp.muli x 512#32).toNat = x.toNat * 512 := by
  show (x * 512#32).toNat = _
  rw [BitVec.toNat_mul]
  simp only [BitVec.toNat_ofNat, Nat.reducePow, Nat.reduceMod]
  omega

/-! ## Sums -/

/-- A sum over the positions of a vector up to and including position k is the sum over 0 … k. -/
theorem sum_filter_le {n : ℕ} (f : ℕ → ℕ) (k : Fin n) :
    ∑ j ∈ Finset.univ.filter (fun j : Fin n => j.val ≤ k.val), f j.val = ∑ j ∈ Finset.range (k.val + 1), f j := by
  rw [Finset.sum_filter, Fin.sum_univ_eq_sum_range (fun j => if j ≤ k.val then f j else 0) n, ← Finset.sum_filter]
  congr 1
  ext j
  have hk := k.isLt
  simp only [Finset.mem_filter, Finset.mem_range]
  omega

/-! ## Typed references -/

/-- Contents moved to a typed reference's buffer and back are the contents. -/
theorem ofBuf_toBuf {Val : EltTy → Type} {T : BufTy} (x : StableHlo.TRef sig T) (v : T.Contents Val) :
    x.ofBuf (x.toBuf v) = v := by
  obtain ⟨r, h, h2, h3⟩ := x
  subst h
  rfl

/-! ## What each stretch leaves, buffer by buffer -/

/-- After stretch 5 the ranks are a vector: the column, reshaped. -/
theorem v14_W5 : (rd (W5 W) main_v14 : S16384.Idx → BitVec 32)
    = shapeCast S16384 (rd (W4 W) main_v13 : S16384x1.Idx → BitVec 32) shapeCasts_S16384x1_S16384 := by
  unfold rd
  rw [W5_eq]
  simp only [hostOps0_4]
  after_results
  rfl

/-- After stretch 5, the rounding-up numerator: the count plus 512, less one. -/
theorem v18_W5 : (rd (W5 W) main_v18 : S8.Idx → BitVec 32)
    = subi (addi (rd (W4 W) main_v9 : S8.Idx → BitVec 32) (broadcastInDim S8 ![] bcast_S_S8 (constantI S_ 32 512#32)))
        (broadcastInDim S8 ![] bcast_S_S8 (constantI S_ 32 1#32)) := by
  unfold rd
  rw [W5_eq]
  simp only [hostOps0_4]
  after_results

/-- After stretch 5, the tile height. -/
theorem c2_W5 : (rd (W5 W) main_c_2 : S_.Idx → BitVec 32) = constantI S_ 32 512#32 := by
  unfold rd
  rw [W5_eq]
  simp only [hostOps0_4]
  after_results

/-- After stretch 6: the floor division of the numerator by the tile height, as the host spells it. -/
theorem v19_W6 : (rd (W6 W) main_v19 : S8.Idx → BitVec 32)
    = select
        (andi
          (cmpi .ne (signi (rd (W5 W) main_v18 : S8.Idx → BitVec 32))
            (broadcastInDim S8 ![] bcast_S_S8 (signi (rd (W5 W) main_c_2 : S_.Idx → BitVec 32))))
          (cmpi .ne
            (Host.remsi (rd (W5 W) main_v18 : S8.Idx → BitVec 32)
              (broadcastInDim S8 ![] bcast_S_S8 (rd (W5 W) main_c_2 : S_.Idx → BitVec 32)))
            (broadcastInDim S8 ![] bcast_S_S8 (constantI S_ 32 0#32))))
        (subi
          (Host.divsi (rd (W5 W) main_v18 : S8.Idx → BitVec 32)
            (broadcastInDim S8 ![] bcast_S_S8 (rd (W5 W) main_c_2 : S_.Idx → BitVec 32)))
          (broadcastInDim S8 ![] bcast_S_S8 (constantI S_ 32 1#32)))
        (Host.divsi (rd (W5 W) main_v18 : S8.Idx → BitVec 32)
          (broadcastInDim S8 ![] bcast_S_S8 (rd (W5 W) main_c_2 : S_.Idx → BitVec 32))) := by
  unfold rd
  rw [W6_eq]
  simp only [hostOps0_5]
  after_results
  simp only [ofBuf_toBuf]
  rfl

/-- The same at one expert, the tile height read as the word 512. -/
theorem v19_at (k : Fin 8) : (rd (W6 W) main_v19 : S8.Idx → BitVec 32) (ix1 k)
    = Scalar.select
        (IntOp.andi (IntOp.cmpi .ne (sg ((rd (W5 W) main_v18 : S8.Idx → BitVec 32) (ix1 k))) (sg 512#32))
          (IntOp.cmpi .ne (IntOp.remsi .host ((rd (W5 W) main_v18 : S8.Idx → BitVec 32) (ix1 k)) 512#32) 0#32))
        (IntOp.subi (IntOp.divsi .host ((rd (W5 W) main_v18 : S8.Idx → BitVec 32) (ix1 k)) 512#32) 1#32)
        (IntOp.divsi .host ((rd (W5 W) main_v18 : S8.Idx → BitVec 32) (ix1 k)) 512#32) := by
  rw [v19_W6, c2_W5]
  rfl

/-- After stretch 7, the padded sizes: the tile counts times the tile height. -/
theorem v21_W7 : (rd (W7 W) main_v21 : S8.Idx → BitVec 32)
    = muli (rd (W6 W) main_v19 : S8.Idx → BitVec 32) (broadcastInDim S8 ![] bcast_S_S8 (constantI S_ 32 512#32)) := by
  unfold rd
  rw [W7_eq]
  simp only [hostOps0_6]
  after_results

/-- After stretch 7, the one-entry vector holding zero. -/
theorem v22_W7 : (rd (W7 W) main_v22 : S1.Idx → BitVec 32) = broadcastInDim S1 ![] bcast_S_S1 (constantI S_ 32 0#32) := by
  unfold rd
  rw [W7_eq]
  simp only [hostOps0_6]
  after_results

/-- After stretch 8, the running sum of the padded sizes: the window sum over eight cells padded by seven in front. -/
theorem v23_W8 : (rd (W8 W) main_v23 : S8.Idx → BitVec 32)
    = Host.reduceWindow IntOp.addi ![8] ![1] ![7] ![0] (rd (W7 W) main_v21 : S8.Idx → BitVec 32)
        (broadcastInDim S_ ![] bcast_S_S_ (constantI S_ 32 0#32)) reduceWindows_S8_S8_w8s1p7_0 h_S_ := by
  unfold rd
  rw [W8_eq]
  simp only [hostOps0_7]
  after_results
  simp only [ofBuf_toBuf]
  refine (cast_eq _ _).trans ?_
  exact congrArg (fun x : S8.Idx → BitVec 32 => Host.reduceWindow IntOp.addi ![8] ![1] ![7] ![0] x
    (broadcastInDim S_ ![] bcast_S_S_ (constantI S_ 32 0#32)) reduceWindows_S8_S8_w8s1p7_0 h_S_) (cast_eq _ _)

theorem v21_W8 : rd (W8 W) main_v21 = rd (W7 W) main_v21 :=
  kept_of (hostOps0_7 (F := F)) (W7 W) main_v21 (by simp only [hostOps0_7]; not_written)

theorem v22_W8 : rd (W8 W) main_v22 = rd (W7 W) main_v22 :=
  kept_of (hostOps0_7 (F := F)) (W7 W) main_v22 (by simp only [hostOps0_7]; not_written)

/-- After stretch 9, the starts: the zero followed by the running sums, its first eight entries. -/
theorem v25_W9 : (rd (W9 W) main_v25 : S8.Idx → BitVec 32)
    = extractStridedSlice S8 ![0]
        (concatenate S9 0 [⟨S1, (rd (W8 W) main_v22 : S1.Idx → BitVec 32)⟩, ⟨S8, (rd (W8 W) main_v23 : S8.Idx → BitVec 32)⟩]
          concatenates_S1_S8_S9_d0) slices_S9_S8_0 := by
  unfold rd
  rw [W9_eq]
  simp only [hostOps0_8]
  after_results

/-- After stretch 9, the total: the sum of the padded sizes. -/
theorem v26_W9 : (rd (W9 W) main_v26 : S_.Idx → BitVec 32)
    = Host.reduce IntOp.addi (rd (W8 W) main_v21 : S8.Idx → BitVec 32) (constantI S_ 32 0#32) reducesTo_S8_S_d0 h_S_ := by
  unfold rd
  rw [W9_eq]
  simp only [hostOps0_8]
  after_results

/-- After stretch 9, the tile height again. -/
theorem c6_W9 : (rd (W9 W) main_c_6 : S_.Idx → BitVec 32) = constantI S_ 32 512#32 := by
  unfold rd
  rw [W9_eq]
  simp only [hostOps0_8]
  after_results

/-- After stretch 10: the floor division of the total by the tile height, as the host spells it. -/
theorem v27_W10 : (rd (W10 W) main_v27 : S_.Idx → BitVec 32)
    = select
        (andi
          (cmpi .ne (signi (rd (W9 W) main_v26 : S_.Idx → BitVec 32)) (signi (rd (W9 W) main_c_6 : S_.Idx → BitVec 32)))
          (cmpi .ne (Host.remsi (rd (W9 W) main_v26 : S_.Idx → BitVec 32) (rd (W9 W) main_c_6 : S_.Idx → BitVec 32))
            (constantI S_ 32 0#32)))
        (subi (Host.divsi (rd (W9 W) main_v26 : S_.Idx → BitVec 32) (rd (W9 W) main_c_6 : S_.Idx → BitVec 32))
          (constantI S_ 32 1#32))
        (Host.divsi (rd (W9 W) main_v26 : S_.Idx → BitVec 32) (rd (W9 W) main_c_6 : S_.Idx → BitVec 32)) := by
  unfold rd
  rw [W10_eq]
  simp only [hostOps0_9]
  after_results
  simp only [ofBuf_toBuf]
  rfl

/-- The same at the scalar's one index, the tile height read as the word 512. -/
theorem v27_at : (rd (W10 W) main_v27 : S_.Idx → BitVec 32) ValueIdx.ix0
    = Scalar.select
        (IntOp.andi (IntOp.cmpi .ne (sg ((rd (W9 W) main_v26 : S_.Idx → BitVec 32) ValueIdx.ix0)) (sg 512#32))
          (IntOp.cmpi .ne (IntOp.remsi .host ((rd (W9 W) main_v26 : S_.Idx → BitVec 32) ValueIdx.ix0) 512#32) 0#32))
        (IntOp.subi (IntOp.divsi .host ((rd (W9 W) main_v26 : S_.Idx → BitVec 32) ValueIdx.ix0) 512#32) 1#32)
        (IntOp.divsi .host ((rd (W9 W) main_v26 : S_.Idx → BitVec 32) ValueIdx.ix0) 512#32) := by
  rw [v27_W10, c6_W9]
  rfl

theorem v25_W10 : rd (W10 W) main_v25 = rd (W9 W) main_v25 :=
  kept_of (hostOps0_9 (F := F)) (W9 W) main_v25 (by simp only [hostOps0_9]; not_written)

/-! ## The values -/

/-- The numerator at expert k: the count plus 511. -/
theorem v18_toNat (h9 : ∀ k : Fin 8, (rd (W4 W) main_v9 (ix1 k)).toNat = Route.cnt e k.val) (k : Fin 8) :
    ((rd (W5 W) main_v18 : S8.Idx → BitVec 32) (ix1 k)).toNat = Route.cnt e k.val + 511 := by
  have hc := Route.cnt_le e k.val
  have h : ((rd (W4 W) main_v9 : S8.Idx → BitVec 32) (ix1 k)).toNat = Route.cnt e k.val := h9 k
  rw [v18_W5]
  refine (add512_sub1_toNat ((rd (W4 W) main_v9 : S8.Idx → BitVec 32) (ix1 k)) (by rw [h]; exact hc)).trans ?_
  rw [h]

/-- The tile count of expert k. -/
theorem v19_toNat (h9 : ∀ k : Fin 8, (rd (W4 W) main_v9 (ix1 k)).toNat = Route.cnt e k.val) (k : Fin 8) :
    ((rd (W6 W) main_v19 : S8.Idx → BitVec 32) (ix1 k)).toNat = (Route.cnt e k.val + 511) / 512 := by
  have h18 := v18_toNat W e h9 k
  have hc := Route.cnt_le e k.val
  rw [v19_at, floordiv_512 _ (by rw [h18]; omega), h18]

/-- The padded size of expert k's region. -/
theorem v21_toNat (h9 : ∀ k : Fin 8, (rd (W4 W) main_v9 (ix1 k)).toNat = Route.cnt e k.val) (k : Fin 8) :
    ((rd (W7 W) main_v21 : S8.Idx → BitVec 32) (ix1 k)).toNat = Route.pc e k.val := by
  have h19 := v19_toNat W e h9 k
  have hc := Route.cnt_le e k.val
  rw [v21_W7]
  refine (mul512_toNat ((rd (W6 W) main_v19 : S8.Idx → BitVec 32) (ix1 k)) (by rw [h19]; omega)).trans ?_
  rw [h19]
  rfl

/-- The padded sizes add up to the total. -/
theorem sum_v21 (h9 : ∀ k : Fin 8, (rd (W4 W) main_v9 (ix1 k)).toNat = Route.cnt e k.val) :
    ∑ j : Fin 8, ((rd (W7 W) main_v21 : S8.Idx → BitVec 32) (ix1 j)).toNat = Route.ps e 8 := by
  rw [Finset.sum_congr rfl (fun j _ => v21_toNat W e h9 j)]
  exact Fin.sum_univ_eq_sum_range (fun j => Route.pc e j) 8

/-- The running sum at expert k: the padded sizes of experts 0 … k. -/
theorem v23_toNat (he : ∀ t, e t < 8) (h9 : ∀ k : Fin 8, (rd (W4 W) main_v9 (ix1 k)).toNat = Route.cnt e k.val) (k : Fin 8) :
    ((rd (W8 W) main_v23 : S8.Idx → BitVec 32) (ix1 k)).toNat = Route.ps e (k.val + 1) := by
  have hsum : ∑ j : Fin 8, ((rd (W7 W) main_v21 : S8.Idx → BitVec 32) (ix1 j)).toNat < 2 ^ 32 := by
    rw [sum_v21 W e h9]
    have := Route.ps8_le e he
    omega
  rw [v23_W8, Cert.PrefixSum.cumsum_vec_toNat (n := 8) (lo := 7) rfl _ _ reduceWindows_S8_S8_w8s1p7_0 h_S_ rfl k hsum,
    Finset.sum_congr rfl (fun j _ => v21_toNat W e h9 j), sum_filter_le (Route.pc e) k]
  rfl

/-- The first start is zero. -/
theorem v25_zero : (rd (W9 W) main_v25 : S8.Idx → BitVec 32) (ix1 (0 : Fin 8)) = 0#32 := by
  rw [v25_W9]
  refine (extractStridedSlice_apply (![0] : Fin 1 → ℕ) _ slices_S9_S8_0 (ix1 (0 : Fin 8)) (ix1 (0 : Fin 9))
    (fun a => by match a with | ⟨0, _⟩ => rfl)).trans ?_
  refine (concatenate_pair_apply_left (t := S9) (s₁ := S1) (s₂ := S8) _ _ _ concatenates_S1_S8_S9_d0 _ rfl
    (ix1 (0 : Fin 1)) (fun b => by match b with | ⟨0, _⟩ => rfl)).trans ?_
  rw [v22_W8, v22_W7]
  rfl

/-- Every later start is the running sum at the expert before. -/
theorem v25_succ (k : Fin 8) (hk : 0 < k.val) :
    (rd (W9 W) main_v25 : S8.Idx → BitVec 32) (ix1 k)
      = (rd (W8 W) main_v23 : S8.Idx → BitVec 32) (ix1 (⟨k.val - 1, by omega⟩ : Fin 8)) := by
  rw [v25_W9]
  refine (extractStridedSlice_apply (![0] : Fin 1 → ℕ) _ slices_S9_S8_0 (ix1 k) (ix1 (⟨k.val, by omega⟩ : Fin 9))
    (fun a => by match a with | ⟨0, _⟩ => exact (Nat.zero_add _).symm)).trans ?_
  refine concatenate_pair_apply_right (t := S9) (s₁ := S1) (s₂ := S8) _ _ _ concatenates_S1_S8_S9_d0 _ rfl rfl
    (ix1 (⟨k.val - 1, by omega⟩ : Fin 8)) (fun b hb => ?_) ?_
  · match b with
    | ⟨0, _⟩ => exact absurd rfl hb
  · show k.val - 1 + 1 = k.val
    omega

/-- Where each expert's region starts, as the host computes it. -/
theorem starts (he : ∀ t, e t < 8) (h9 : ∀ k : Fin 8, (rd (W4 W) main_v9 (ix1 k)).toNat = Route.cnt e k.val) (k : Fin 8) :
    (rd (W10 W) main_v25 (ix1 k)).toNat = Route.ps e k.val := by
  rw [v25_W10]
  by_cases hk : k.val = 0
  · have hk0 : k = 0 := Fin.ext hk
    subst hk0
    rw [v25_zero]
    show (0#32 : BitVec 32).toNat = Route.ps e 0
    unfold Route.ps
    rw [Finset.sum_range_zero]
    rfl
  · rw [v25_succ W k (by omega), v23_toNat W e he h9]
    show Route.ps e (k.val - 1 + 1) = Route.ps e k.val
    rw [Nat.sub_add_cancel (by omega)]

/-- The total, as the host computes it. -/
theorem v26_toNat (he : ∀ t, e t < 8) (h9 : ∀ k : Fin 8, (rd (W4 W) main_v9 (ix1 k)).toNat = Route.cnt e k.val) :
    ((rd (W9 W) main_v26 : S_.Idx → BitVec 32) ValueIdx.ix0).toNat = Route.ps e 8 := by
  have hsum : ∑ j : Fin 8, ((rd (W7 W) main_v21 : S8.Idx → BitVec 32) (ix1 j)).toNat < 2 ^ 32 := by
    rw [sum_v21 W e h9]
    have := Route.ps8_le e he
    omega
  rw [v26_W9, v21_W8, Cert.PrefixSum.reduce_add_vec_toNat (n := 8) _ _ reducesTo_S8_S_d0 h_S_ rfl hsum]
  exact sum_v21 W e h9

/-- The number of tiles in use, as the host computes it. -/
theorem tiles (he : ∀ t, e t < 8) (h9 : ∀ k : Fin 8, (rd (W4 W) main_v9 (ix1 k)).toNat = Route.cnt e k.val) :
    (rd (W10 W) main_v27 ValueIdx.ix0).toNat = Route.ps e 8 / 512 := by
  have h26 := v26_toNat W e he h9
  have h8 := Route.ps8_le e he
  rw [v27_at, floordiv_512 _ (by rw [h26]; omega), h26]

/-- The ranks, reshaped to a vector, are still there. -/
theorem ranks_fwd (t : Fin 16384) : rd (W10 W) main_v14 (ix1 t) = rd (W4 W) main_v13 (ix2 t (0 : Fin 1)) := by
  have k10 : rd (W10 W) main_v14 = rd (W9 W) main_v14 :=
    kept_of (hostOps0_9 (F := F)) (W9 W) main_v14 (by simp only [hostOps0_9]; not_written)
  have k9 : rd (W9 W) main_v14 = rd (W8 W) main_v14 :=
    kept_of (hostOps0_8 (F := F)) (W8 W) main_v14 (by simp only [hostOps0_8]; not_written)
  have k8 : rd (W8 W) main_v14 = rd (W7 W) main_v14 :=
    kept_of (hostOps0_7 (F := F)) (W7 W) main_v14 (by simp only [hostOps0_7]; not_written)
  have k7 : rd (W7 W) main_v14 = rd (W6 W) main_v14 :=
    kept_of (hostOps0_6 (F := F)) (W6 W) main_v14 (by simp only [hostOps0_6]; not_written)
  have k6 : rd (W6 W) main_v14 = rd (W5 W) main_v14 :=
    kept_of (hostOps0_5 (F := F)) (W5 W) main_v14 (by simp only [hostOps0_5]; not_written)
  rw [k10, k9, k8, k7, k6, v14_W5]
  exact shapeCast_apply _ shapeCasts_S16384x1_S16384 (ix1 t) (ix2 t (0 : Fin 1))
    (by rw [Shape.rowMajor_val_two, Shape.rowMajor_val_one]; show t.val * 1 + 0 = t.val; omega)

end Cert.KernelIdeal.Stage2

end
-- ==== Proof.LibScatterSet.lean ====
/-
  A scatter whose body returns the update (an overwrite), read at one index of its result: the fold over the
  update indices leaves at operand index `i` the update element of an update index landing on `i` when all such
  update indices carry the same element there, and the operand's own element when no update index lands on `i`.
  Where an update index lands is start plus window coordinate on every axis.
-/
import Idealize.ShloMosaic.Lib.StableHlo.Run

namespace Cert.Halo.ScatterSet

open Idealize.ShloMosaic

section Fold

variable {ι κ α : Type}

/-- A step function that overwrites: entry `n` lands on `g n` (if anywhere), puts `v n` there and keeps every
    other place. -/
structure Overwrites (g : ι → Option κ) (v : ι → α) (stp : (κ → α) → ι → κ → α) : Prop where
  of_ne : ∀ r n i', g n ≠ some i' → stp r n i' = r i'
  of_eq : ∀ r n i', g n = some i' → stp r n i' = v n

variable {g : ι → Option κ} {v : ι → α} {stp : (κ → α) → ι → κ → α}

/-- Where no entry of the list lands, the fold keeps what was there. -/
theorem foldl_miss (hs : Overwrites g v stp) (i' : κ) :
    ∀ (L : List ι) (r : κ → α), (∀ n ∈ L, g n ≠ some i') → L.foldl stp r i' = r i'
  | [], _, _ => rfl
  | a :: t, r, h => by
    rw [List.foldl_cons, foldl_miss hs i' t _ fun n hn => h n (List.mem_cons_of_mem _ hn),
      hs.of_ne r a i' (h a List.mem_cons_self)]

/-- Where some entry of the list lands and every entry landing there carries the value `c`, the fold leaves `c`. -/
theorem foldl_hit (hs : Overwrites g v stp) (i' : κ) (c : α) (hv : ∀ n, g n = some i' → v n = c) :
    ∀ (L : List ι) (r : κ → α), (∃ n ∈ L, g n = some i') → L.foldl stp r i' = c
  | [], _, h => by obtain ⟨n, hn, _⟩ := h; exact absurd hn List.not_mem_nil
  | a :: t, r, h => by
    rw [List.foldl_cons]
    by_cases ht : ∃ n ∈ t, g n = some i'
    · exact foldl_hit hs i' c hv t _ ht
    · have hmiss : ∀ n ∈ t, g n ≠ some i' := fun n hn e => ht ⟨n, hn, e⟩
      rw [foldl_miss hs i' t _ hmiss]
      obtain ⟨n, hn, hg⟩ := h
      rcases List.mem_cons.mp hn with rfl | hn'
      · rw [hs.of_eq r n i' hg]; exact hv n hg
      · exact absurd hg (hmiss n hn')

end Fold

section Scatter

variable {s si u : Shape} {α : Type} {w : Nat}

/-- The overwriting scatter's step: update position `n` in row-major order, put where it lands. -/
def scatStep (d : ScatterDims s si u) (idx : IVec si w) (upd : u.Idx → α) (r : s.Idx → α) (n : Fin u.numel) : s.Idx → α :=
  match d.resultIdx? (u.rowMajor.symm n) idx with
  | some i => fun i' => if i' = i then (fun _ b => b) (r i) (upd (u.rowMajor.symm n)) else r i'
  | none => r

/-- The overwriting scatter is the fold of that step over the update positions. -/
theorem scatter_eq_foldl (d : ScatterDims s si u) (x : s.Idx → α) (idx : IVec si w) (upd : u.Idx → α) :
    Host.scatter d (fun _ b => b) x idx upd = (List.finRange u.numel).foldl (scatStep d idx upd) x := rfl

theorem scatStep_overwrites (d : ScatterDims s si u) (idx : IVec si w) (upd : u.Idx → α) :
    Overwrites (fun n => d.resultIdx? (u.rowMajor.symm n) idx) (fun n => upd (u.rowMajor.symm n)) (scatStep d idx upd) where
  of_ne r n i' h := by
    unfold scatStep
    cases hg : d.resultIdx? (u.rowMajor.symm n) idx with
    | none => rfl
    | some i =>
      have hne : i' ≠ i := fun e => h (by rw [hg, e])
      exact if_neg hne
  of_eq r n i' h := by
    unfold scatStep
    have h' : d.resultIdx? (u.rowMajor.symm n) idx = some i' := h
    rw [h']
    exact if_pos rfl

/-- An operand index no update index lands on keeps the operand's element. -/
theorem scatter_miss (d : ScatterDims s si u) (x : s.Idx → α) (idx : IVec si w) (upd : u.Idx → α) (i : s.Idx)
    (h : ∀ j : u.Idx, d.resultIdx? j idx ≠ some i) : Host.scatter d (fun _ b => b) x idx upd i = x i := by
  rw [scatter_eq_foldl]
  exact foldl_miss (scatStep_overwrites d idx upd) i _ x fun n _ => h _

/-- An operand index update index `j₀` lands on, every update index landing there carrying `j₀`'s element, takes it. -/
theorem scatter_hit (d : ScatterDims s si u) (x : s.Idx → α) (idx : IVec si w) (upd : u.Idx → α) (i : s.Idx)
    (j₀ : u.Idx) (h₀ : d.resultIdx? j₀ idx = some i) (hu : ∀ j : u.Idx, d.resultIdx? j idx = some i → upd j = upd j₀) :
    Host.scatter d (fun _ b => b) x idx upd i = upd j₀ := by
  rw [scatter_eq_foldl]
  refine foldl_hit (scatStep_overwrites d idx upd) i (upd j₀) (fun n hn => hu _ hn) _ x
    ⟨u.rowMajor j₀, List.mem_finRange _, ?_⟩
  show d.resultIdx? (u.rowMajor.symm (u.rowMajor j₀)) idx = some i
  rw [Equiv.symm_apply_apply]; exact h₀

/-- Update index `j` lands on operand index `i` exactly when, on every axis, start plus window coordinate is `i`'s
    coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro e a
      have e' := Option.some.inj e
      have := congrArg (fun f : s.Idx => (f a).val) e'
      simp only at this
      have h0 := (h a).1
      omega
    · intro e
      refine congrArg some (funext fun a => Fin.ext ?_)
      have := e a
      show (d.start j idx a + (d.window j a : Int)).toNat = (i a).val
      omega
  · rename_i h
    constructor
    · intro e; exact absurd e (by simp)
    · intro e
      exact absurd (fun a => by have := e a; have := (i a).isLt; constructor <;> omega) h

end Scatter

end Cert.Halo.ScatterSet
-- ==== Proof.Stage3.lean ====
/-
  Each token's row in the padded buffer (its expert's start plus its rank), and the inverse table: for each row of the
  padded buffer, the token that lands there.
-/
import proofs.«412671_j9363028706406_3_alg».proof.Proof.Chain
import proofs.«412671_j9363028706406_3_alg».proof.Proof.Route
import proofs.«412671_j9363028706406_3_alg».proof.Proof.LibScatterSet
import Idealize.ShloMosaic.Lib.ValueIdx
import Idealize.ShloMosaic.Lib.StableHlo.Predicate

noncomputable section

namespace Cert.KernelIdeal.Stage3

open Idealize.ShloMosaic Idealize.ShloMosaic.TcCoe Idealize.ShloMosaic.ValueIdx Cert.KernelIdeal Cert.KernelIdeal.Gen Cert.KernelIdeal.Chain

variable {F : FTy → Type} [FloatOps F]
variable (W : Valuation τ sig (Elt F)) (e : Fin 16384 → ℕ)

/-! ## The buffers of the two stretches, each as one operation over the buffers it reads

Stated for the stretch run from any contents `V`, then read at the contents the chain names. -/

section Buffers

variable (V : Valuation τ sig (Elt F))

/-- The label, normalised: a negative label has 8 added. -/
theorem v33_of : rd (StableHlo.after (hostOps0_10 (F := F)) V) main_v33
    = select (cmpi .slt (rd V main_arg2) (broadcastInDim S16384 ![] bcast_S_S16384 (constantI S_ 32 0#32)))
        (addi (rd V main_arg2) (broadcastInDim S16384 ![] bcast_S_S16384 (constantI S_ 32 8#32)))
        (rd V main_arg2) := by
  unfold rd
  simp only [hostOps0_10]
  after_results

/-- Each token's row: its expert's start, gathered at the label, plus its rank. -/
theorem v36_of : rd (StableHlo.after (hostOps0_10 (F := F)) V) main_v36
    = addi (Host.gather gather_S8_S16384x1_S16384_n_0_n_n_0_1_1 (rd V main_v25)
        (broadcastInDim S16384x1 ![0] bcast_S16384_S16384x1_0 (rd (StableHlo.after (hostOps0_10 (F := F)) V) main_v33)))
        (rd V main_v14) := by
  unfold rd
  simp only [hostOps0_10]
  after_results_simp

/-- The row, normalised: a negative row has 20480 added. -/
theorem v43_of : rd (StableHlo.after (hostOps0_10 (F := F)) V) main_v43
    = select (cmpi .slt (rd (StableHlo.after (hostOps0_10 (F := F)) V) main_v36)
          (broadcastInDim S16384 ![] bcast_S_S16384 (constantI S_ 32 0#32)))
        (addi (rd (StableHlo.after (hostOps0_10 (F := F)) V) main_v36)
          (broadcastInDim S16384 ![] bcast_S_S16384 (constantI S_ 32 20480#32)))
        (rd (StableHlo.after (hostOps0_10 (F := F)) V) main_v36) := by
  unfold rd
  simp only [hostOps0_10]
  after_results_simp

/-- The inverse table: minus ones, overwritten at each token's row by the token's number. -/
theorem v45_of : rd (StableHlo.after (hostOps0_10 (F := F)) V) main_v45
    = Host.scatter scatter_S20480_S16384x1_S16384_n_0_0_1 (fun _ b => b)
        (broadcastInDim S20480 ![] bcast_S_S20480 (constantI S_ 32 4294967295#32))
        (broadcastInDim S16384x1 ![0] bcast_S16384_S16384x1_0 (rd (StableHlo.after (hostOps0_10 (F := F)) V) main_v43))
        (iotaInDim S16384 32 0) := by
  unfold rd
  simp only [hostOps0_10]
  after_results_simp

/-- Which rows of the inverse table hold a token: those whose entry is not negative. Only the last four operations
    of the stretch matter, the inverse table being read as the ones before them leave it. -/
theorem v47_of : rd (StableHlo.after (hostOps0_10 (F := F)) V) main_v47
    = cmpi .sge (rd (StableHlo.after (hostOps0_10 (F := F)) V) main_v45)
        (broadcastInDim S20480 ![] bcast_S_S20480 (constantI S_ 32 0#32)) := by
  unfold rd
  rw [← List.take_append_drop 23 (hostOps0_10 (F := F)), StableHlo.after_append]
  simp only [hostOps0_10, List.drop_succ_cons, List.drop_zero]
  after_results

/-- The number of tiles in use as a one-element table. -/
theorem v28_of : rd (StableHlo.after (hostOps0_10 (F := F)) V) main_v28
    = shapeCast S1 (rd V main_v27) shapeCasts_S_S1 := by
  unfold rd
  simp only [hostOps0_10]
  after_results
  rfl

/-- The inverse table with its empty rows set to zero. -/
theorem v48_of : rd (StableHlo.after (hostOps0_11 (F := F)) V) main_v48
    = select (rd V main_v47) (rd V main_v45) (broadcastInDim S20480 ![] bcast_S_S20480 (id (rd V main_c_13))) := by
  unfold rd
  simp only [hostOps0_11]
  after_results
  simp only [cast_eq]

end Buffers

theorem v33_eq : rd (W11 W) main_v33
    = select (cmpi .slt (rd (W10 W) main_arg2) (broadcastInDim S16384 ![] bcast_S_S16384 (constantI S_ 32 0#32)))
        (addi (rd (W10 W) main_arg2) (broadcastInDim S16384 ![] bcast_S_S16384 (constantI S_ 32 8#32)))
        (rd (W10 W) main_arg2) := v33_of (W10 W)
theorem v36_eq : rd (W11 W) main_v36
    = addi (Host.gather gather_S8_S16384x1_S16384_n_0_n_n_0_1_1 (rd (W10 W) main_v25)
        (broadcastInDim S16384x1 ![0] bcast_S16384_S16384x1_0 (rd (W11 W) main_v33))) (rd (W10 W) main_v14) :=
  v36_of (W10 W)
theorem v43_eq : rd (W11 W) main_v43
    = select (cmpi .slt (rd (W11 W) main_v36) (broadcastInDim S16384 ![] bcast_S_S16384 (constantI S_ 32 0#32)))
        (addi (rd (W11 W) main_v36) (broadcastInDim S16384 ![] bcast_S_S16384 (constantI S_ 32 20480#32)))
        (rd (W11 W) main_v36) := v43_of (W10 W)
theorem v45_eq : rd (W11 W) main_v45
    = Host.scatter scatter_S20480_S16384x1_S16384_n_0_0_1 (fun _ b => b)
        (broadcastInDim S20480 ![] bcast_S_S20480 (constantI S_ 32 4294967295#32))
        (broadcastInDim S16384x1 ![0] bcast_S16384_S16384x1_0 (rd (W11 W) main_v43)) (iotaInDim S16384 32 0) :=
  v45_of (W10 W)
theorem v47_eq : rd (W11 W) main_v47
    = cmpi .sge (rd (W11 W) main_v45) (broadcastInDim S20480 ![] bcast_S_S20480 (constantI S_ 32 0#32)) :=
  v47_of (W10 W)
theorem v28_eq : rd (W11 W) main_v28 = shapeCast S1 (rd (W10 W) main_v27) shapeCasts_S_S1 := v28_of (W10 W)
theorem v48_eq : rd (W12 W) main_v48
    = select (rd (W11 W) main_v47) (rd (W11 W) main_v45)
        (broadcastInDim S20480 ![] bcast_S_S20480 (id (rd (W11 W) main_c_13))) := v48_of (W11 W)

/-! ## The inverse table's scatter: where an update lands -/

/-- A rank-1 index written either way. -/
theorem ofFin_eq_ix1 {n : Nat} (k : Fin n) : Shape.Idx.ofFin k = ix1 k := by
  funext a; match a with | ⟨0, _⟩ => rfl

/-- The window of an update has no extent: every operand axis is an inserted one. -/
theorem sc_window (j : S16384.Idx) (a : Fin S20480.rank) :
    scatter_S20480_S16384x1_S16384_n_0_0_1.window j a = 0 := by
  unfold ScatterDims.window
  rw [dif_neg]
  have ha : a = 0 := Subsingleton.elim _ _
  subst ha
  decide

/-- The start of update `t` is the row index at `t`, read signed. -/
theorem sc_start (idx : IVec S16384x1 32) (t : Fin 16384) (a : Fin S20480.rank) :
    scatter_S20480_S16384x1_S16384_n_0_0_1.start (ix1 t) idx a = (idx (StableHlo.Predicate.ixP t)).toInt := by
  have ha : a = 0 := Subsingleton.elim _ _
  subst ha
  unfold ScatterDims.start
  rw [dif_pos (show (0 : Fin S20480.rank) ∈ scatter_S20480_S16384x1_S16384_n_0_0_1.scatterDimsToOperandDims from by decide)]
  congr 2
  funext b
  match b with
  | ⟨0, _⟩ =>
    unfold ScatterDims.siIdx
    rw [dif_neg (by show ¬ (0 : Nat) = scatter_S20480_S16384x1_S16384_n_0_0_1.indexVectorDim; decide)]
    unfold ScatterDims.siCoord
    apply Fin.ext
    simp only [Fin.val_cast]
    have e : ∀ X : Fin 1, ((ix1 t : S16384.Idx) X).val = t.val := fun X => by
      have hX : X = 0 := Subsingleton.elim _ _
      subst hX; rfl
    exact e _
  | ⟨1, _⟩ =>
    unfold ScatterDims.siIdx
    rw [dif_pos (by show (1 : Nat) = scatter_S20480_S16384x1_S16384_n_0_0_1.indexVectorDim; decide)]
    apply Fin.ext
    show List.idxOf (0 : Fin 1) scatter_S20480_S16384x1_S16384_n_0_0_1.scatterDimsToOperandDims = 0
    decide

/-! ## Words -/

/-- A non-negative word is left alone by "add `c` if negative". -/
theorem norm_nonneg (x c : BitVec 32) (hx : x.toNat < 2 ^ 31) :
    Scalar.select (IntOp.cmpi .slt x 0#32) (IntOp.addi x c) x = x := by
  have h : ¬ IntOp.cmpi .slt x 0#32 = 1#1 := by
    intro h'
    have h1 := (StableHlo.Predicate.slt_iff_toNat hx (by decide)).mp h'
    have h0 : (0#32 : BitVec 32).toNat = 0 := rfl
    omega
  rw [eq_zero_of_ne_one h, select_zero]

/-! ## Each token's row -/

section Rows

variable (hlab : ∀ t : Fin 16384, (rd W main_arg2 (ix1 t)).toNat = e t) (he : ∀ t, e t < 8)
  (h25 : ∀ k : Fin 8, (rd (W10 W) main_v25 (ix1 k)).toNat = Route.ps e k.val)
  (h14 : ∀ t : Fin 16384, (rd (W10 W) main_v14 (ix1 t)).toNat = Route.rank e t)

include hlab he in
/-- The normalised label is the label: it is not negative. -/
theorem lab_apply (t : Fin 16384) : rd (W11 W) main_v33 (ix1 t) = rd W main_arg2 (ix1 t) := by
  rw [v33_eq, arg2_W10]
  show Scalar.select (IntOp.cmpi .slt (rd W main_arg2 (ix1 t)) 0#32) (IntOp.addi (rd W main_arg2 (ix1 t)) 8#32)
    (rd W main_arg2 (ix1 t)) = _
  have h1 := hlab t
  have h2 := he t
  exact norm_nonneg _ _ (by omega)

include hlab he h25 in
/-- The gathered start is the start of the token's expert. -/
theorem start_apply (t : Fin 16384) :
    (Host.gather gather_S8_S16384x1_S16384_n_0_n_n_0_1_1 (rd (W10 W) main_v25)
      (broadcastInDim S16384x1 ![0] bcast_S16384_S16384x1_0 (rd (W11 W) main_v33)) (ix1 t)).toNat
      = Route.ps e (e t) := by
  have key : ∀ k : Fin 8, k.val = e t → (rd (W10 W) main_v25 (Shape.Idx.ofFin k)).toNat = Route.ps e (e t) := by
    intro k hk
    rw [ofFin_eq_ix1, h25 k, hk]
  rw [← ofFin_eq_ix1, StableHlo.Predicate.gather_take _ rfl rfl rfl rfl _ _ t (by decide)]
  apply key
  have h1 := hlab t
  have h2 := he t
  have hi : (rd W main_arg2 (ix1 t)).toInt = (e t : Int) := by
    rw [StableHlo.Predicate.toInt_eq_toNat_of_lt (by omega), h1]
  have hb : broadcastInDim S16384x1 ![0] bcast_S16384_S16384x1_0 (rd (W11 W) main_v33) (StableHlo.Predicate.ixP t)
      = rd W main_arg2 (ix1 t) := by
    rw [StableHlo.Predicate.bcast_col1, ofFin_eq_ix1, lab_apply W e hlab he t]
  show min (broadcastInDim S16384x1 ![0] bcast_S16384_S16384x1_0 (rd (W11 W) main_v33)
    (StableHlo.Predicate.ixP t)).toInt.toNat (8 - 1) = e t
  rw [hb, hi]
  omega

include hlab he h25 h14 in
/-- The row is the token's position, and the sum does not wrap. -/
theorem row_apply (t : Fin 16384) : (rd (W11 W) main_v36 (ix1 t)).toNat = Route.pos e t := by
  rw [v36_eq]
  show (IntOp.addi (Host.gather gather_S8_S16384x1_S16384_n_0_n_n_0_1_1 (rd (W10 W) main_v25)
      (broadcastInDim S16384x1 ![0] bcast_S16384_S16384x1_0 (rd (W11 W) main_v33)) (ix1 t))
      (rd (W10 W) main_v14 (ix1 t))).toNat = _
  have h1 := start_apply W e hlab he h25 t
  have h2 := h14 t
  have h3 := Route.pos_lt_ps8 e he t
  have h4 := Route.ps8_le e he
  unfold IntOp.addi
  rw [BitVec.toNat_add, h1, h2]
  unfold Route.pos at h3 ⊢
  omega

include hlab he h25 h14 in
/-- The normalised row is the row: it is not negative. -/
theorem nrow_apply (t : Fin 16384) : rd (W11 W) main_v43 (ix1 t) = rd (W11 W) main_v36 (ix1 t) := by
  rw [v43_eq]
  show Scalar.select (IntOp.cmpi .slt (rd (W11 W) main_v36 (ix1 t)) 0#32)
    (IntOp.addi (rd (W11 W) main_v36 (ix1 t)) 20480#32) (rd (W11 W) main_v36 (ix1 t)) = _
  have h1 := row_apply W e hlab he h25 h14 t
  have h3 := Route.pos_lt_ps8 e he t
  have h4 := Route.ps8_le e he
  exact norm_nonneg _ _ (by omega)

include hlab he h25 h14 in
/-- The inverse table at a token's row holds the token's number. -/
theorem inv_apply (t : Fin 16384) (p : Fin 20480) (hp : p.val = Route.pos e t) :
    rd (W11 W) main_v45 (ix1 p) = BitVec.ofNat 32 t.val := by
  rw [v45_eq]
  have hrow : ∀ t' : Fin 16384,
      ((broadcastInDim S16384x1 ![0] bcast_S16384_S16384x1_0 (rd (W11 W) main_v43)) (StableHlo.Predicate.ixP t')).toInt
        = (Route.pos e t' : Int) := by
    intro t'
    have h1 := row_apply W e hlab he h25 h14 t'
    have h3 := Route.pos_lt_ps8 e he t'
    have h4 := Route.ps8_le e he
    rw [StableHlo.Predicate.bcast_col1, ofFin_eq_ix1, nrow_apply W e hlab he h25 h14 t',
      StableHlo.Predicate.toInt_eq_toNat_of_lt (by omega), h1]
  have hland : ∀ t' : Fin 16384,
      scatter_S20480_S16384x1_S16384_n_0_0_1.resultIdx? (ix1 t')
        (broadcastInDim S16384x1 ![0] bcast_S16384_S16384x1_0 (rd (W11 W) main_v43)) = some (ix1 p)
      ↔ Route.pos e t' = p.val := by
    intro t'
    rw [Cert.Halo.ScatterSet.resultIdx?_eq_some_iff]
    constructor
    · intro h
      have h0 := h 0
      rw [sc_start, sc_window, hrow] at h0
      have hv : (((ix1 p : S20480.Idx) 0).val : Int) = (p.val : Int) := rfl
      rw [hv] at h0
      omega
    · intro h a
      have ha : a = 0 := Subsingleton.elim _ _
      subst ha
      rw [sc_start, sc_window, hrow]
      show (Route.pos e t' : Int) + ((0 : Nat) : Int) = (p.val : Int)
      omega
  rw [Cert.Halo.ScatterSet.scatter_hit _ _ _ _ (ix1 p) (ix1 t) ((hland t).2 hp.symm)]
  · rfl
  · intro j hj
    rw [eq_ix1 j] at hj ⊢
    have h1 := (hland (j 0)).1 hj
    have h2 : j 0 = t := Route.pos_inj e (by omega)
    exact congrArg (fun k => iotaInDim S16384 32 0 (ix1 k)) h2

end Rows

/-- Each token's row, as the host computes it. -/
theorem positions (hlab : ∀ t : Fin 16384, (rd W main_arg2 (ix1 t)).toNat = e t) (he : ∀ t, e t < 8)
    (h25 : ∀ k : Fin 8, (rd (W10 W) main_v25 (ix1 k)).toNat = Route.ps e k.val)
    (h14 : ∀ t : Fin 16384, (rd (W10 W) main_v14 (ix1 t)).toNat = Route.rank e t) (t : Fin 16384) :
    (rd (W12 W) main_v36 (ix1 t)).toNat = Route.pos e t := by
  have hk : rd (W12 W) main_v36 = rd (W11 W) main_v36 :=
    kept_of (hostOps0_11 (F := F)) (W11 W) main_v36 (by simp only [hostOps0_11]; not_written)
  rw [hk]
  exact row_apply W e hlab he h25 h14 t

/-- The row a token lands on names that token in the inverse table. -/
theorem slots (hlab : ∀ t : Fin 16384, (rd W main_arg2 (ix1 t)).toNat = e t) (he : ∀ t, e t < 8)
    (h25 : ∀ k : Fin 8, (rd (W10 W) main_v25 (ix1 k)).toNat = Route.ps e k.val)
    (h14 : ∀ t : Fin 16384, (rd (W10 W) main_v14 (ix1 t)).toNat = Route.rank e t)
    (t : Fin 16384) (p : Fin 20480) (hp : p.val = Route.pos e t) :
    rd (W12 W) main_v48 (ix1 p) = BitVec.ofNat 32 t.val := by
  have h45 := inv_apply W e hlab he h25 h14 t p hp
  have ht := t.isLt
  have h47 : rd (W11 W) main_v47 (ix1 p) = 1#1 := by
    rw [v47_eq]
    show IntOp.cmpi .sge (rd (W11 W) main_v45 (ix1 p)) 0#32 = 1#1
    rw [h45, StableHlo.Predicate.sge_iff_toNat (by rw [BitVec.toNat_ofNat]; omega) (by decide)]
    exact Nat.zero_le _
  rw [v48_eq]
  show Scalar.select (rd (W11 W) main_v47 (ix1 p)) (rd (W11 W) main_v45 (ix1 p)) _ = _
  rw [h47, select_one, h45]

/-- The number of tiles in use, reshaped to a one-element table, is still there. -/
theorem tiles_fwd : rd (W12 W) main_v28 (ix1 (0 : Fin 1)) = rd (W10 W) main_v27 ValueIdx.ix0 := by
  have hk : rd (W12 W) main_v28 = rd (W11 W) main_v28 :=
    kept_of (hostOps0_11 (F := F)) (W11 W) main_v28 (by simp only [hostOps0_11]; not_written)
  rw [hk, v28_eq]
  unfold shapeCast
  exact congrArg _ (eq_ix0 _)

/-- The regions' starts are still there. -/
theorem starts_fwd (k : Fin 8) : rd (W12 W) main_v25 (ix1 k) = rd (W10 W) main_v25 (ix1 k) := by
  have h1 : rd (W12 W) main_v25 = rd (W11 W) main_v25 :=
    kept_of (hostOps0_11 (F := F)) (W11 W) main_v25 (by simp only [hostOps0_11]; not_written)
  have h2 : rd (W11 W) main_v25 = rd (W10 W) main_v25 :=
    kept_of (hostOps0_10 (F := F)) (W10 W) main_v25 (by simp only [hostOps0_10]; not_written)
  rw [h1, h2]

end Cert.KernelIdeal.Stage3

end
-- ==== Proof.Stage4.lean ====
/-
  The padded token buffer (each row of it a token's row, gathered through the inverse table) and the expert that owns
  each tile (the number of regions that start at or before the tile's first row, less one, kept within 0 … 7).
-/
import proofs.«412671_j9363028706406_3_alg».proof.Proof.Chain
import proofs.«412671_j9363028706406_3_alg».proof.Proof.Route

import Idealize.ShloMosaic.Lib.ValueIdx
import Idealize.ShloMosaic.Lib.StableHlo.Predicate

noncomputable section

namespace Cert.KernelIdeal.Stage4

open Idealize.ShloMosaic Idealize.ShloMosaic.TcCoe Idealize.ShloMosaic.ValueIdx Cert.KernelIdeal Cert.KernelIdeal.Gen Cert.KernelIdeal.Chain

variable {F : FTy → Type} [FloatOps F]
variable (W : Valuation τ sig (Elt F)) (e : Fin 16384 → ℕ)

/-! ## Indices -/

theorem ofFin_eq_ix1 {n : Nat} (k : Fin n) : Shape.Idx.ofFin k = ix1 k := by
  funext d
  match d with
  | ⟨0, _⟩ => rfl

theorem ixP_eq_ix2 {n : Nat} (p : Fin n) : StableHlo.Predicate.ixP p = ix2 p (0 : Fin 1) := by
  funext d
  match d with
  | ⟨0, _⟩ => rfl
  | ⟨1, _⟩ => rfl

/-- A comparison of two tables read at an index compares the two entries. -/
theorem cmpi_apply {s : Shape} {w : Nat} (p : CmpIPredicate) (a b : IVec s w) (i : s.Idx) :
    cmpi p a b i = IntOp.cmpi p (a i) (b i) := rfl

/-! ## Words and counts -/

/-- A word kept within 0 … 7 (the larger of it and 0, then the smaller of that and 7, signed) is below 8. -/
theorem clip_lt (x : BitVec 32) : (IntOp.minsi 7#32 (IntOp.maxsi 0#32 x)).toNat < 8 := by
  unfold IntOp.minsi IntOp.maxsi
  have h0 : (0#32 : BitVec 32).toInt = 0 := by decide
  have h7 : (7#32 : BitVec 32).toInt = 7 := by decide
  have hx := BitVec.toInt_eq_toNat_cond x
  by_cases h1 : x.slt 0#32 = true
  · rw [if_pos h1]
    have h70 : ¬ (7#32 : BitVec 32).slt 0#32 = true := by decide
    rw [if_neg h70]
    decide
  · rw [if_neg h1]
    by_cases h2 : (7#32 : BitVec 32).slt x = true
    · rw [if_pos h2]
      decide
    · rw [if_neg h2]
      simp only [BitVec.slt, h0, h7, decide_eq_true_eq] at h1 h2
      split at hx <;> omega

/-- A word that is already within 0 … 7 is kept. -/
theorem clip_id (x : BitVec 32) (hx7 : x.toNat ≤ 7) : IntOp.minsi 7#32 (IntOp.maxsi 0#32 x) = x := by
  unfold IntOp.minsi IntOp.maxsi
  have h0 : (0#32 : BitVec 32).toInt = 0 := by decide
  have h7 : (7#32 : BitVec 32).toInt = 7 := by decide
  have hx : x.toInt = x.toNat := StableHlo.Predicate.toInt_eq_toNat_of_lt (by omega)
  have h1 : ¬ x.slt 0#32 = true := by
    simp only [BitVec.slt, h0, hx, decide_eq_true_eq]
    omega
  have h2 : ¬ (7#32 : BitVec 32).slt x = true := by
    simp only [BitVec.slt, h7, hx, decide_eq_true_eq]
    omega
  rw [if_neg h1, if_neg h2]

/-- Counting the members of `Fin n` whose value has a property counts the numbers below `n` that have it. -/
theorem card_fin_eq_range (n : ℕ) (P : ℕ → Prop) [DecidablePred P] :
    (Finset.univ.filter (fun q : Fin n => P q.val)).card = ((Finset.range n).filter P).card := by
  apply Finset.card_bij (fun q _ => q.val)
  · intro q hq
    simp only [Finset.mem_filter, Finset.mem_univ, true_and] at hq
    simp only [Finset.mem_filter, Finset.mem_range]
    exact ⟨q.isLt, hq⟩
  · intro a _ b _ h
    exact Fin.ext h
  · intro b hb
    simp only [Finset.mem_filter, Finset.mem_range] at hb
    exact ⟨⟨b, hb.1⟩, by simp only [Finset.mem_filter, Finset.mem_univ, true_and]; exact hb.2, rfl⟩

/-! ## A gather of whole rows -/

/-- An axis of a two-axis shape is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- A gather that takes, for each row `p` of an [n × 1] column of start indices, one whole row of an [N × m] table
    (the row axis collapsed and start-indexed, the column axis the one offset axis): element (p, k) of the result is
    element k of the table's row named by entry p, read signed and clamped into the table. -/
theorem gather_rows {α : Type} {N n m w : Nat} (d : GatherDims ⟨2, ![N, m]⟩ ⟨2, ![n, 1]⟩ ⟨2, ![n, m]⟩)
    (hoff : d.offsetDims = [1]) (hcoll : d.collapsedSliceDims = [0]) (hob : d.operandBatchingDims = [])
    (hsim : d.startIndexMap = [0]) (hivd : d.indexVectorDim = 1)
    (x : (⟨2, ![N, m]⟩ : Shape).Idx → α) (idx : IVec ⟨2, ![n, 1]⟩ w) (p : Fin n) (k : Fin m) (hN : 0 < N) :
    Host.gather d x idx (ix2 p k) = x (ix2 ⟨min (idx (ix2 p (0 : Fin 1))).toInt.toNat (N - 1), by omega⟩ k) := by
  -- the result's batch axes are all the first axis, its offset axes all the second
  have hbatch : ∀ y ∈ d.batchDims, y = (0 : Fin 2) := by
    intro y hy
    have hy' : y ∉ d.offsetDims := by
      have := (List.mem_filter.mp hy).2
      simpa using this
    rw [hoff] at hy'
    rcases fin2_cases y with rfl | rfl
    · rfl
    · exact absurd (List.mem_singleton.mpr rfl) hy'
  have hoffs : ∀ y ∈ d.offsetDims, y = (1 : Fin 2) := by
    intro y hy
    rw [hoff] at hy
    exact List.mem_singleton.mp hy
  unfold Host.gather
  congr 1
  funext a
  apply Fin.ext
  rcases fin2_cases a with rfl | rfl
  · have hb : (0 : Fin 2) ∉ d.operandBatchingDims := by rw [hob]; exact List.not_mem_nil
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ hb, GatherDims.offCoord_eq_zero _ _ _ hk,
      Nat.add_zero, GatherDims.start, dif_pos hm]
    show min (idx _).toInt.toNat (N - d.sliceSizes 0) = min (idx (ix2 p (0 : Fin 1))).toInt.toNat (N - 1)
    rw [hsl]
    congr 3
    congr 1
    funext b
    rcases fin2_cases b with rfl | rfl
    · unfold GatherDims.siIdx
      rw [dif_neg (by rw [hivd]; simp)]
      unfold GatherDims.siCoord
      apply Fin.ext
      simp only [Fin.val_cast]
      rw [hbatch _ (List.getElem_mem _)]
    · unfold GatherDims.siIdx
      rw [dif_pos (by rw [hivd]; rfl)]
      apply Fin.ext
      show List.idxOf (0 : Fin 2) d.startIndexMap = 0
      rw [hsim]; simp
  · have hb : (1 : Fin 2) ∉ d.operandBatchingDims := by rw [hob]; exact List.not_mem_nil
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ hb, Nat.add_zero, GatherDims.start, dif_neg hm,
      Nat.zero_add]
    unfold GatherDims.offCoord
    rw [dif_pos hk, hoffs _ (List.getElem_mem _)]

/-! ## What the thirteenth stretch leaves, from any contents `V` before it -/

/-- The inverse-table entries made non-negative: a negative entry has the token count added. -/
def idx53 (v48 : IVec S20480 32) : IVec S20480 32 :=
  select (cmpi .slt v48 (broadcastInDim S20480 ![] bcast_S_S20480 (constantI S_ 32 0#32)))
    (addi v48 (broadcastInDim S20480 ![] bcast_S_S20480 (constantI S_ 32 16384#32))) v48

/-- Whether tile j's first row (512 j) is at or after region k's start. -/
def mask63 (v25 : IVec S8 32) : IVec S40x8 1 :=
  cmpi .sge
    (broadcastInDim S40x8 ![0, 1] bcast_S40x1_S40x8_0_1 (broadcastInDim S40x1 ![0] bcast_S40_S40x1_0
      (muli (iotaInDim S40 32 0) (broadcastInDim S40 ![] bcast_S_S40 (constantI S_ 32 512#32)))))
    (broadcastInDim S40x8 ![0, 1] bcast_S1x8_S40x8_0_1 (broadcastInDim S1x8 ![1] bcast_S8_S1x8_1 v25))

/-- For each tile, the number of regions that start at or before its first row. -/
def cnt65 (v25 : IVec S8 32) : IVec S40 32 :=
  Host.reduce IntOp.addi (extui 32 (mask63 v25) natLt_1_32) (constantI S_ 32 0#32) reducesTo_S40x8_S40_d1 h_S_

section Stretches

variable (V : Valuation τ sig (Elt F))

theorem v55_of : rd (StableHlo.after (hostOps0_12 (F := F)) V) main_v55
    = Host.gather gather_S16384x2048_S20480x1_S20480x2048_1_0_n_n_0_1_12048 (rd V main_arg0)
        (broadcastInDim S20480x1 ![0] bcast_S20480_S20480x1_0 (idx53 (rd V main_v48))) := by
  unfold rd
  simp only [hostOps0_12]
  after_results
  rfl

theorem v67_of : rd (StableHlo.after (hostOps0_12 (F := F)) V) main_v67
    = subi (cnt65 (rd V main_v25)) (broadcastInDim S40 ![] bcast_S_S40 (constantI S_ 32 1#32)) := by
  unfold rd
  simp only [hostOps0_12]
  after_results
  rfl

theorem c19_of : rd (StableHlo.after (hostOps0_12 (F := F)) V) main_c_19 = constantI S_ 32 0#32 := by
  unfold rd
  simp only [hostOps0_12]
  after_results

theorem c20_of : rd (StableHlo.after (hostOps0_12 (F := F)) V) main_c_20 = constantI S_ 32 7#32 := by
  unfold rd
  simp only [hostOps0_12]
  after_results

/-! ## What the fourteenth stretch leaves: the tile's count kept within 0 … 7 -/

theorem v68_of : rd (StableHlo.after (hostOps0_13 (F := F)) V) main_v68
    = minsi (broadcastInDim S40 ![] bcast_S_S40 (rd V main_c_20))
        (maxsi (broadcastInDim S40 ![] bcast_S_S40 (rd V main_c_19)) (rd V main_v67)) := by
  unfold rd
  simp only [hostOps0_13]
  after_results
  rfl

end Stretches

theorem v68_eq (j : Fin 40) :
    rd (W14 W) main_v68 (ix1 j) = IntOp.minsi 7#32 (IntOp.maxsi 0#32 (rd (W13 W) main_v67 (ix1 j))) := by
  rw [W14_eq, v68_of, W13_eq, c19_of, c20_of]
  rfl

/-! ## The tiles' experts -/

theorem mask63_apply (v25 : IVec S8 32) (j : Fin 40) (k : Fin 8) :
    mask63 v25 (StableHlo.Predicate.ij j k)
      = IntOp.cmpi .sge (IntOp.muli (BitVec.ofNat 32 j.val) 512#32) (v25 (ix1 k)) := by
  unfold mask63
  rw [cmpi_apply, StableHlo.Predicate.bcast_rows, StableHlo.Predicate.bcast_cols, ofFin_eq_ix1, ofFin_eq_ix1]
  rfl

/-- When the table holds the regions' starts, a tile's count is the number of experts whose region starts at or
    before the tile's first row. -/
theorem count_eq (v25 : IVec S8 32) (he : ∀ t, e t < 8) (h25 : ∀ k : Fin 8, (v25 (ix1 k)).toNat = Route.ps e k.val) (j : Fin 40) :
    (cnt65 v25 (ix1 j)).toNat = ((Finset.range 8).filter fun k => Route.ps e k ≤ 512 * j.val).card := by
  unfold cnt65
  rw [StableHlo.Predicate.toNat_reduce_count_cols (by norm_num), ← card_fin_eq_range 8 (fun k => Route.ps e k ≤ 512 * j.val)]
  congr 1
  apply Finset.filter_congr
  intro q _
  show mask63 v25 (StableHlo.Predicate.ij j q) = 1#1 ↔ _
  have hj := j.isLt
  have hq := q.isLt
  have hps : Route.ps e q.val ≤ 16384 + 4088 := le_trans (Route.ps_mono e (by omega)) (Route.ps8_le e he)
  have hmul : (IntOp.muli (BitVec.ofNat 32 j.val) 512#32).toNat = 512 * j.val := by
    show (BitVec.ofNat 32 j.val * 512#32).toNat = _
    rw [BitVec.toNat_mul, BitVec.toNat_ofNat, BitVec.toNat_ofNat]
    omega
  rw [mask63_apply, StableHlo.Predicate.sge_iff_toNat (by omega) (by rw [h25]; omega), hmul, h25]

/-- A row of the padded buffer that the inverse table gives to token `t` holds token `t`'s row. -/
theorem tokens (t : Fin 16384) (p : Fin 20480) (h48 : rd (W12 W) main_v48 (ix1 p) = BitVec.ofNat 32 t.val) (k : Fin 2048) :
    rd (W14 W) main_v55 (ix2 p k) = rd W main_arg0 (ix2 t k) := by
  have ht := t.isLt
  have hk : rd (W14 W) main_v55 = rd (W13 W) main_v55 :=
    kept_of (hostOps0_13 (F := F)) (W13 W) main_v55 (by simp only [hostOps0_13]; not_written)
  -- the entry is non-negative, so it is kept
  have hc : IntOp.cmpi .slt (BitVec.ofNat 32 t.val) 0#32 = 0#1 := by
    apply eq_zero_of_ne_one
    rw [StableHlo.Predicate.slt_iff_toNat (by rw [BitVec.toNat_ofNat]; omega) (by decide)]
    exact Nat.not_lt_zero _
  have hidx : broadcastInDim S20480x1 ![0] bcast_S20480_S20480x1_0 (idx53 (rd (W12 W) main_v48)) (ix2 p (0 : Fin 1))
      = BitVec.ofNat 32 t.val := by
    rw [← ixP_eq_ix2, StableHlo.Predicate.bcast_col1, ofFin_eq_ix1]
    show Scalar.select (IntOp.cmpi .slt (rd (W12 W) main_v48 (ix1 p)) 0#32)
        (IntOp.addi (rd (W12 W) main_v48 (ix1 p)) 16384#32) (rd (W12 W) main_v48 (ix1 p)) = _
    rw [h48, hc, select_zero]
  -- so the gather reads the table's row t
  rw [hk, W13_eq, v55_of, gather_rows _ rfl rfl rfl rfl rfl _ _ p k (by norm_num), arg0_W12]
  refine congrArg (fun r => rd W main_arg0 (ix2 r k)) (Fin.ext ?_)
  show min (broadcastInDim S20480x1 ![0] bcast_S20480_S20480x1_0 (idx53 (rd (W12 W) main_v48)) (ix2 p (0 : Fin 1))).toInt.toNat
      (16384 - 1) = t.val
  rw [hidx, StableHlo.Predicate.toInt_ofNat_small t.val (by omega), Int.toNat_natCast]
  omega

/-- Every tile's expert is an expert, whatever the labels. -/
theorem expert_lt (j : Fin 40) : (rd (W14 W) main_v68 (ix1 j)).toNat < 8 := by
  rw [v68_eq]
  exact clip_lt _

/-- The tile that holds a token's row belongs to the token's expert. -/
theorem expert_of (he : ∀ t, e t < 8) (h25 : ∀ k : Fin 8, (rd (W12 W) main_v25 (ix1 k)).toNat = Route.ps e k.val)
    (t : Fin 16384) (j : Fin 40) (hj : j.val = Route.pos e t / 512) :
    (rd (W14 W) main_v68 (ix1 j)).toNat = e t := by
  have het := he t
  have hcnt := count_eq e (rd (W12 W) main_v25) he h25 j
  rw [hj, Route.count_ps_le e he t] at hcnt
  -- the count is e t + 1, so one less is e t, which the clip keeps
  have h67 : (rd (W13 W) main_v67 (ix1 j)).toNat = e t := by
    rw [W13_eq, v67_of]
    show (cnt65 (rd (W12 W) main_v25) (ix1 j) - 1#32).toNat = e t
    rw [BitVec.toNat_sub, BitVec.toNat_ofNat, hcnt]
    omega
  rw [v68_eq, clip_id _ (by rw [h67]; omega), h67]

/-- The tokens' rows are still there. -/
theorem pos_fwd (t : Fin 16384) : rd (W14 W) main_v36 (ix1 t) = rd (W12 W) main_v36 (ix1 t) := by
  exact congrFun ((kept_of (hostOps0_13 (F := F)) (W13 W) main_v36 (by simp only [hostOps0_13]; not_written)).trans
    (kept_of (hostOps0_12 (F := F)) (W12 W) main_v36 (by simp only [hostOps0_12]; not_written))) _

/-- The number of tiles in use is still there. -/
theorem tiles_fwd : rd (W14 W) main_v28 (ix1 (0 : Fin 1)) = rd (W12 W) main_v28 (ix1 (0 : Fin 1)) := by
  exact congrFun ((kept_of (hostOps0_13 (F := F)) (W13 W) main_v28 (by simp only [hostOps0_13]; not_written)).trans
    (kept_of (hostOps0_12 (F := F)) (W12 W) main_v28 (by simp only [hostOps0_12]; not_written))) _

end Cert.KernelIdeal.Stage4

end
-- ==== Proof.Routing.lean ====
/-
  The host program before the kernel, summed up at one token: its row p in the padded buffer (below 20480), the tile j
  that holds the row, and what the buffers the kernel and the final gather read hold there — the padded token buffer's
  row p is the token's row, tile j's expert is the token's label, tile j is among the tiles in use.
-/
import proofs.«412671_j9363028706406_3_alg».proof.Proof.Chain
import proofs.«412671_j9363028706406_3_alg».proof.Proof.Route
import proofs.«412671_j9363028706406_3_alg».proof.Proof.Stage1
import proofs.«412671_j9363028706406_3_alg».proof.Proof.Stage2
import proofs.«412671_j9363028706406_3_alg».proof.Proof.Stage3
import proofs.«412671_j9363028706406_3_alg».proof.Proof.Stage4
import Idealize.ShloMosaic.Lib.ValueIdx
import Idealize.ShloMosaic.Lib.StableHlo.Predicate

noncomputable section

namespace Cert.KernelIdeal.Routing

open Idealize.ShloMosaic Idealize.ShloMosaic.TcCoe Idealize.ShloMosaic.ValueIdx Cert.KernelIdeal Cert.KernelIdeal.Gen Cert.KernelIdeal.Chain

variable {F : FTy → Type} [FloatOps F]
variable (W : Valuation τ sig (Elt F)) (e : Fin 16384 → ℕ)

/-- Everything the value proof needs of the contents at the region's entry, at token `t`. -/
theorem routed (hlab : ∀ t : Fin 16384, (rd W main_arg2 (ix1 t)).toNat = e t) (he : ∀ t, e t < 8) (t : Fin 16384) :
    ∃ (p : Fin 20480) (j : Fin 40), p.val = Route.pos e t ∧ j.val = p.val / 512
      ∧ (rd (W14 W) main_v36 (ix1 t)).toNat = p.val
      ∧ (∀ k : Fin 2048, rd (W14 W) main_v55 (ix2 p k) = rd W main_arg0 (ix2 t k))
      ∧ (rd (W14 W) main_v68 (ix1 j)).toNat = e t
      ∧ (rd (W14 W) main_v28 (ix1 (0 : Fin 1))).toNat = Route.ps e 8 / 512
      ∧ j.val < Route.ps e 8 / 512 ∧ Route.ps e 8 / 512 ≤ 40 := by
  have h9 : ∀ k : Fin 8, (rd (W4 W) main_v9 (ix1 k)).toNat = Route.cnt e k.val :=
    fun k => Stage1.counts W e hlab k
  have h25 : ∀ k : Fin 8, (rd (W10 W) main_v25 (ix1 k)).toNat = Route.ps e k.val :=
    fun k => Stage2.starts W e he h9 k
  have h14 : ∀ s : Fin 16384, (rd (W10 W) main_v14 (ix1 s)).toNat = Route.rank e s := by
    intro s
    rw [Stage2.ranks_fwd W s]
    exact Stage1.ranks W e hlab he s
  have h25' : ∀ k : Fin 8, (rd (W12 W) main_v25 (ix1 k)).toNat = Route.ps e k.val := by
    intro k
    rw [Stage3.starts_fwd W k]
    exact h25 k
  -- the row lies in the used part of the buffer, which has at most 20472 rows: 39 tiles and part of a fortieth
  have hps := Route.pos_lt_ps8 e he t
  have h8 := Route.ps8_le e he
  have hdiv := Route.pos_div_lt e he t
  have hp : Route.pos e t < 20480 := by omega
  have hj : Route.pos e t / 512 < 40 := by omega
  refine ⟨⟨Route.pos e t, hp⟩, ⟨Route.pos e t / 512, hj⟩, rfl, rfl, ?_, ?_, ?_, ?_, hdiv, by omega⟩
  · rw [Stage4.pos_fwd W t]
    exact Stage3.positions W e hlab he h25 h14 t
  · intro k
    exact Stage4.tokens W t ⟨Route.pos e t, hp⟩ (Stage3.slots W e hlab he h25 h14 t ⟨Route.pos e t, hp⟩ rfl) k
  · exact Stage4.expert_of W e he h25' t ⟨Route.pos e t / 512, hj⟩ rfl
  · rw [Stage4.tiles_fwd W, Stage3.tiles_fwd W]
    exact Stage2.tiles W e he h9

end Cert.KernelIdeal.Routing

end
-- ==== Proof.Tail.lean ====
/-
  The gather after the kernel: the result's row t is the padded output's row at token t's position (a non-negative
  row below 20480 is neither wrapped nor clamped).
-/
import proofs.«412671_j9363028706406_3_alg».proof.Proof.Gen.KernelIdeal.Launch
import Idealize.ShloMosaic.Lib.StableHlo.Run
import Idealize.ShloMosaic.Lib.ValueIdx
import Idealize.ShloMosaic.Lib.StableHlo.Predicate
import Idealize.ShloMosaic.Lib.Pipeline.Value

noncomputable section

namespace Cert.KernelIdeal.Tail

open Idealize.ShloMosaic Idealize.ShloMosaic.TcCoe Idealize.ShloMosaic.ValueIdx Cert.KernelIdeal Cert.KernelIdeal.Gen

variable {F : FTy → Type} [FloatOps F]

/-- The row gather read at `(t, o)`: the operand's row at token `t`'s start index, read signed and clamped into the
    operand's rows, at column `o`. -/
theorem gather_row {α : Type} (x : S20480x2048.Idx → α) (idx : IVec S16384x1 32) (t : Fin 16384) (o : Fin 2048) :
    Host.gather gather_S20480x2048_S16384x1_S16384x2048_1_0_n_n_0_1_12048 x idx (ix2 t o) =
      x (ix2 (⟨min (idx (ix2 t (0 : Fin 1))).toInt.toNat 20479, by omega⟩ : Fin 20480) o) := by
  have hsi : ∀ c, gather_S20480x2048_S16384x1_S16384x2048_1_0_n_n_0_1_12048.siIdx (ix2 t o) c = ix2 t (0 : Fin 1) := by
    intro c
    funext b
    apply Fin.ext
    match b with
    | ⟨0, _⟩ => rfl
    | ⟨1, _⟩ =>
      show c.val = 0
      have hc : c.val < 1 := c.isLt
      omega
  unfold Host.gather
  congr 1
  funext a
  apply Fin.ext
  match a with
  | ⟨0, _⟩ =>
    show gather_S20480x2048_S16384x1_S16384x2048_1_0_n_n_0_1_12048.start (ix2 t o) idx 0
        + gather_S20480x2048_S16384x1_S16384x2048_1_0_n_n_0_1_12048.batchCoord (ix2 t o) 0
        + gather_S20480x2048_S16384x1_S16384x2048_1_0_n_n_0_1_12048.offCoord (ix2 t o) 0 = _
    rw [GatherDims.batchCoord_eq_zero _ _ _ (by decide), GatherDims.offCoord_eq_zero _ _ _ (by decide)]
    unfold GatherDims.start
    rw [dif_pos (by decide), hsi]
    rfl
  | ⟨1, _⟩ =>
    show gather_S20480x2048_S16384x1_S16384x2048_1_0_n_n_0_1_12048.start (ix2 t o) idx 1
        + gather_S20480x2048_S16384x1_S16384x2048_1_0_n_n_0_1_12048.batchCoord (ix2 t o) 1
        + gather_S20480x2048_S16384x1_S16384x2048_1_0_n_n_0_1_12048.offCoord (ix2 t o) 1 = _
    rw [GatherDims.batchCoord_eq_zero _ _ _ (by decide)]
    unfold GatherDims.start GatherDims.offCoord
    rw [dif_neg (by decide), dif_pos (by decide), Nat.add_zero, Nat.zero_add]
    rfl

/-- A position word below 20480 is non-negative as a signed word: the wrap of a negative index leaves it, and the
    clamp into the rows `0 … 20479` leaves its value. -/
theorem index_word (w : BitVec 32) (p : Fin 20480) (hp : w.toNat = p.val) :
    min (Scalar.select (IntOp.cmpi .slt w 0#32) (IntOp.addi w 20480#32) w).toInt.toNat 20479 = p.val := by
  have hlt : p.val < 20480 := p.isLt
  have hn : ¬ IntOp.cmpi .slt w 0#32 = 1#1 := by
    rw [StableHlo.Predicate.slt_iff_toNat (by omega) (by decide)]
    exact Nat.not_lt_zero _
  rw [eq_zero_of_ne_one hn, select_zero, BitVec.toInt_eq_toNat_of_lt (by omega), Int.toNat_natCast, hp]
  omega

/-- The result after the last stretch of host operations, at token `t` and feature `o`, when token `t`'s position is row `p`. -/
theorem result_apply (X : Valuation τ sig (Elt F)) (t : Fin 16384) (o : Fin 2048) (p : Fin 20480)
    (hp : (X (Proc.devRef .tc main_v36) (ix1 t)).toNat = p.val) :
    StableHlo.after (hostOps1 (F := F)) X (Proc.devRef .tc main_v76) (ix2 t o) = X (Proc.devRef .tc main_v69) (ix2 p o) := by
  have hb0 : ∀ (c : BitVec 32), broadcastInDim S16384 ![] bcast_S_S16384 (constantI S_ 32 c) (ix1 t) = c := fun c =>
    broadcastInDim_apply _ bcast_S_S16384 (constantI S_ 32 c) (ix1 t) (fun a => a.elim0) (fun a => a.elim0)
  have hcol : ∀ W : IVec S16384 32,
      broadcastInDim S16384x1 ![0] bcast_S16384_S16384x1_0 W (ix2 t (0 : Fin 1)) = W (ix1 t) := fun W =>
    broadcastInDim_apply _ bcast_S16384_S16384x1_0 W (ix2 t (0 : Fin 1)) (ix1 t) (fun a => match a with
      | ⟨0, _⟩ => by show t.val = if (16384 : Nat) = 1 then 0 else t.val; rw [if_neg (by decide)])
  simp only [hostOps1]
  after_results
  rw [gather_row]
  congr 1
  funext a
  apply Fin.ext
  match a with
  | ⟨1, _⟩ => rfl
  | ⟨0, _⟩ =>
    show min (BitVec.toInt _).toNat 20479 = p.val
    rw [hcol]
    show min (Scalar.select (IntOp.cmpi .slt (X (Proc.devRef .tc main_v36) (ix1 t))
        (broadcastInDim S16384 ![] bcast_S_S16384 (constantI S_ 32 0#32) (ix1 t)))
      (IntOp.addi (X (Proc.devRef .tc main_v36) (ix1 t))
        (broadcastInDim S16384 ![] bcast_S_S16384 (constantI S_ 32 20480#32) (ix1 t)))
      (X (Proc.devRef .tc main_v36) (ix1 t))).toInt.toNat 20479 = p.val
    rw [hb0, hb0]
    exact index_word _ p hp

end Cert.KernelIdeal.Tail

end
-- ==== Proof.Pay.lean ====
/-
  The body's arithmetic at one element, over the extended reals: the product tile's element (r, o) is the sum over k of
  the token tile's (r, k) times the weight block's (o, k) (the change of float format is the identity there and the
  accumulator starts at zero); the zero tile's elements are zero.
-/
import proofs.«412671_j9363028706406_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The left operand's row is the product element's row. -/
theorem lhs_0 (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide),
    dif_pos (show (0 : Fin S512x2048.rank) ∈ dot_S512x2048_S2048x2048_S512x2048_1_1_0_0_n_n.lhsNonContracting by decide)]
  rfl

/-- The left operand's column is the summation index. -/
theorem lhs_1 (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q

/-- The right operand's row is the product element's column. -/
theorem rhs_0 (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide),
    dif_pos (show (0 : Fin S2048x2048.rank) ∈ dot_S512x2048_S2048x2048_S512x2048_1_1_0_0_n_n.rhsNonContracting by decide)]
  rfl

/-- The right operand's column is the summation index. -/
theorem rhs_1 (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The contraction into a zero accumulator at an element: the sum over k of left (r, k) times right (o, k). -/
theorem dot_apply (y0 : FVec Ideal S512x2048 .bf16) (y1 : FVec Ideal S2048x2048 .bf16) (r : Fin 512) (o : Fin 2048) :
    matmul dot_S512x2048_S2048x2048_S512x2048_1_1_0_0_n_n none y0 y1 (constant S512x2048 .f32 0x00000000#32) (ix2 r o)
      = ∑ k : Fin 2048, y0 (ix2 r k) * y1 (ix2 o k) := by
  simp only [matmul]
  rw [Ideal.matmul_constant_zero_apply,
    ← Equiv.sum_comp (ValueIdx.contrEquiv1 dot_S512x2048_S2048x2048_S512x2048_1_1_0_0_n_n 2048 rfl rfl).symm]
  refine Finset.sum_congr rfl fun k _ => ?_
  have hk := ValueIdx.contrEquiv1_symm_val dot_S512x2048_S2048x2048_S512x2048_1_1_0_0_n_n 2048 rfl rfl k
  have el : dot_S512x2048_S2048x2048_S512x2048_1_1_0_0_n_n.lhsIdx (ix2 r o)
      ((ValueIdx.contrEquiv1 dot_S512x2048_S2048x2048_S512x2048_1_1_0_0_n_n 2048 rfl rfl).symm k) = ix2 r k :=
    funext fun a => Fin.ext (by
      match a with
      | ⟨0, _⟩ => exact lhs_0 _ _
      | ⟨1, _⟩ => exact (lhs_1 _ _).trans hk)
  have er : dot_S512x2048_S2048x2048_S512x2048_1_1_0_0_n_n.rhsIdx (ix2 r o)
      ((ValueIdx.contrEquiv1 dot_S512x2048_S2048x2048_S512x2048_1_1_0_0_n_n 2048 rfl rfl).symm k) = ix2 o k :=
    funext fun a => Fin.ext (by
      match a with
      | ⟨0, _⟩ => exact rhs_0 _ _
      | ⟨1, _⟩ => exact (rhs_1 _ _).trans hk)
  rw [el, er]

/-- The product tile at an element. -/
theorem pay1_apply (x0 : Vec Ideal S512x2048 .f32) (x1 : Vec Ideal S1x2048x2048 .f32) (r : Fin 512) (o : Fin 2048) :
    k0_pay1 (F := Ideal) x0 x1 (ix2 r o) = ∑ k : Fin 2048, x0 (ix2 r k) * x1 (ix3 (0 : Fin 1) o k) := by
  unfold k0_pay1
  refine (dot_apply _ _ r o).trans (Finset.sum_congr rfl fun k _ => ?_)
  refine congrArg₂ (· * ·) ?_ ?_
  · show shapeCast S512x2048 x0 shapeCasts_S512x2048_S512x2048 (ix2 r k) = x0 (ix2 r k)
    exact congrFun (shapeCast_self x0 _) _
  · show shapeCast S2048x2048 x1 shapeCasts_S1x2048x2048_S2048x2048 (ix2 o k) = x1 (ix3 (0 : Fin 1) o k)
    refine shapeCast_apply x1 _ (ix2 o k) (ix3 (0 : Fin 1) o k) ?_
    rw [Shape.rowMajor_val_three, Shape.rowMajor_val_two]
    show (0 * 2048 + o.val) * 2048 + k.val = o.val * 2048 + k.val
    omega

/-- The zero tile at an element. -/
theorem pay2_apply (y : S512x2048.Idx) : k0_pay2 (F := Ideal) y = 0 := by
  unfold k0_pay2
  exact Ideal.ofBits_zero_f32

end Cert.KernelIdeal.Pay

end
-- ==== Proof.OutA.lean ====
/-
  The product tile at an element, over the extended reals, and the branch the body takes at a tile in use.
-/
import proofs.«412671_j9363028706406_3_alg».proof.Proof.FrRun
import proofs.«412671_j9363028706406_3_alg».proof.Proof.Pay
import Idealize.ShloMosaic.Lib.ValueIdx
import Idealize.ShloMosaic.Lib.StableHlo.Predicate

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

/-- What the multiplying branch leaves at element (r, o): the sum over k of the token tile's (r, k) times the weight
    block's (o, k). -/
theorem outA_apply (x0 : Vec Ideal S512x2048 .f32) (x1 : Vec Ideal S1x2048x2048 .f32) (r : Fin 512) (o : Fin 2048) :
    outA (F := Ideal) x0 x1 (ix2 r o) = ∑ k : Fin 2048, x0 (ix2 r k) * x1 (ix3 (0 : Fin 1) o k) := by
  have hz : (![0, 0] : Fin 2 → Nat) = fun _ => 0 := funext fun a => by fin_cases a <;> rfl
  have hz3 : (![0, 0, 0] : Fin 3 → Nat) = fun _ => 0 := funext fun a => by fin_cases a <;> rfl
  unfold outA
  -- one store over the whole tile leaves its payload; a load of a whole block reads the block
  rw [View.canon_unit_zero hz]
  simp only [View.ld_unit_zero (S := S512x2048) hz, View.ld_unit_zero (S := S1x2048x2048) hz3]
  exact Pay.pay1_apply x0 x1 r o

/-- A grid point below the number of tiles in use takes the multiplying branch. -/
theorem cond1_of_lt (i : grid0.Coords) (v : BitVec 32) (hv : v.toNat < 2 ^ 31) (h : (i 0).val < v.toNat) :
    k0_cond1 i v = 1#1 := by
  have hi : (i 0).val < 40 := (i 0).isLt
  unfold k0_cond1
  simp only [Scalar.cmpi, Scalar.extui, IntOp.cmpi, bit_ne_zero]
  -- both words are below 2³¹, so the signed comparison is the comparison of their values
  exact (StableHlo.Predicate.slt_bool_iff_toNat (by rw [BitVec.toNat_ofNat]; omega) hv).mpr
    (by rw [BitVec.toNat_ofNat]; omega)

end Cert.KernelIdeal.Fr

end
-- ==== Proof.KernelValue.lean ====
/-
  The kernel program's result at one element, over the extended reals.  The final gather reads the padded output at the
  token's row p; that row lies in tile j = p / 512, a tile in use, so the body multiplied there: the element is the
  token tile's row times the weight block's row; the token tile's row is the padded token buffer's row p, which is
  the token's own row, and the weight block is the matrix of the tile's expert, which is the token's label.
-/
import proofs.«412671_j9363028706406_3_alg».proof.Proof.KVal
import proofs.«412671_j9363028706406_3_alg».proof.Proof.Routing
import proofs.«412671_j9363028706406_3_alg».proof.Proof.Tail
import proofs.«412671_j9363028706406_3_alg».proof.Proof.OutA
import proofs.«412671_j9363028706406_3_alg».proof.Proof.FrOkAll

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

variable (m : (ℓ : Loc nD τ sig) → Buf (Elt Ideal) ℓ)

/-- The tokens' rows are not an array of the pipeline. -/
theorem arr_ne_v36 : ∀ w, Pipeline.arrRef spec0 w ≠ main_v36 := by decide

/-- The result array (after the gather that follows the region) at token `t`, feature `o`, when the token's label is
    the expert `l`: the token's row times row `o` of expert `l`'s weights. -/
theorem out_apply (hO : Ok m) (e : Fin 16384 → ℕ)
    (x0 : (⟨S16384x2048, .f32⟩ : BufTy).Contents (Elt Ideal)) (x1 : (⟨S8x2048x2048, .f32⟩ : BufTy).Contents (Elt Ideal))
    (x2 : (⟨S16384, .i32⟩ : BufTy).Contents (Elt Ideal)) (y : (⟨S16384x2048, .f32⟩ : BufTy).Contents (Elt Ideal))
    (h0 : m (((0 : Dev nD).tc : Thread nD τ).loc main_arg0) = x0) (h1 : m (((0 : Dev nD).tc : Thread nD τ).loc main_arg1) = x1)
    (h2 : m (((0 : Dev nD).tc : Thread nD τ).loc main_arg2) = x2)
    (hy : Pipeline.afterTail pcfgs (fun _ => adm m hO) (dats m hO) 0 (V0 m) [hostOps1] (0 : Dev nD) main_v76 = y)
    (hlab : ∀ t : Fin 16384, (x2 (ix1 t)).toNat = e t) (he : ∀ t, e t < 8)
    (t : Fin 16384) (o : Fin 2048) (l : Fin 8) (hl : e t = l.val) :
    y (ix2 t o) = ∑ k : Fin 2048, x0 (ix2 t k) * x1 (ix3 l o k) := by
  obtain ⟨W, hW⟩ : ∃ W : Valuation τ sig (Elt Ideal), W = fun b => m ((0 : Dev nD), b) := ⟨_, rfl⟩
  have hV : V0 m (0 : Dev nD) = Chain.W14 W := by rw [hW]; exact Chain.flat_eq (F := Ideal) _
  have hlabW : ∀ s : Fin 16384, (Chain.rd W main_arg2 (ix1 s)).toNat = e s := by
    intro s
    rw [← hlab s, ← h2, hW]
  obtain ⟨p, j, hp, hj, h36, h55, h68, h28, hjlt, hle⟩ := Routing.routed W e hlabW he t
  rw [← hy]
  unfold Pipeline.afterTail
  simp only [List.flatten_cons, List.flatten_nil, List.append_nil]
  refine (Tail.result_apply _ t o p ?hp).trans ?_
  case hp =>
    rw [Pipeline.withArrays_of_ne _ (0 : Dev nD) (V0 m 0) _ main_v36 arr_ne_v36, hV]
    exact h36
  refine (congrFun (Pipeline.withArrays_arr spec0 winFacts0.arr_inj (0 : Dev nD) _ _ 2) (ix2 p o)).trans ?_
  -- the row lies in tile j, at row r = p mod 512 of it
  have hjN : j.val < grid0.N := by rw [N_0]; exact j.isLt
  have hr : p.val % 512 < 512 := Nat.mod_lt _ (by norm_num)
  have hpr : p.val = 512 * j.val + p.val % 512 := by omega
  refine (arr2_apply m hO (0 : Dev nD) ⟨j.val, hjN⟩ ⟨p.val % 512, hr⟩ o p hpr).trans ?_
  -- tile j is in use, so the body multiplied there
  have hnw : nw m (0 : Dev nD) = Chain.rd (Chain.W14 W) main_v28 (ix1 (0 : Fin 1)) := by
    show nword (0 : Dev nD) (tbl m 1) = _
    rw [nword_eq, tbl_eq]
    show V0 m (0 : Dev nD) (Proc.devRef .tc main_v28) (ix1 (0 : Fin 1)) = _
    rw [hV]
  have hc : k0_cond1 (grid0.coords ⟨j.val, hjN⟩) (nw m (0 : Dev nD)) = 1#1 := by
    refine cond1_of_lt _ _ ?_ ?_
    · rw [hnw, h28]; omega
    · rw [coords0 ⟨j.val, hjN⟩, hnw, h28]; exact hjlt
  unfold outAt
  rw [if_pos hc]
  refine (outA_apply (iblk m hO (0 : Dev nD) 0 ⟨j.val, hjN⟩) (iblk m hO (0 : Dev nD) 1 ⟨j.val, hjN⟩) ⟨p.val % 512, hr⟩ o).trans ?_
  -- the token tile's row is the token's own row; the weight block is the matrix of the token's label
  have hA : ∀ k : Fin 2048, iblk m hO (0 : Dev nD) 0 ⟨j.val, hjN⟩ (ix2 (⟨p.val % 512, hr⟩ : Fin 512) k) = x0 (ix2 t k) := by
    intro k
    refine (iblk0_apply m hO (0 : Dev nD) ⟨j.val, hjN⟩ ⟨p.val % 512, hr⟩ k p hpr).trans ?_
    show V0 m (0 : Dev nD) (Proc.devRef .tc main_v55) (ix2 p k) = _
    rw [hV]
    refine (h55 k).trans ?_
    rw [← h0, hW]
  have hl' : (tbl m 0 (ix1 j)).toNat = l.val := by
    rw [tbl_eq]
    show (V0 m (0 : Dev nD) (Proc.devRef .tc main_v68) (ix1 j)).toNat = _
    rw [hV]
    exact h68.trans hl
  have hB : ∀ k : Fin 2048, iblk m hO (0 : Dev nD) 1 ⟨j.val, hjN⟩ (ix3 (0 : Fin 1) o k) = x1 (ix3 l o k) := by
    intro k
    refine (iblk1_apply m hO (0 : Dev nD) ⟨j.val, hjN⟩ o k j rfl l hl').trans ?_
    rw [V_main_arg1, h1]
  exact Finset.sum_congr rfl fun k _ => by rw [hA k, hB k]

end Cert.KernelIdeal.Fr

end
-- ==== Proof.RefRead.lean ====
/-
  The reference's value.  Each expert's term is the product of the token rows whose label is that expert (the other
  rows zeroed) with that expert's weight matrix, and the eight terms are added up from a zero array; at a token whose
  label is expert l every other expert's term is a sum of zeros, so the element is the token's row times row o of
  expert l's weights.
-/
import proofs.«412671_j9363028706406_3_alg».proof.Proof.Gen.ReferenceIdeal.Read
import Idealize.ShloMosaic.Lib.StableHlo.Predicate

noncomputable section

open scoped BigOperators

namespace Cert.ReferenceIdeal.RefValue

open Cert.ReferenceIdeal Cert.ReferenceIdeal.Read Idealize.ShloMosaic Idealize.ShloMosaic.ValueIdx

/-- A product summed over rows that a bit either keeps or zeroes: the whole sum is kept or is zero. -/
theorem sum_select_mul (b : BitVec 1) (f g : Fin 2048 → EReal) :
    ∑ k : Fin 2048, Scalar.select b (f k) 0 * g k = if b = 1#1 then ∑ k : Fin 2048, f k * g k else 0 := by
  by_cases hb : b = 1#1
  · rw [if_pos hb]
    refine Finset.sum_congr rfl fun k _ => ?_
    rw [hb, select_one]
  · rw [if_neg hb, eq_zero_of_ne_one hb]
    refine Finset.sum_eq_zero fun k _ => ?_
    rw [select_zero, zero_mul]

/-- Expert 0's term at token `t`, output feature `o`: the token's row times row `o` of expert 0's weights when the
    token's label is 0, zero otherwise. -/
theorem term0 (x0 : (⟨S16384x2048, .f32⟩ : BufTy).Contents (Elt Ideal))
    (x1 : (⟨S8x2048x2048, .f32⟩ : BufTy).Contents (Elt Ideal)) (x2 : (⟨S16384, .i32⟩ : BufTy).Contents (Elt Ideal))
    (t : Fin 16384) (o : Fin 2048) :
    val_main_v8 (F := Ideal) x0 x1 x2 (ix2 t o) =
      if x2 (ix1 t) = 0#32 then ∑ k : Fin 2048, x0 (ix2 t k) * x1 (ix3 (0 : Fin 8) o k) else 0 := by
  have hl : ∀ k : Fin 2048, lidx_main_v8 (ix2 t o) k = ix2 t k := fun k =>
    funext fun a => Fin.ext (by match a with | ⟨0, _⟩ => rfl | ⟨1, _⟩ => rfl)
  have hw : ∀ k : Fin 2048, val_main_v7 (F := Ideal) x1 (ridx_main_v8 (ix2 t o) k) = x1 (ix3 (0 : Fin 8) o k) := by
    intro k
    rw [val_main_v7_apply, val_main_v6_apply, val_main_v5_apply]
    congr 1
    funext a
    apply Fin.ext
    have ho : o.val < 2048 := o.isLt
    have hk : k.val < 2048 := k.isLt
    match a with
    | ⟨0, _⟩ => rfl
    | ⟨1, _⟩ => show (o.val * 2048 + k.val) / 2048 % 2048 = o.val; omega
    | ⟨2, _⟩ => show (o.val * 2048 + k.val) % 2048 = k.val; omega
  have hm : ∀ k : Fin 2048, val_main_v4 (F := Ideal) x0 x2 (ix2 t k) =
      Scalar.select (IntOp.cmpi .eq (x2 (ix1 t)) 0#32) (x0 (ix2 t k)) 0 := by
    intro k
    rw [val_main_v4_apply, val_main_call0_v1_apply, val_main_v3_apply, val_main_v2_apply, val_main_v1_apply,
      val_main_c_apply, val_main_call0_v2_apply, val_main_call0_v0_apply, val_main_c_0_apply]
    have hi : idx_main_v3 (idx_main_call0_v1 (ix2 t k)) = ix1 t :=
      funext fun a => Fin.ext (by match a with | ⟨0, _⟩ => rfl)
    rw [hi]
    congr 1
    show (((0#32 : BitVec 32).toInt : ℝ) : EReal) = 0
    simp
  rw [val_main_v8_apply]
  simp only [hl, hw, hm]
  rw [sum_select_mul]
  simp only [StableHlo.Predicate.cmpi_eq_iff]

/-- Expert 1's term at token `t`, output feature `o`: the token's row times row `o` of expert 1's weights when the
    token's label is 1, zero otherwise. -/
theorem term1 (x0 : (⟨S16384x2048, .f32⟩ : BufTy).Contents (Elt Ideal))
    (x1 : (⟨S8x2048x2048, .f32⟩ : BufTy).Contents (Elt Ideal)) (x2 : (⟨S16384, .i32⟩ : BufTy).Contents (Elt Ideal))
    (t : Fin 16384) (o : Fin 2048) :
    val_main_v17 (F := Ideal) x0 x1 x2 (ix2 t o) =
      if x2 (ix1 t) = 1#32 then ∑ k : Fin 2048, x0 (ix2 t k) * x1 (ix3 (1 : Fin 8) o k) else 0 := by
  have hl : ∀ k : Fin 2048, lidx_main_v17 (ix2 t o) k = ix2 t k := fun k =>
    funext fun a => Fin.ext (by match a with | ⟨0, _⟩ => rfl | ⟨1, _⟩ => rfl)
  have hw : ∀ k : Fin 2048, val_main_v16 (F := Ideal) x1 (ridx_main_v17 (ix2 t o) k) = x1 (ix3 (1 : Fin 8) o k) := by
    intro k
    rw [val_main_v16_apply, val_main_v15_apply, val_main_v14_apply]
    congr 1
    funext a
    apply Fin.ext
    have ho : o.val < 2048 := o.isLt
    have hk : k.val < 2048 := k.isLt
    match a with
    | ⟨0, _⟩ => rfl
    | ⟨1, _⟩ => show (o.val * 2048 + k.val) / 2048 % 2048 = o.val; omega
    | ⟨2, _⟩ => show (o.val * 2048 + k.val) % 2048 = k.val; omega
  have hm : ∀ k : Fin 2048, val_main_v13 (F := Ideal) x0 x2 (ix2 t k) =
      Scalar.select (IntOp.cmpi .eq (x2 (ix1 t)) 1#32) (x0 (ix2 t k)) 0 := by
    intro k
    rw [val_main_v13_apply, val_main_call1_v1_apply, val_main_v12_apply, val_main_v11_apply, val_main_v10_apply,
      val_main_c_1_apply, val_main_call1_v2_apply, val_main_call1_v0_apply, val_main_c_2_apply]
    have hi : idx_main_v12 (idx_main_call1_v1 (ix2 t k)) = ix1 t :=
      funext fun a => Fin.ext (by match a with | ⟨0, _⟩ => rfl)
    rw [hi]
    congr 1
    show (((0#32 : BitVec 32).toInt : ℝ) : EReal) = 0
    simp
  rw [val_main_v17_apply]
  simp only [hl, hw, hm]
  rw [sum_select_mul]
  simp only [StableHlo.Predicate.cmpi_eq_iff]

/-- Expert 2's term at token `t`, output feature `o`: the token's row times row `o` of expert 2's weights when the
    token's label is 2, zero otherwise. -/
theorem term2 (x0 : (⟨S16384x2048, .f32⟩ : BufTy).Contents (Elt Ideal))
    (x1 : (⟨S8x2048x2048, .f32⟩ : BufTy).Contents (Elt Ideal)) (x2 : (⟨S16384, .i32⟩ : BufTy).Contents (Elt Ideal))
    (t : Fin 16384) (o : Fin 2048) :
    val_main_v26 (F := Ideal) x0 x1 x2 (ix2 t o) =
      if x2 (ix1 t) = 2#32 then ∑ k : Fin 2048, x0 (ix2 t k) * x1 (ix3 (2 : Fin 8) o k) else 0 := by
  have hl : ∀ k : Fin 2048, lidx_main_v26 (ix2 t o) k = ix2 t k := fun k =>
    funext fun a => Fin.ext (by match a with | ⟨0, _⟩ => rfl | ⟨1, _⟩ => rfl)
  have hw : ∀ k : Fin 2048, val_main_v25 (F := Ideal) x1 (ridx_main_v26 (ix2 t o) k) = x1 (ix3 (2 : Fin 8) o k) := by
    intro k
    rw [val_main_v25_apply, val_main_v24_apply, val_main_v23_apply]
    congr 1
    funext a
    apply Fin.ext
    have ho : o.val < 2048 := o.isLt
    have hk : k.val < 2048 := k.isLt
    match a with
    | ⟨0, _⟩ => rfl
    | ⟨1, _⟩ => show (o.val * 2048 + k.val) / 2048 % 2048 = o.val; omega
    | ⟨2, _⟩ => show (o.val * 2048 + k.val) % 2048 = k.val; omega
  have hm : ∀ k : Fin 2048, val_main_v22 (F := Ideal) x0 x2 (ix2 t k) =
      Scalar.select (IntOp.cmpi .eq (x2 (ix1 t)) 2#32) (x0 (ix2 t k)) 0 := by
    intro k
    rw [val_main_v22_apply, val_main_call2_v1_apply, val_main_v21_apply, val_main_v20_apply, val_main_v19_apply,
      val_main_c_3_apply, val_main_call2_v2_apply, val_main_call2_v0_apply, val_main_c_4_apply]
    have hi : idx_main_v21 (idx_main_call2_v1 (ix2 t k)) = ix1 t :=
      funext fun a => Fin.ext (by match a with | ⟨0, _⟩ => rfl)
    rw [hi]
    congr 1
    show (((0#32 : BitVec 32).toInt : ℝ) : EReal) = 0
    simp
  rw [val_main_v26_apply]
  simp only [hl, hw, hm]
  rw [sum_select_mul]
  simp only [StableHlo.Predicate.cmpi_eq_iff]

/-- Expert 3's term at token `t`, output feature `o`: the token's row times row `o` of expert 3's weights when the
    token's label is 3, zero otherwise. -/
theorem term3 (x0 : (⟨S16384x2048, .f32⟩ : BufTy).Contents (Elt Ideal))
    (x1 : (⟨S8x2048x2048, .f32⟩ : BufTy).Contents (Elt Ideal)) (x2 : (⟨S16384, .i32⟩ : BufTy).Contents (Elt Ideal))
    (t : Fin 16384) (o : Fin 2048) :
    val_main_v35 (F := Ideal) x0 x1 x2 (ix2 t o) =
      if x2 (ix1 t) = 3#32 then ∑ k : Fin 2048, x0 (ix2 t k) * x1 (ix3 (3 : Fin 8) o k) else 0 := by
  have hl : ∀ k : Fin 2048, lidx_main_v35 (ix2 t o) k = ix2 t k := fun k =>
    funext fun a => Fin.ext (by match a with | ⟨0, _⟩ => rfl | ⟨1, _⟩ => rfl)
  have hw : ∀ k : Fin 2048, val_main_v34 (F := Ideal) x1 (ridx_main_v35 (ix2 t o) k) = x1 (ix3 (3 : Fin 8) o k) := by
    intro k
    rw [val_main_v34_apply, val_main_v33_apply, val_main_v32_apply]
    congr 1
    funext a
    apply Fin.ext
    have ho : o.val < 2048 := o.isLt
    have hk : k.val < 2048 := k.isLt
    match a with
    | ⟨0, _⟩ => rfl
    | ⟨1, _⟩ => show (o.val * 2048 + k.val) / 2048 % 2048 = o.val; omega
    | ⟨2, _⟩ => show (o.val * 2048 + k.val) % 2048 = k.val; omega
  have hm : ∀ k : Fin 2048, val_main_v31 (F := Ideal) x0 x2 (ix2 t k) =
      Scalar.select (IntOp.cmpi .eq (x2 (ix1 t)) 3#32) (x0 (ix2 t k)) 0 := by
    intro k
    rw [val_main_v31_apply, val_main_call3_v1_apply, val_main_v30_apply, val_main_v29_apply, val_main_v28_apply,
      val_main_c_5_apply, val_main_call3_v2_apply, val_main_call3_v0_apply, val_main_c_6_apply]
    have hi : idx_main_v30 (idx_main_call3_v1 (ix2 t k)) = ix1 t :=
      funext fun a => Fin.ext (by match a with | ⟨0, _⟩ => rfl)
    rw [hi]
    congr 1
    show (((0#32 : BitVec 32).toInt : ℝ) : EReal) = 0
    simp
  rw [val_main_v35_apply]
  simp only [hl, hw, hm]
  rw [sum_select_mul]
  simp only [StableHlo.Predicate.cmpi_eq_iff]

/-- Expert 4's term at token `t`, output feature `o`: the token's row times row `o` of expert 4's weights when the
    token's label is 4, zero otherwise. -/
theorem term4 (x0 : (⟨S16384x2048, .f32⟩ : BufTy).Contents (Elt Ideal))
    (x1 : (⟨S8x2048x2048, .f32⟩ : BufTy).Contents (Elt Ideal)) (x2 : (⟨S16384, .i32⟩ : BufTy).Contents (Elt Ideal))
    (t : Fin 16384) (o : Fin 2048) :
    val_main_v44 (F := Ideal) x0 x1 x2 (ix2 t o) =
      if x2 (ix1 t) = 4#32 then ∑ k : Fin 2048, x0 (ix2 t k) * x1 (ix3 (4 : Fin 8) o k) else 0 := by
  have hl : ∀ k : Fin 2048, lidx_main_v44 (ix2 t o) k = ix2 t k := fun k =>
    funext fun a => Fin.ext (by match a with | ⟨0, _⟩ => rfl | ⟨1, _⟩ => rfl)
  have hw : ∀ k : Fin 2048, val_main_v43 (F := Ideal) x1 (ridx_main_v44 (ix2 t o) k) = x1 (ix3 (4 : Fin 8) o k) := by
    intro k
    rw [val_main_v43_apply, val_main_v42_apply, val_main_v41_apply]
    congr 1
    funext a
    apply Fin.ext
    have ho : o.val < 2048 := o.isLt
    have hk : k.val < 2048 := k.isLt
    match a with
    | ⟨0, _⟩ => rfl
    | ⟨1, _⟩ => show (o.val * 2048 + k.val) / 2048 % 2048 = o.val; omega
    | ⟨2, _⟩ => show (o.val * 2048 + k.val) % 2048 = k.val; omega
  have hm : ∀ k : Fin 2048, val_main_v40 (F := Ideal) x0 x2 (ix2 t k) =
      Scalar.select (IntOp.cmpi .eq (x2 (ix1 t)) 4#32) (x0 (ix2 t k)) 0 := by
    intro k
    rw [val_main_v40_apply, val_main_call4_v1_apply, val_main_v39_apply, val_main_v38_apply, val_main_v37_apply,
      val_main_c_7_apply, val_main_call4_v2_apply, val_main_call4_v0_apply, val_main_c_8_apply]
    have hi : idx_main_v39 (idx_main_call4_v1 (ix2 t k)) = ix1 t :=
      funext fun a => Fin.ext (by match a with | ⟨0, _⟩ => rfl)
    rw [hi]
    congr 1
    show (((0#32 : BitVec 32).toInt : ℝ) : EReal) = 0
    simp
  rw [val_main_v44_apply]
  simp only [hl, hw, hm]
  rw [sum_select_mul]
  simp only [StableHlo.Predicate.cmpi_eq_iff]

/-- Expert 5's term at token `t`, output feature `o`: the token's row times row `o` of expert 5's weights when the
    token's label is 5, zero otherwise. -/
theorem term5 (x0 : (⟨S16384x2048, .f32⟩ : BufTy).Contents (Elt Ideal))
    (x1 : (⟨S8x2048x2048, .f32⟩ : BufTy).Contents (Elt Ideal)) (x2 : (⟨S16384, .i32⟩ : BufTy).Contents (Elt Ideal))
    (t : Fin 16384) (o : Fin 2048) :
    val_main_v53 (F := Ideal) x0 x1 x2 (ix2 t o) =
      if x2 (ix1 t) = 5#32 then ∑ k : Fin 2048, x0 (ix2 t k) * x1 (ix3 (5 : Fin 8) o k) else 0 := by
  have hl : ∀ k : Fin 2048, lidx_main_v53 (ix2 t o) k = ix2 t k := fun k =>
    funext fun a => Fin.ext (by match a with | ⟨0, _⟩ => rfl | ⟨1, _⟩ => rfl)
  have hw : ∀ k : Fin 2048, val_main_v52 (F := Ideal) x1 (ridx_main_v53 (ix2 t o) k) = x1 (ix3 (5 : Fin 8) o k) := by
    intro k
    rw [val_main_v52_apply, val_main_v51_apply, val_main_v50_apply]
    congr 1
    funext a
    apply Fin.ext
    have ho : o.val < 2048 := o.isLt
    have hk : k.val < 2048 := k.isLt
    match a with
    | ⟨0, _⟩ => rfl
    | ⟨1, _⟩ => show (o.val * 2048 + k.val) / 2048 % 2048 = o.val; omega
    | ⟨2, _⟩ => show (o.val * 2048 + k.val) % 2048 = k.val; omega
  have hm : ∀ k : Fin 2048, val_main_v49 (F := Ideal) x0 x2 (ix2 t k) =
      Scalar.select (IntOp.cmpi .eq (x2 (ix1 t)) 5#32) (x0 (ix2 t k)) 0 := by
    intro k
    rw [val_main_v49_apply, val_main_call5_v1_apply, val_main_v48_apply, val_main_v47_apply, val_main_v46_apply,
      val_main_c_9_apply, val_main_call5_v2_apply, val_main_call5_v0_apply, val_main_c_10_apply]
    have hi : idx_main_v48 (idx_main_call5_v1 (ix2 t k)) = ix1 t :=
      funext fun a => Fin.ext (by match a with | ⟨0, _⟩ => rfl)
    rw [hi]
    congr 1
    show (((0#32 : BitVec 32).toInt : ℝ) : EReal) = 0
    simp
  rw [val_main_v53_apply]
  simp only [hl, hw, hm]
  rw [sum_select_mul]
  simp only [StableHlo.Predicate.cmpi_eq_iff]

/-- Expert 6's term at token `t`, output feature `o`: the token's row times row `o` of expert 6's weights when the
    token's label is 6, zero otherwise. -/
theorem term6 (x0 : (⟨S16384x2048, .f32⟩ : BufTy).Contents (Elt Ideal))
    (x1 : (⟨S8x2048x2048, .f32⟩ : BufTy).Contents (Elt Ideal)) (x2 : (⟨S16384, .i32⟩ : BufTy).Contents (Elt Ideal))
    (t : Fin 16384) (o : Fin 2048) :
    val_main_v62 (F := Ideal) x0 x1 x2 (ix2 t o) =
      if x2 (ix1 t) = 6#32 then ∑ k : Fin 2048, x0 (ix2 t k) * x1 (ix3 (6 : Fin 8) o k) else 0 := by
  have hl : ∀ k : Fin 2048, lidx_main_v62 (ix2 t o) k = ix2 t k := fun k =>
    funext fun a => Fin.ext (by match a with | ⟨0, _⟩ => rfl | ⟨1, _⟩ => rfl)
  have hw : ∀ k : Fin 2048, val_main_v61 (F := Ideal) x1 (ridx_main_v62 (ix2 t o) k) = x1 (ix3 (6 : Fin 8) o k) := by
    intro k
    rw [val_main_v61_apply, val_main_v60_apply, val_main_v59_apply]
    congr 1
    funext a
    apply Fin.ext
    have ho : o.val < 2048 := o.isLt
    have hk : k.val < 2048 := k.isLt
    match a with
    | ⟨0, _⟩ => rfl
    | ⟨1, _⟩ => show (o.val * 2048 + k.val) / 2048 % 2048 = o.val; omega
    | ⟨2, _⟩ => show (o.val * 2048 + k.val) % 2048 = k.val; omega
  have hm : ∀ k : Fin 2048, val_main_v58 (F := Ideal) x0 x2 (ix2 t k) =
      Scalar.select (IntOp.cmpi .eq (x2 (ix1 t)) 6#32) (x0 (ix2 t k)) 0 := by
    intro k
    rw [val_main_v58_apply, val_main_call6_v1_apply, val_main_v57_apply, val_main_v56_apply, val_main_v55_apply,
      val_main_c_11_apply, val_main_call6_v2_apply, val_main_call6_v0_apply, val_main_c_12_apply]
    have hi : idx_main_v57 (idx_main_call6_v1 (ix2 t k)) = ix1 t :=
      funext fun a => Fin.ext (by match a with | ⟨0, _⟩ => rfl)
    rw [hi]
    congr 1
    show (((0#32 : BitVec 32).toInt : ℝ) : EReal) = 0
    simp
  rw [val_main_v62_apply]
  simp only [hl, hw, hm]
  rw [sum_select_mul]
  simp only [StableHlo.Predicate.cmpi_eq_iff]

/-- Expert 7's term at token `t`, output feature `o`: the token's row times row `o` of expert 7's weights when the
    token's label is 7, zero otherwise. -/
theorem term7 (x0 : (⟨S16384x2048, .f32⟩ : BufTy).Contents (Elt Ideal))
    (x1 : (⟨S8x2048x2048, .f32⟩ : BufTy).Contents (Elt Ideal)) (x2 : (⟨S16384, .i32⟩ : BufTy).Contents (Elt Ideal))
    (t : Fin 16384) (o : Fin 2048) :
    val_main_v71 (F := Ideal) x0 x1 x2 (ix2 t o) =
      if x2 (ix1 t) = 7#32 then ∑ k : Fin 2048, x0 (ix2 t k) * x1 (ix3 (7 : Fin 8) o k) else 0 := by
  have hl : ∀ k : Fin 2048, lidx_main_v71 (ix2 t o) k = ix2 t k := fun k =>
    funext fun a => Fin.ext (by match a with | ⟨0, _⟩ => rfl | ⟨1, _⟩ => rfl)
  have hw : ∀ k : Fin 2048, val_main_v70 (F := Ideal) x1 (ridx_main_v71 (ix2 t o) k) = x1 (ix3 (7 : Fin 8) o k) := by
    intro k
    rw [val_main_v70_apply, val_main_v69_apply, val_main_v68_apply]
    congr 1
    funext a
    apply Fin.ext
    have ho : o.val < 2048 := o.isLt
    have hk : k.val < 2048 := k.isLt
    match a with
    | ⟨0, _⟩ => rfl
    | ⟨1, _⟩ => show (o.val * 2048 + k.val) / 2048 % 2048 = o.val; omega
    | ⟨2, _⟩ => show (o.val * 2048 + k.val) % 2048 = k.val; omega
  have hm : ∀ k : Fin 2048, val_main_v67 (F := Ideal) x0 x2 (ix2 t k) =
      Scalar.select (IntOp.cmpi .eq (x2 (ix1 t)) 7#32) (x0 (ix2 t k)) 0 := by
    intro k
    rw [val_main_v67_apply, val_main_call7_v1_apply, val_main_v66_apply, val_main_v65_apply, val_main_v64_apply,
      val_main_c_13_apply, val_main_call7_v2_apply, val_main_call7_v0_apply, val_main_c_14_apply]
    have hi : idx_main_v66 (idx_main_call7_v1 (ix2 t k)) = ix1 t :=
      funext fun a => Fin.ext (by match a with | ⟨0, _⟩ => rfl)
    rw [hi]
    congr 1
    show (((0#32 : BitVec 32).toInt : ℝ) : EReal) = 0
    simp
  rw [val_main_v71_apply]
  simp only [hl, hw, hm]
  rw [sum_select_mul]
  simp only [StableHlo.Predicate.cmpi_eq_iff]

/-- Eight terms of which only the one numbered by the label is kept, added up from zero: the kept term. -/
theorem pick (w : BitVec 32) (l : Fin 8) (hw : w = BitVec.ofNat 32 l.val) (S : Fin 8 → EReal) :
    0 + (if w = 0#32 then S 0 else 0) + (if w = 1#32 then S 1 else 0) + (if w = 2#32 then S 2 else 0)
      + (if w = 3#32 then S 3 else 0) + (if w = 4#32 then S 4 else 0) + (if w = 5#32 then S 5 else 0)
      + (if w = 6#32 then S 6 else 0) + (if w = 7#32 then S 7 else 0) = S l := by
  subst hw
  fin_cases l <;> simp

/-- The reference's result at token `t`, output feature `o`, when the token's label is the expert `l`. -/
theorem result_apply (x0 : (⟨S16384x2048, .f32⟩ : BufTy).Contents (Elt Ideal))
    (x1 : (⟨S8x2048x2048, .f32⟩ : BufTy).Contents (Elt Ideal)) (x2 : (⟨S16384, .i32⟩ : BufTy).Contents (Elt Ideal))
    (t : Fin 16384) (o : Fin 2048) (l : Fin 8) (hl : (x2 (ix1 t)).toNat = l.val) :
    val_main_v72 (F := Ideal) x0 x1 x2 (ix2 t o) = ∑ k : Fin 2048, x0 (ix2 t k) * x1 (ix3 l o k) := by
  have hx : x2 (ix1 t) = BitVec.ofNat 32 l.val := by
    apply BitVec.eq_of_toNat_eq
    rw [hl, BitVec.toNat_ofNat]
    have := l.isLt
    omega
  have hz : val_main_v0 (F := Ideal) (ix2 t o) = 0 := by
    rw [val_main_v0_apply, val_main_cst_apply]
    exact Ideal.ofBits_zero_f32
  rw [val_main_v72_apply, val_main_v63_apply, val_main_v54_apply, val_main_v45_apply, val_main_v36_apply,
    val_main_v27_apply, val_main_v18_apply, val_main_v9_apply, hz, term0, term1, term2, term3, term4, term5, term6,
    term7]
  exact pick _ l hx fun e => ∑ k : Fin 2048, x0 (ix2 t k) * x1 (ix3 e o k)

end Cert.ReferenceIdeal.RefValue

end
-- ==== Proof.PreDecode.lean ====
/-
  The precondition read at one token: every label is an expert (0 ≤ label < 8, read as signed words), so as a natural
  number the label is below 8.
-/
import proofs.«412671_j9363028706406_3_alg».proof.Pre_finite_inputs
import proofs.«412671_j9363028706406_3_alg».proof.Proof.Gen.Pre_finite_inputs
import Idealize.ShloMosaic.Lib.ReduceAll
import Idealize.ShloMosaic.Lib.ValueIdx
import Idealize.ShloMosaic.Lib.StableHlo.Predicate

noncomputable section

namespace Cert.PreDecode

open Idealize.ShloMosaic Idealize.ShloMosaic.ValueIdx Cert.Pre_finite_inputs

/-- A 32-bit word that is at least 0 and below 8 as a signed number is below 8 as a natural number. -/
theorem toNat_lt_eight (w : BitVec 32) (h1 : IntOp.cmpi .sge w 0#32 = 1#1) (h2 : IntOp.cmpi .slt w 8#32 = 1#1) :
    w.toNat < 8 := by
  simp only [IntOp.cmpi, StableHlo.Predicate.ofBool_eq_one_iff, BitVec.sle, BitVec.slt, decide_eq_true_eq] at h1 h2
  have e0 : (0#32 : BitVec 32).toInt = 0 := by decide
  have e8 : (8#32 : BitVec 32).toInt = 8 := by decide
  rw [e0] at h1
  rw [e8] at h2
  have hw := w.isLt
  rw [BitVec.toInt_eq_toNat_cond] at h1 h2
  split_ifs at h1 h2 <;> omega

/-- Under the precondition every label, as a natural number, is below 8. -/
theorem labels_lt {F : FTy → Type} [FloatOps F] (a0 : FVec F S16384x2048 .f32) (a1 : FVec F S8x2048x2048 .f32)
    (a2 : IVec S16384 32) (h : Cert.Pre_finite_inputs.fn (F := F) a0 a1 a2 = fun _ => 1#1) (t : Fin 16384) :
    (a2 (ix1 t)).toNat < 8 := by
  haveI : Subsingleton S_.Idx := ⟨fun _ _ => funext fun d => d.elim0⟩
  have e := congrFun h ix0
  unfold Cert.Pre_finite_inputs.fn Cert.Pre_finite_inputs.fn_part1 at e
  dsimp only at e
  obtain ⟨e12, e15⟩ := IntOp.andi_eq_one.1 (show IntOp.andi _ _ = 1#1 from e)
  obtain ⟨_, e11⟩ := IntOp.andi_eq_one.1 (show IntOp.andi _ _ = 1#1 from e12)
  have g1 := Host.reduce_andi_all _ _ _ _ _ e11 (ix1 t)
  have g2 := Host.reduce_andi_all _ _ _ _ _ e15 (ix1 t)
  exact toNat_lt_eight (a2 (ix1 t)) g1 g2

end Cert.PreDecode

end
-- ==== Proof.lean ====
/-
  A mixture-of-experts linear layer: token t, labelled with expert e t, is multiplied by expert e t's weight matrix.
  The kernel lays the tokens out expert by expert in a buffer padded to whole tiles of 512 rows, multiplies each tile
  in use by the one expert that owns it (zeroing the tiles beyond), and gathers each token's row back; the reference
  multiplies, for each expert, the tokens of that expert (the others zeroed) by the expert's matrix and adds the eight
  products.  Over the extended reals both give, at token t and feature o, the sum over k of x[t,k] · w[e t,o,k]: on the
  kernel's side because the token's row in the padded buffer holds the token, lies in a tile in use, and that tile is
  its expert's; on the reference's side because the seven other products contribute sums of zeros.  The labels must
  be experts (0 ≤ label < 8): outside that range the two programs differ.  The three frames: the kernel program's
  (word-level and idealized alike) is the pipeline's launch theorem around the host operations, its body obligation
  the body's two branches, its table side condition the clip to 0 … 7 that the host applies to the tile experts; the
  reference's is its run.
-/
import proofs.«412671_j9363028706406_3_alg».proof.Defs
import proofs.«412671_j9363028706406_3_alg».proof.Proof.Gen.Kernel
import proofs.«412671_j9363028706406_3_alg».proof.Proof.Gen.KernelIdeal
import proofs.«412671_j9363028706406_3_alg».proof.Proof.Gen.ReferenceIdeal
import proofs.«412671_j9363028706406_3_alg».proof.Proof.Gen.Pre_finite_inputs
import proofs.«412671_j9363028706406_3_alg».proof.Proof.WFrBody
import proofs.«412671_j9363028706406_3_alg».proof.Proof.WFrOkAll
import proofs.«412671_j9363028706406_3_alg».proof.Proof.FrBody
import proofs.«412671_j9363028706406_3_alg».proof.Proof.FrOkAll
import proofs.«412671_j9363028706406_3_alg».proof.Proof.KernelValue
import proofs.«412671_j9363028706406_3_alg».proof.Proof.RefRead
import proofs.«412671_j9363028706406_3_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs and leaves its arguments as they were. -/
theorem frame_k : Cert.frame_Kernel := fun m ρ _ => Cert.Kernel.Fr.frame m ρ (Cert.Kernel.Fr.ok m)

/-- So does the idealized one. -/
theorem frame_ki : Cert.frame_KernelIdeal := fun m ρ _ => Cert.KernelIdeal.Fr.frame m ρ (Cert.KernelIdeal.Fr.ok m)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals the two programs end with the same array: at token t and feature o, the token's row times
    row o of its expert's weights. -/
theorem algebraic : Cert.algebraic_KernelIdeal_ReferenceIdeal := by
  intro m ρ m' ρ' hpre hagree
  have hO := Cert.KernelIdeal.Fr.ok m
  refine ⟨fun c => Cert.ReferenceIdeal.Value.res_main_v72 (F := Ideal) m' c, ?_, ?_⟩
  · refine (θ_run (Cert.KernelIdeal.defs (F := Ideal)) _ _).mono (fun r h c => ?_) (Cert.KernelIdeal.Fr.run_main m ρ hO)
    obtain rfl : c = 0 := Subsingleton.elim _ _
    obtain ⟨a0, a1, a2⟩ := Cert.KernelIdeal.Fr.post_args m hO r h 0
    refine ⟨?_, a0, a1, a2⟩
    rw [Cert.KernelIdeal.Fr.post_result m hO r h 0]
    show _ = Cert.ReferenceIdeal.Value.res_main_v72 (F := Ideal) m' 0
    rw [Cert.ReferenceIdeal.Read.val_main_v72_eq]
    funext i
    obtain ⟨t, o, rfl⟩ : ∃ (t : Fin 16384) (o : Fin 2048), i = ix2 t o := ⟨i 0, i 1, eq_ix2 i⟩
    have hlt : ∀ s : Fin 16384, (m (((0 : Dev Cert.KernelIdeal.nD).tc : Thread Cert.KernelIdeal.nD Cert.KernelIdeal.τ).loc Cert.KernelIdeal.main_arg2) (ix1 s)).toNat < 8 :=
      fun s => Cert.PreDecode.labels_lt _ _ _ (hpre 0) s
    rw [Cert.ReferenceIdeal.RefValue.result_apply _ _ _ t o ⟨_, hlt t⟩ (by rw [(hagree 0).2.2])]
    rw [(hagree 0).1, (hagree 0).2.1]
    exact Cert.KernelIdeal.Fr.out_apply m hO (fun s => (m (((0 : Dev Cert.KernelIdeal.nD).tc : Thread Cert.KernelIdeal.nD Cert.KernelIdeal.τ).loc Cert.KernelIdeal.main_arg2) (ix1 s)).toNat)
      _ _ _ _ rfl rfl rfl rfl (fun _ => rfl) hlt t o ⟨_, hlt t⟩ rfl
  · exact (θ_run (Cert.ReferenceIdeal.defs (F := Ideal)) _ _).mono (fun _ h c => h c) (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
